-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x32 : Shape := ⟨2, ![2048, 32]⟩
abbrev S3072x2048 : Shape := ⟨2, ![3072, 2048]⟩
abbrev S2048x2048 : Shape := ⟨2, ![2048, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S3072x2048 1) : IVec S_ 1 :=
  let main_c_5 : IVec S_ 1 := constantI S_ 1 1#1
  let main_v17 : IVec S_ 1 := (fun x v => Host.reduce IntOp.andi x v reducesTo_S3072x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2x2048x2048 .f32) (main_arg1 : FVec F S2048x32 .f32) (main_arg2 : FVec F S2048x32 .f32) (main_arg3 : FVec F S3072x2048 .f32) (main_arg4 : FVec F S2048x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S2048x32 .f32 := Host.absf main_arg2
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_c_3 : IVec S_ 1 := constantI S_ 1 1#1
  let main_v12 : IVec S_ 1 := (fun x v => Host.reduce IntOp.andi x v reducesTo_S2048x32_S_d0_1 h_S_) main_v11 main_c_3
  let main_v13 : IVec S_ 1 := andi main_v8 main_v12
  let main_v14 : FVec F S3072x2048 .f32 := Host.absf main_arg3
  let main_cst_4 : FVec F S_ .f32 := constant S_ .f32 0x7F800000#32
  let main_v15 : FVec F S3072x2048 .f32 := broadcastInDim S3072x2048 ![] bcast_S_S3072x2048 main_cst_4
  let main_v16 : IVec S3072x2048 1 := cmpf .olt main_v14 main_v15
  fn_part1 (F := F) main_arg4 main_v13 main_v16
-- ==== Kernel.lean ====
abbrev S2x2048x2048 : Shape := ⟨3, ![2, 2048, 2048]⟩
abbrev S2048x32 : Shape := ⟨2, ![2048, 32]⟩
abbrev S3072x2048 : Shape := ⟨2, ![3072, 2048]⟩
abbrev S2048x2048 : Shape := ⟨2, ![2048, 2048]⟩
abbrev S2048x3072 : Shape := ⟨2, ![2048, 3072]⟩
abbrev S4096x2048 : Shape := ⟨2, ![4096, 2048]⟩
abbrev S4096x3072 : Shape := ⟨2, ![4096, 3072]⟩
abbrev S512x2048 : Shape := ⟨2, ![512, 2048]⟩
abbrev S2048x1024 : Shape := ⟨2, ![2048, 1024]⟩
abbrev S512x1024 : Shape := ⟨2, ![512, 1024]⟩
abbrev S2x2048x3072 : Shape := ⟨3, ![2, 2048, 3072]⟩
abbrev S2048x64 : Shape := ⟨2, ![2048, 64]⟩
abbrev S1x256x384 : Shape := ⟨3, ![1, 256, 384]⟩
abbrev S1x2048x384 : Shape := ⟨3, ![1, 2048, 384]⟩
abbrev S1x256x256 : Shape := ⟨3, ![1, 256, 256]⟩
abbrev S256x64 : Shape := ⟨2, ![256, 64]⟩
abbrev S256x384 : Shape := ⟨2, ![256, 384]⟩
abbrev S2048x384 : Shape := ⟨2, ![2048, 384]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S1x256x64 : Shape := ⟨3, ![1, 256, 64]⟩
abbrev S2048x512 : Shape := ⟨2, ![2048, 512]⟩
abbrev S512x512 : Shape := ⟨2, ![512, 512]⟩

abbrev nBuf : Space → Nat
  | .hbm => 19
  | .vmem => 20
  | .smem => 0
  | _ => 0

abbrev bufTy : (tb : Table) → Fin (tcTables nBuf tb) → BufTy
  | .hbm, ⟨0, _⟩ => ⟨S2x2048x2048, .f32⟩
  | .hbm, ⟨1, _⟩ => ⟨S2048x32, .f32⟩
  | .hbm, ⟨2, _⟩ => ⟨S2048x32, .f32⟩
  | .hbm, ⟨3, _⟩ => ⟨S3072x2048, .f32⟩
  | .hbm, ⟨4, _⟩ => ⟨S2048x2048, .f32⟩
  | .hbm, ⟨5, _⟩ => ⟨S2048x3072, .f32⟩
  | .hbm, ⟨6, _⟩ => ⟨S2048x3072, .bf16⟩
  | .hbm, ⟨7, _⟩ => ⟨S2048x2048, .f32⟩
  | .hbm, ⟨8, _⟩ => ⟨S2048x2048, .bf16⟩
  | .hbm, ⟨9, _⟩ => ⟨S4096x2048, .f32⟩
  | .hbm, ⟨10, _⟩ => ⟨S4096x3072, .f32⟩
  | .hbm, ⟨11, _⟩ => ⟨S2x2048x3072, .f32⟩
  | .hbm, ⟨12, _⟩ => ⟨S2048x64, .f32⟩
  | .hbm, ⟨13, _⟩ => ⟨S2048x32, .f32⟩
  | .hbm, ⟨14, _⟩ => ⟨S2048x64, .f32⟩
  | .hbm, ⟨15, _⟩ => ⟨S2x2048x2048, .bf16⟩
  | .hbm, ⟨16, _⟩ => ⟨S4096x2048, .bf16⟩
  | .hbm, ⟨17, _⟩ => ⟨S4096x2048, .f32⟩
  | .hbm, ⟨18, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x256x384, .f32⟩
  | .local _ .vmem, ⟨7, _⟩ => ⟨S1x256x384, .f32⟩
  | .local _ .vmem, ⟨8, _⟩ => ⟨S1x2048x384, .f32⟩
  | .local _ .vmem, ⟨9, _⟩ => ⟨S1x2048x384, .f32⟩
  | .local _ .vmem, ⟨10, _⟩ => ⟨S2048x64, .f32⟩
  | .local _ .vmem, ⟨11, _⟩ => ⟨S2048x64, .f32⟩
  | .local _ .vmem, ⟨12, _⟩ => ⟨S1x256x256, .bf16⟩
  | .local _ .vmem, ⟨13, _⟩ => ⟨S1x256x256, .bf16⟩
  | .local _ .vmem, ⟨14, _⟩ => ⟨S512x2048, .bf16⟩
  | .local _ .vmem, ⟨15, _⟩ => ⟨S512x2048, .bf16⟩
  | .local _ .vmem, ⟨16, _⟩ => ⟨S2048x512, .bf16⟩
  | .local _ .vmem, ⟨17, _⟩ => ⟨S2048x512, .bf16⟩
  | .local _ .vmem, ⟨18, _⟩ => ⟨S512x512, .f32⟩
  | .local _ .vmem, ⟨19, _⟩ => ⟨S512x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 8, 8], ![false, false, false]⟩

def k1_mult1 (i : grid1.Coords) : BitVec 32 :=
  let arg2 : BitVec 32 := BitVec.ofNat 32 (i 2).val
  let c256_i32 : BitVec 32 := 256#32
  let v0 : BitVec 32 := Scalar.muli arg2 c256_i32
  v0
def k1_off1 (i : grid1.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v2 : Index := Scalar.indexCast v1
  let c0 : Index := 0#32
  ![v2.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S2048x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S3072x2048_S2048x3072_1_0 : S3072x2048.Transposes [1, 0] S2048x3072
  bitsLt_bf16_f32 : FTy.bits .bf16 < FTy.bits .f32
  transposes_S2048x2048_S2048x2048_1_0 : S2048x2048.Transposes [1, 0] S2048x2048
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S4096x3072_S2x2048x3072 : S4096x3072.ShapeCasts S2x2048x3072
  concatenates_S2048x32_S2048x32_S2048x64_d1 : Shape.Concatenates [S2048x32, S2048x32] S2048x64 1
  h_S256x64 : 0 < S256x64.numel
  shapeCasts_S256x64_S256x64 : S256x64.ShapeCasts S256x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x256x384_S1x256x384_0_0_0 : ∀ a, (![0, 0, 0] : Fin 3 → Nat) a + S1x256x384.size a ≤ S1x256x384.size a
  h_S1x256x384 : 0 < S1x256x384.numel
  shapeCasts_S1x256x384_S256x384 : S1x256x384.ShapeCasts S256x384
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  slices_S2048x384_o0_256_S2048x64 : S2048x384.Slices ![0, 256] S2048x64
  slices_S2048x384_o0_320_S2048x64 : S2048x384.Slices ![0, 320] S2048x64
  rotates_S2048x64_d1 : S2048x64.Rotates 1 none
  slices_S256x384_o0_0_S256x64 : S256x384.Slices ![0, 0] S256x64
  rotates_S256x64_d1 : S256x64.Rotates 1 none
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x256x256_S1x256x64_0_0_0 : ∀ a, (![0, 0, 0] : Fin 3 → Nat) a + S1x256x64.size a ≤ S1x256x256.size a
  h_S1x256x64 : 0 < S1x256x64.numel
  shapeCasts_S1x256x64_S256x64 : S1x256x64.ShapeCasts S256x64
  shapeCasts_S256x64_S1x256x64 : S256x64.ShapeCasts S1x256x64
  packedbf16_S1x256x256_S1x256x64_0_0_0 : (Rect.unit (s := S1x256x256) ![0, 0, 0] S1x256x64.size inb_S1x256x256_S1x256x64_0_0_0).PackedRows (EltTy.packing .bf16)
  slices_S256x384_o0_64_S256x64 : S256x384.Slices ![0, 64] S256x64
  inb_S1x256x256_S1x256x64_0_0_64 : ∀ a, (![0, 0, 64] : Fin 3 → Nat) a + S1x256x64.size a ≤ S1x256x256.size a
  packedbf16_S1x256x256_S1x256x64_0_0_64 : (Rect.unit (s := S1x256x256) ![0, 0, 64] S1x256x64.size inb_S1x256x256_S1x256x64_0_0_64).PackedRows (EltTy.packing .bf16)
  slices_S256x384_o0_128_S256x64 : S256x384.Slices ![0, 128] S256x64
  inb_S1x256x256_S1x256x64_0_0_128 : ∀ a, (![0, 0, 128] : Fin 3 → Nat) a + S1x256x64.size a ≤ S1x256x256.size a
  packedbf16_S1x256x256_S1x256x64_0_0_128 : (Rect.unit (s := S1x256x256) ![0, 0, 128] S1x256x64.size inb_S1x256x256_S1x256x64_0_0_128).PackedRows (EltTy.packing .bf16)
  slices_S256x384_o0_192_S256x64 : S256x384.Slices ![0, 192] S256x64
  inb_S1x256x256_S1x256x64_0_0_192 : ∀ a, (![0, 0, 192] : Fin 3 → Nat) a + S1x256x64.size a ≤ S1x256x256.size a
  packedbf16_S1x256x256_S1x256x64_0_0_192 : (Rect.unit (s := S1x256x256) ![0, 0, 192] S1x256x64.size inb_S1x256x256_S1x256x64_0_0_192).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S4096x2048_S2x2048x2048 : S4096x2048.ShapeCasts S2x2048x2048
  dot_S512x2048_S2048x1024_S512x1024_1_0_0_1_n_n_wf : DotDims.WF S512x2048 S2048x1024 S512x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x3072.size a
  hwx0_1 : ∀ i : grid0.Coords, EltTy.bits .bf16 = 32 ∨ (Rect.block (s := S2048x3072) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .f32 = 32 ∨ (Rect.block (s := S4096x3072) S512x1024.size (cc0_transform_2 i) (hinb0_2 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x64.size a ≤ S2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x384.size a ≤ S2x2048x3072.size a
  hwx1_0 : ∀ i : grid1.Coords, EltTy.bits .f32 = 32 ∨ (Rect.block (s := S2x2048x3072) S1x256x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x384.size a ≤ S2x2048x3072.size a
  hwx1_1 : ∀ i : grid1.Coords, EltTy.bits .f32 = 32 ∨ (Rect.block (s := S2x2048x3072) S1x2048x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .f32 = 32 ∨ (Rect.block (s := S2048x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S2048x64.size a
  hwx1_3 : ∀ i : grid1.Coords, EltTy.bits .f32 = 32 ∨ (Rect.block (s := S2048x64) S2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S2x2048x2048.size a
  hwx1_4 : ∀ i : grid1.Coords, EltTy.bits .bf16 = 32 ∨ (Rect.block (s := S2x2048x2048) S1x256x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x2048.size a
  hwx2_1 : ∀ i : grid2.Coords, EltTy.bits .bf16 = 32 ∨ (Rect.block (s := S2048x2048) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x2048.size a
  hwx2_2 : ∀ i : grid2.Coords, EltTy.bits .f32 = 32 ∨ (Rect.block (s := S4096x2048) S512x512.size (cc2_transform_2 i) (hinb2_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v4) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x256x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2048x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S2048x32 : Shape := ⟨2, ![2048, 32]⟩
abbrev S3072x2048 : Shape := ⟨2, ![3072, 2048]⟩
abbrev S2048x2048 : Shape := ⟨2, ![2048, 2048]⟩
abbrev S2x2048x3072 : Shape := ⟨3, ![2, 2048, 3072]⟩
abbrev S2x2048x8x6x64 : Shape := ⟨5, ![2, 2048, 8, 6, 64]⟩
abbrev S2x2048x8x4x64 : Shape := ⟨5, ![2, 2048, 8, 4, 64]⟩
abbrev S2x2048x32x64 : Shape := ⟨4, ![2, 2048, 32, 64]⟩
abbrev S2x2048x8x1x64 : Shape := ⟨5, ![2, 2048, 8, 1, 64]⟩
abbrev S2x2048x8x64 : Shape := ⟨4, ![2, 2048, 8, 64]⟩
abbrev S2x32x2048x64 : Shape := ⟨4, ![2, 32, 2048, 64]⟩
abbrev S2x8x2048x64 : Shape := ⟨4, ![2, 8, 2048, 64]⟩
abbrev S2x8x4x2048x64 : Shape := ⟨5, ![2, 8, 4, 2048, 64]⟩
abbrev S2x32x2048x0 : Shape := ⟨4, ![2, 32, 2048, 0]⟩
abbrev S1x1x2048x32 : Shape := ⟨4, ![1, 1, 2048, 32]⟩
abbrev S2x32x2048x32 : Shape := ⟨4, ![2, 32, 2048, 32]⟩
abbrev S2x32x2048x2048 : Shape := ⟨4, ![2, 32, 2048, 2048]⟩
abbrev S_ : Shape := ⟨0, ![]⟩
abbrev S2x32x2048 : Shape := ⟨3, ![2, 32, 2048]⟩
abbrev S2x32x2048x1 : Shape := ⟨4, ![2, 32, 2048, 1]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x32, .f32⟩
  | .hbm, ⟨2, _⟩ => ⟨S2048x32, .f32⟩
  | .hbm, ⟨3, _⟩ => ⟨S3072x2048, .f32⟩
  | .hbm, ⟨4, _⟩ => ⟨S2048x2048, .f32⟩
  | .hbm, ⟨5, _⟩ => ⟨S2x2048x3072, .f32⟩
  | .hbm, ⟨6, _⟩ => ⟨S2x2048x8x6x64, .f32⟩
  | .hbm, ⟨7, _⟩ => ⟨S2x2048x8x4x64, .f32⟩
  | .hbm, ⟨8, _⟩ => ⟨S2x2048x32x64, .f32⟩
  | .hbm, ⟨9, _⟩ => ⟨S2x2048x8x1x64, .f32⟩
  | .hbm, ⟨10, _⟩ => ⟨S2x2048x8x64, .f32⟩
  | .hbm, ⟨11, _⟩ => ⟨S2x2048x8x1x64, .f32⟩
  | .hbm, ⟨12, _⟩ => ⟨S2x2048x8x64, .f32⟩
  | .hbm, ⟨13, _⟩ => ⟨S2x32x2048x64, .f32⟩
  | .hbm, ⟨14, _⟩ => ⟨S2x8x2048x64, .f32⟩
  | .hbm, ⟨15, _⟩ => ⟨S2x8x4x2048x64, .f32⟩
  | .hbm, ⟨16, _⟩ => ⟨S2x32x2048x64, .f32⟩
  | .hbm, ⟨17, _⟩ => ⟨S2x8x2048x64, .f32⟩
  | .hbm, ⟨18, _⟩ => ⟨S2x8x4x2048x64, .f32⟩
  | .hbm, ⟨19, _⟩ => ⟨S2x32x2048x64, .f32⟩
  | .hbm, ⟨20, _⟩ => ⟨S2x32x2048x0, .f32⟩
  | .hbm, ⟨21, _⟩ => ⟨S1x1x2048x32, .f32⟩
  | .hbm, ⟨22, _⟩ => ⟨S1x1x2048x32, .f32⟩
  | .hbm, ⟨23, _⟩ => ⟨S2x32x2048x32, .f32⟩
  | .hbm, ⟨24, _⟩ => ⟨S2x32x2048x32, .f32⟩
  | .hbm, ⟨25, _⟩ => ⟨S2x32x2048x32, .f32⟩
  | .hbm, ⟨26, _⟩ => ⟨S2x32x2048x32, .f32⟩
  | .hbm, ⟨27, _⟩ => ⟨S2x32x2048x32, .f32⟩
  | .hbm, ⟨28, _⟩ => ⟨S2x32x2048x32, .f32⟩
  | .hbm, ⟨29, _⟩ => ⟨S2x32x2048x32, .f32⟩
  | .hbm, ⟨30, _⟩ => ⟨S2x32x2048x32, .f32⟩
  | .hbm, ⟨31, _⟩ => ⟨S2x32x2048x32, .f32⟩
  | .hbm, ⟨32, _⟩ => ⟨S2x32x2048x32, .f32⟩
  | .hbm, ⟨33, _⟩ => ⟨S2x32x2048x32, .f32⟩
  | .hbm, ⟨34, _⟩ => ⟨S2x32x2048x32, .f32⟩
  | .hbm, ⟨35, _⟩ => ⟨S2x32x2048x64, .f32⟩
  | .hbm, ⟨36, _⟩ => ⟨S2x32x2048x0, .f32⟩
  | .hbm, ⟨37, _⟩ => ⟨S1x1x2048x32, .f32⟩
  | .hbm, ⟨38, _⟩ => ⟨S1x1x2048x32, .f32⟩
  | .hbm, ⟨39, _⟩ => ⟨S2x32x2048x32, .f32⟩
  | .hbm, ⟨40, _⟩ => ⟨S2x32x2048x32, .f32⟩
  | .hbm, ⟨41, _⟩ => ⟨S2x32x2048x32, .f32⟩
  | .hbm, ⟨42, _⟩ => ⟨S2x32x2048x32, .f32⟩
  | .hbm, ⟨43, _⟩ => ⟨S2x32x2048x32, .f32⟩
  | .hbm, ⟨44, _⟩ => ⟨S2x32x2048x32, .f32⟩
  | .hbm, ⟨45, _⟩ => ⟨S2x32x2048x32, .f32⟩
  | .hbm, ⟨46, _⟩ => ⟨S2x32x2048x32, .f32⟩
  | .hbm, ⟨47, _⟩ => ⟨S2x32x2048x32, .f32⟩
  | .hbm, ⟨48, _⟩ => ⟨S2x32x2048x32, .f32⟩
  | .hbm, ⟨49, _⟩ => ⟨S2x32x2048x32, .f32⟩
  | .hbm, ⟨50, _⟩ => ⟨S2x32x2048x32, .f32⟩
  | .hbm, ⟨51, _⟩ => ⟨S2x32x2048x64, .f32⟩
  | .hbm, ⟨52, _⟩ => ⟨S2x32x2048x2048, .f32⟩
  | .hbm, ⟨53, _⟩ => ⟨S_, .f32⟩
  | .hbm, ⟨54, _⟩ => ⟨S2x32x2048x2048, .f32⟩
  | .hbm, ⟨55, _⟩ => ⟨S2x32x2048x2048, .f32⟩
  | .hbm, ⟨56, _⟩ => ⟨S_, .f32⟩
  | .hbm, ⟨57, _⟩ => ⟨S2x32x2048, .f32⟩
  | .hbm, ⟨58, _⟩ => ⟨S_, .f32⟩
  | .hbm, ⟨59, _⟩ => ⟨S2x32x2048, .f32⟩
  | .hbm, ⟨60, _⟩ => ⟨S2x32x2048, .f32⟩
  | .hbm, ⟨61, _⟩ => ⟨S2x32x2048x1, .f32⟩
  | .hbm, ⟨62, _⟩ => ⟨S2x32x2048x2048, .f32⟩
  | .hbm, ⟨63, _⟩ => ⟨S2x32x2048x2048, .f32⟩
  | .hbm, ⟨64, _⟩ => ⟨S2x32x2048x2048, .f32⟩
  | .hbm, ⟨65, _⟩ => ⟨S_, .f32⟩
  | .hbm, ⟨66, _⟩ => ⟨S2x32x2048, .f32⟩
  | .hbm, ⟨67, _⟩ => ⟨S2x32x2048x1, .f32⟩
  | .hbm, ⟨68, _⟩ => ⟨S2x32x2048x2048, .f32⟩
  | .hbm, ⟨69, _⟩ => ⟨S2x32x2048x2048, .f32⟩
  | .hbm, ⟨70, _⟩ => ⟨S2x32x2048x64, .f32⟩
  | .hbm, ⟨71, _⟩ => ⟨S2x2048x32x64, .f32⟩
  | .hbm, ⟨72, _⟩ => ⟨S2x2048x2048, .f32⟩
  | .hbm, ⟨73, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst : Ref sig .tc := ⟨.hbm, 53, rfl⟩
abbrev main_v48 : Ref sig .tc := ⟨.hbm, 54, rfl⟩
abbrev main_v49 : Ref sig .tc := ⟨.hbm, 55, rfl⟩
abbrev main_cst_0 : Ref sig .tc := ⟨.hbm, 56, rfl⟩
abbrev main_v50 : Ref sig .tc := ⟨.hbm, 57, rfl⟩
abbrev main_cst_1 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_2 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩

abbrev nD : Nat := 1
abbrev τ : Topo := Topo.v7x

variable {F : FTy → Type} [FloatOps F]

class Facts₀ : Prop where
  shapeCasts_S2x2048x3072_S2x2048x8x6x64 : S2x2048x3072.ShapeCasts S2x2048x8x6x64
  slices_S2x2048x8x6x64_S2x2048x8x4x64_0_0_0_0_0 : S2x2048x8x6x64.Slices ![0, 0, 0, 0, 0] S2x2048x8x4x64
  shapeCasts_S2x2048x8x4x64_S2x2048x32x64 : S2x2048x8x4x64.ShapeCasts S2x2048x32x64
  slices_S2x2048x8x6x64_S2x2048x8x1x64_0_0_0_4_0 : S2x2048x8x6x64.Slices ![0, 0, 0, 4, 0] S2x2048x8x1x64
  shapeCasts_S2x2048x8x1x64_S2x2048x8x64 : S2x2048x8x1x64.ShapeCasts S2x2048x8x64
  slices_S2x2048x8x6x64_S2x2048x8x1x64_0_0_0_5_0 : S2x2048x8x6x64.Slices ![0, 0, 0, 5, 0] S2x2048x8x1x64
  transposes_S2x2048x32x64_S2x32x2048x64_0_2_1_3 : S2x2048x32x64.Transposes [0, 2, 1, 3] S2x32x2048x64
  transposes_S2x2048x8x64_S2x8x2048x64_0_2_1_3 : S2x2048x8x64.Transposes [0, 2, 1, 3] S2x8x2048x64
  bcast_S2x8x2048x64_S2x8x4x2048x64_0_1_3_4 : S2x8x2048x64.BroadcastsInDim S2x8x4x2048x64 (![0, 1, 3, 4] : Fin 4 → Fin S2x8x4x2048x64.rank)
  shapeCasts_S2x8x4x2048x64_S2x32x2048x64 : S2x8x4x2048x64.ShapeCasts S2x32x2048x64
  slices_S2x32x2048x64_S2x32x2048x0_0_0_0_64 : S2x32x2048x64.Slices ![0, 0, 0, 64] S2x32x2048x0
  bcast_S2048x32_S1x1x2048x32_2_3 : S2048x32.BroadcastsInDim S1x1x2048x32 (![2, 3] : Fin 2 → Fin S1x1x2048x32.rank)
  slices_S2x32x2048x64_S2x32x2048x32_0_0_0_0 : S2x32x2048x64.Slices ![0, 0, 0, 0] S2x32x2048x32
  slices_S2x32x2048x64_S2x32x2048x32_0_0_0_32 : S2x32x2048x64.Slices ![0, 0, 0, 32] S2x32x2048x32
  bcast_S1x1x2048x32_S2x32x2048x32_0_1_2_3 : S1x1x2048x32.BroadcastsInDim S2x32x2048x32 (![0, 1, 2, 3] : Fin 4 → Fin S2x32x2048x32.rank)
  concatenates_S2x32x2048x32_S2x32x2048x32_S2x32x2048x0_S2x32x2048x64_d3 : Shape.Concatenates [S2x32x2048x32, S2x32x2048x32, S2x32x2048x0] S2x32x2048x64 3
  bcast_S_S2x32x2048x2048 : S_.BroadcastsInDim S2x32x2048x2048 (![] : Fin 0 → Fin S2x32x2048x2048.rank)
  reducesTo_S2x32x2048x2048_S2x32x2048_d3 : S2x32x2048x2048.ReducesTo [3] S2x32x2048
  h_S_ : 0 < S_.numel
  bcast_S_S2x32x2048 : S_.BroadcastsInDim S2x32x2048 (![] : Fin 0 → Fin S2x32x2048.rank)
  bcast_S2x32x2048_S2x32x2048x1_0_1_2 : S2x32x2048.BroadcastsInDim S2x32x2048x1 (![0, 1, 2] : Fin 3 → Fin S2x32x2048x1.rank)
  bcast_S2x32x2048x1_S2x32x2048x2048_0_1_2_3 : S2x32x2048x1.BroadcastsInDim S2x32x2048x2048 (![0, 1, 2, 3] : Fin 4 → Fin S2x32x2048x2048.rank)
  transposes_S2x32x2048x64_S2x2048x32x64_0_2_1_3 : S2x32x2048x64.Transposes [0, 2, 1, 3] S2x2048x32x64
  shapeCasts_S2x2048x32x64_S2x2048x2048 : S2x2048x32x64.ShapeCasts S2x2048x2048
  dot_S2x2048x2048_S3072x2048_S2x2048x3072_2_1_01_0_n_n_wf : DotDims.WF S2x2048x2048 S3072x2048 S2x2048x3072 [2] [1] [0, 1] [0] [] []
  dot_S2x32x2048x64_S2x32x2048x64_S2x32x2048x2048_3_3_2_2_01_01_wf : DotDims.WF S2x32x2048x64 S2x32x2048x64 S2x32x2048x2048 [3] [3] [2] [2] [0, 1] [0, 1]
  dot_S2x32x2048x2048_S2x32x2048x64_S2x32x2048x64_3_2_2_3_01_01_wf : DotDims.WF S2x32x2048x2048 S2x32x2048x64 S2x32x2048x64 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S3072x2048_S2x2048x3072_2_1_01_0_n_n : DotDims S2x2048x2048 S3072x2048 S2x2048x3072 where
  lhsContracting := [2]
  rhsContracting := [1]
  lhsNonContracting := [0, 1]
  rhsNonContracting := [0]
  lhsBatch := []
  rhsBatch := []
  wf := dot_S2x2048x2048_S3072x2048_S2x2048x3072_2_1_01_0_n_n_wf
def dot_S2x32x2048x64_S2x32x2048x64_S2x32x2048x2048_3_3_2_2_01_01 : DotDims S2x32x2048x64 S2x32x2048x64 S2x32x2048x2048 where
  lhsContracting := [3]
  rhsContracting := [3]
  lhsNonContracting := [2]
  rhsNonContracting := [2]
  lhsBatch := [0, 1]
  rhsBatch := [0, 1]
  wf := dot_S2x32x2048x64_S2x32x2048x64_S2x32x2048x2048_3_3_2_2_01_01_wf
def dot_S2x32x2048x2048_S2x32x2048x64_S2x32x2048x64_3_2_2_3_01_01 : DotDims S2x32x2048x2048 S2x32x2048x64 S2x32x2048x64 where
  lhsContracting := [3]
  rhsContracting := [2]
  lhsNonContracting := [2]
  rhsNonContracting := [3]
  lhsBatch := [0, 1]
  rhsBatch := [0, 1]
  wf := dot_S2x32x2048x2048_S2x32x2048x64_S2x32x2048x64_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.K.Region0.lean ====
/- The first matrix product of the layer, one grid point at a time: the body multiplies the point's block of rows of the
   left matrix by its block of columns of the right matrix and stores the product block. What each window's staging
   buffer holds after the body, the proof data of the pipeline, and the body's obligation at every point. -/
import proofs.«412668_j88940182765732_3_alg».proof.Proof.Gen.Kernel.Launch
import proofs.«412668_j88940182765732_3_alg».proof.Proof.Gen.Kernel.Skeleton
import proofs.«412668_j88940182765732_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each buffer whole -/

abbrev rA0 : Rect S512x2048 := Rect.unit (s := S512x2048) ![0, 0] S512x2048.size inb_S512x2048_S512x2048_0_0
abbrev rB0 : Rect S2048x1024 := Rect.unit (s := S2048x1024) ![0, 0] S2048x1024.size inb_S2048x1024_S2048x1024_0_0
abbrev rC0 : Rect S512x1024 := Rect.unit (s := S512x1024) ![0, 0] S512x1024.size inb_S512x1024_S512x1024_0_0

/-- The output window's staging buffer after the body, from the two input blocks: its one store, of the product. -/
def out0_2 (x0 : Vec F S512x2048 .f32) (x1 : Vec F S2048x1024 .bf16) : Vec F S512x1024 .f32 :=
  View.canon [⟨rC0, k0_pay1 (View.ld x0 rA0) (View.ld x1 rB0)⟩]

/-! ## The pipeline's proof data -/

/-- The arrays as the region finds them; after the body each input's buffer at its block and the output's at the
    product of the two input blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## The inputs' staging buffers hold their blocks -/

/-- The left matrix's staging buffer holds the point's block of rows at every point, also where the block index
    has not moved since the previous point and nothing was fetched: the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's staging buffer holds the point's block of columns at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The one store covers the output buffer -/

/-- The product block is stored over the whole output buffer: one piece, the buffer's own extent. -/
theorem cover0_2 (p0 : Vec F S512x1024 .f32) (y : S512x1024.Idx) :
    ∃ pc ∈ ([⟨rC0, p0⟩] : List (View.Piece (Elt F) S512x1024 .f32)), y ∈ pc.1.set :=
  View.cover_of_tiled [⟨rC0, p0⟩] S512x1024.size (by rfl) y

/-! ## The body's triple -/

set_option maxHeartbeats 1000000 in
/-- The body on whole staging buffers, the two inputs' at contents x0 and x1 and the output's at anything: it reads
    both inputs whole, reads the output buffer once without using what it read, and stores the product of the
    rounded left block by the right block over the whole output buffer. The inputs stay as they were. -/
theorem sound_kernel0 (c : Dev nD) (E : Set ℕ) (i : grid0.Coords)
    (arg2 : Memref sig .tc .vmem S512x2048 .f32) (harg2 : arg2.IsWhole)
    (arg3 : Memref sig .tc .vmem S2048x1024 .bf16) (harg3 : arg3.IsWhole)
    (arg4 : Memref sig .tc .vmem S512x1024 .f32) (harg4 : arg4.IsWhole)
    (x0 : Vec F S512x2048 .f32) (x1 : Vec F S2048x1024 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- The attention call, one grid point (batch b, group g, query tile qi) at a time: the body reads the point's 256 query
   rows and the group's 2048 key and value rows, both out of one array of width 3072, and the cosine and sine tables;
   it rotates queries and keys, and for each of the group's four heads takes scores, their softmax and the weighted sum
   of values, storing the head's 64 output lanes. What each window's staging buffer holds after the body, the proof
   data of the pipeline, and the body's obligation at every point. -/
import proofs.«412668_j88940182765732_3_alg».proof.Proof.Gen.Kernel.Launch
import proofs.«412668_j88940182765732_3_alg».proof.Proof.Gen.Kernel.Skeleton
import proofs.«412668_j88940182765732_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The query block, whole. -/
abbrev rQ1 : Rect S1x256x384 := Rect.unit (s := S1x256x384) ![0, 0, 0] S1x256x384.size inb_S1x256x384_S1x256x384_0_0_0
/-- The key and value block, whole. -/
abbrev rK1 : Rect S1x2048x384 := Rect.unit (s := S1x2048x384) ![0, 0, 0] S1x2048x384.size inb_S1x2048x384_S1x2048x384_0_0_0
/-- A table, whole: the keys' angles. -/
abbrev rT1 : Rect S2048x64 := Rect.unit (s := S2048x64) ![0, 0] S2048x64.size inb_S2048x64_S2048x64_0_0
/-- A table's 256 rows from the query tile's first position: the queries' angles. -/
abbrev rTq1 (i : grid1.Coords) : Rect S2048x64 := Rect.unit (s := S2048x64) (k1_off1 i) S256x64.size (k1_off1_inb i)
/-- The four heads' 64-lane column bands of the output block. -/
abbrev rO1_0 : Rect S1x256x256 := Rect.unit (s := S1x256x256) ![0, 0, 0] S1x256x64.size inb_S1x256x256_S1x256x64_0_0_0
abbrev rO1_64 : Rect S1x256x256 := Rect.unit (s := S1x256x256) ![0, 0, 64] S1x256x64.size inb_S1x256x256_S1x256x64_0_0_64
abbrev rO1_128 : Rect S1x256x256 := Rect.unit (s := S1x256x256) ![0, 0, 128] S1x256x64.size inb_S1x256x256_S1x256x64_0_0_128
abbrev rO1_192 : Rect S1x256x256 := Rect.unit (s := S1x256x256) ![0, 0, 192] S1x256x64.size inb_S1x256x256_S1x256x64_0_0_192

/-! ## What the body computes from its loads -/

section Loads
variable (i : grid1.Coords) (x0 : Vec F S1x256x384 .f32) (x1 : Vec F S1x2048x384 .f32) (x2 x3 : Vec F S2048x64 .f32)

/-- The queries' cosines and sines, the query rows, the rotated keys, the values. -/
abbrev cq1 : FVec F S256x64 .f32 := k1_pay1 (View.ld x2 (rTq1 i))
abbrev sq1 : FVec F S256x64 .f32 := k1_pay2 (View.ld x3 (rTq1 i))
abbrev qrows1 : FVec F S256x384 .f32 := k1_pay3 (View.ld x0 rQ1)
abbrev krot1 : FVec F S2048x64 .bf16 := k1_pay5 (View.ld x2 rT1) (View.ld x3 rT1) (View.ld x1 rK1)
abbrev vals1 : FVec F S2048x64 .bf16 := k1_pay6 (View.ld x1 rK1)

/-- The four heads' output bands. -/
abbrev head0 : FVec F S1x256x64 .bf16 :=
  k1_pay8 (vals1 x1) (k1_pay7 (View.ld x2 (rTq1 i)) (View.ld x3 (rTq1 i)) (View.ld x2 rT1) (View.ld x3 rT1) (View.ld x0 rQ1) (View.ld x1 rK1))
abbrev head1 : FVec F S1x256x64 .bf16 := k1_pay9 (cq1 i x2) (sq1 i x3) (qrows1 x0) (krot1 x1 x2 x3) (vals1 x1)
abbrev head2 : FVec F S1x256x64 .bf16 :=
  k1_pay12 (vals1 x1) (k1_pay10 (cq1 i x2) (sq1 i x3) (qrows1 x0)) (k1_pay11 (krot1 x1 x2 x3)) (constant S256x2048 .f32 0x00000000#32)
abbrev head3 : FVec F S1x256x64 .bf16 := k1_pay13 (cq1 i x2) (sq1 i x3) (qrows1 x0) (krot1 x1 x2 x3) (vals1 x1)

/-- The output window's staging buffer after the body: its four stores as pieces, last first. -/
def out1_4 : Vec F S1x256x256 .bf16 :=
  View.canon [⟨rO1_192, head3 i x0 x1 x2 x3⟩, ⟨rO1_128, head2 i x0 x1 x2 x3⟩, ⟨rO1_64, head1 i x0 x1 x2 x3⟩, ⟨rO1_0, head0 i x0 x1 x2 x3⟩]

end Loads

/-! ## The pipeline's proof data -/

/-- The arrays as the region finds them; after the body each input's buffer at its block and the output's at the four
    heads' bands; the invariant the scoped rest and the generator register, untouched; nothing owed. The query window
    and the key and value window read ONE array: the first holds it at the left half of the full share, the second at
    the right half; every other window holds its array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by
  dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

/-! ## What the body finds in the input windows' buffers -/

/-- The query window's buffer holds the point's query block: the window is fetched at every point, and its block is
    the array's rows of the point's tile. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]; try rfl
  · unfold Dat.fetched Dat.blockOf iblk1; rw [A_eq1]; try rfl

/-- The key and value window's buffer holds the group's block at every point of the group: where it is not fetched
    the block's index has not moved since the point before. -/
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]; try rfl
  · unfold Dat.fetched Dat.blockOf iblk1; rw [A_eq1]; try rfl

/-- The cosine table's buffer holds the whole table at every point: fetched once, its one block never moves. -/
theorem before1_2 (c : Dev nD) (t : Fin cfg1.N) (d) : (dat1 V c).before 2 t d = iblk1 V c 2 t := by
  refine ((dat1 V c).before_in_eq_fetched 2 rfl (fun _ => rfl) (fun _ _ _ => rfl) (fun t => ?_) t d).trans ?_
  · rw [after1_2]; unfold Dat.blockOf iblk1; rw [A_eq1]; try rfl
  · unfold Dat.fetched Dat.blockOf iblk1; rw [A_eq1]; try rfl

/-- The sine table's buffer likewise. -/
theorem before1_3 (c : Dev nD) (t : Fin cfg1.N) (d) : (dat1 V c).before 3 t d = iblk1 V c 3 t := by
  refine ((dat1 V c).before_in_eq_fetched 3 rfl (fun _ => rfl) (fun _ _ _ => rfl) (fun t => ?_) t d).trans ?_
  · rw [after1_3]; unfold Dat.blockOf iblk1; rw [A_eq1]; try rfl
  · unfold Dat.fetched Dat.blockOf iblk1; rw [A_eq1]; try rfl

/-! ## The four bands cover the output block -/

/-- Four bands of 64 lanes at lanes 0, 64, 128 and 192 tile the 256 lanes of the output block, so every index of
    the block lies in one of them. -/
theorem cover1_4 (p3 p2 p1 p0 : Vec F S1x256x64 .bf16) (y : S1x256x256.Idx) :
    ∃ pc ∈ ([⟨rO1_192, p3⟩, ⟨rO1_128, p2⟩, ⟨rO1_64, p1⟩, ⟨rO1_0, p0⟩] : List (View.Piece (Elt F) S1x256x256 .bf16)), y ∈ pc.1.set :=
  View.cover_of_tiled [⟨rO1_192, p3⟩, ⟨rO1_128, p2⟩, ⟨rO1_64, p1⟩, ⟨rO1_0, p0⟩] S1x256x64.size (by rfl) y

/-! ## The body's run -/

set_option maxHeartbeats 4000000 in
/-- The body on whole buffers, the four inputs' at contents reading x0 .. x3 and the output's at anything, runs to
    its return with the inputs' buffers as they were and the output's reading the four heads' bands laid side by
    side. The loads of the output's bands just before each store read values the body never uses. -/
theorem sound_kernel1 (c : Dev nD) (E : Set ℕ) (i : grid1.Coords)
    (arg3 : Memref sig .tc .vmem S1x256x384 .f32) (harg3 : arg3.IsWhole)
    (arg4 : Memref sig .tc .vmem S1x2048x384 .f32) (harg4 : arg4.IsWhole)
    (arg5 : Memref sig .tc .vmem S2048x64 .f32) (harg5 : arg5.IsWhole)
    (arg6 : Memref sig .tc .vmem S2048x64 .f32) (harg6 : arg6.IsWhole)
    (arg7 : Memref sig .tc .vmem S1x256x256 .bf16) (harg7 : arg7.IsWhole)
    (x0 : Vec F S1x256x384 .f32) (x1 : Vec F S1x2048x384 .f32) (x2 x3 : Vec F S2048x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out1_4 i x0 x1 x2 x3)) -∗ K ⟨⟩))
      ⊢ wp frame (wpE (defs₀ (F := F)) Variants.none c none) E
          (cc1__attn_kernel i arg3 harg3 arg4 harg4 arg5 harg5 arg6 harg6 arg7 harg7) K := by
  simp only [cc1__attn_kernel_eq_skeleton]; unfold cc1__attn_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The body obligation -/

/-- What the body is handed at point t: the invariant, what the core owes, and every window's current buffer at what
    it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debts, and every current buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so the body's run applies at the blocks; the
    invariant and the debts pass through untouched, and the output's buffer, whatever it held, ends at the four
    bands computed from the blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/- The last matrix product of the layer, one grid point at a time: the body multiplies the point's block of rows of the
   left matrix by its block of columns of the right matrix and stores the product block. What each window's staging
   buffer holds after the body, the proof data of the pipeline, and the body's obligation at every point. -/
import proofs.«412668_j88940182765732_3_alg».proof.Proof.Gen.Kernel.Launch
import proofs.«412668_j88940182765732_3_alg».proof.Proof.Gen.Kernel.Skeleton
import proofs.«412668_j88940182765732_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer whole -/

abbrev rA2 : Rect S512x2048 := Rect.unit (s := S512x2048) ![0, 0] S512x2048.size inb_S512x2048_S512x2048_0_0
abbrev rB2 : Rect S2048x512 := Rect.unit (s := S2048x512) ![0, 0] S2048x512.size inb_S2048x512_S2048x512_0_0
abbrev rC2 : Rect S512x512 := Rect.unit (s := S512x512) ![0, 0] S512x512.size inb_S512x512_S512x512_0_0

/-- The output window's staging buffer after the body, from the two input blocks: its one store, of the product. -/
def out2_2 (x0 : Vec F S512x2048 .bf16) (x1 : Vec F S2048x512 .bf16) : Vec F S512x512 .f32 :=
  View.canon [⟨rC2, k2_pay1 (View.ld x0 rA2) (View.ld x1 rB2)⟩]

/-! ## The pipeline's proof data -/

/-- The arrays as the region finds them; after the body each input's buffer at its block and the output's at the
    product of the two input blocks; the invariant the scoped rest and the generator register, untouched; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-! ## The inputs' staging buffers hold their blocks -/

/-- The left matrix's staging buffer holds the point's block of rows at every point, also where the block index
    has not moved since the previous point and nothing was fetched: the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right matrix's staging buffer holds the point's block of columns at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The one store covers the output buffer -/

/-- The product block is stored over the whole output buffer: one piece, the buffer's own extent. -/
theorem cover2_2 (p0 : Vec F S512x512 .f32) (y : S512x512.Idx) :
    ∃ pc ∈ ([⟨rC2, p0⟩] : List (View.Piece (Elt F) S512x512 .f32)), y ∈ pc.1.set :=
  View.cover_of_tiled [⟨rC2, p0⟩] S512x512.size (by rfl) y

/-! ## The body's triple -/

set_option maxHeartbeats 1000000 in
/-- The body on whole staging buffers, the two inputs' at contents x0 and x1 and the output's at anything: it reads
    both inputs whole, reads the output buffer once without using what it read, and stores the product of the
    left block by the right block over the whole output buffer. The inputs stay as they were. -/
theorem sound_kernel2 (c : Dev nD) (E : Set ℕ) (i : grid2.Coords)
    (arg2 : Memref sig .tc .vmem S512x2048 .bf16) (harg2 : arg2.IsWhole)
    (arg3 : Memref sig .tc .vmem S2048x512 .bf16) (harg3 : arg3.IsWhole)
    (arg4 : Memref sig .tc .vmem S512x512 .f32) (harg4 : arg4.IsWhole)
    (x0 : Vec F S512x2048 .bf16) (x1 : Vec F S2048x512 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.LibSharedArrays.lean ====
/- Two windows of a pipeline on one array.

A pipeline's entry and exit lemmas take the windows' arrays pairwise distinct: each array is then one of the
core's unscoped buffers, held whole at the full share. Here two input windows `w₀`, `w₁` read ONE array and the
others are distinct from it and from one another. The buffer behind the common array is held once, at the full
share; the pipeline wants it twice, once per window. The full share is its left half joined with its right half,
and a points-to splits and joins along its share, so window `w₀` is given the left half and window `w₁` the right
half; every other window keeps the full share.

`arrBufs_eq_arrays` is that statement as an EQUATION of assertions, so it serves both at a region's entry (the
buffers become the arrays) and at its exit (the arrays become the buffers again): the two halves rejoin because
both windows saw the same contents, those of the common buffer. `unscopedBufs_eq_arrays` puts the unscoped rest
beside it. Nothing here names a particular program. -/
import Idealize.ShloMosaic.Lib.Pipeline.Launch

noncomputable section

namespace Cert.Lib.SharedArrays

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg arrRef arrBufs unscopedRest)

variable {nD : Nat} {τ : Topo} {sig : RefSig} {Val : EltTy → Type} {Λ₀ : Idealize.SL.Sem.Labels}
variable {Ix : Type} [DecidableEq Ix] {Name : Type} [DecidableEq Name] {U : Type} [URA U] {Lvl : Type}

local notation "𝕄" => MT nD τ sig Ix Val Name U Lvl

/-- An iterated conjunction over the image of a map injective on the index set is the one over the index set. -/
theorem bigSep_image_of_injOn {M : Type} [URA M] {I J : Type} [DecidableEq J] {s : Finset I} {g : I → J}
    (H : Set.InjOn g (↑s : Set I)) (Φ : J → sProp M) :
    bigSep (s.image g) Φ = bigSep s fun i => Φ (g i) :=
  Finset.fold_image H

/-- A whole buffer at the full share is the same buffer at the left half and at the right half. -/
theorem pointsTo_full_halves (ℓ : Loc nD τ sig) (f : Buf Val ℓ) :
    (ℓ ↦{fullShare} f : sProp 𝕄) = iprop((ℓ ↦{fullShare.left} f) ∗ ℓ ↦{fullShare.right} f) :=
  Idealize.SL.BI.Entails.antisymm (pointsTo_share (PosShare.mem_left_op_right fullShare)).1
    (pointsTo_share (PosShare.mem_left_op_right fullShare)).2

/-- Separating conjunction is associative, as an equation of assertions. -/
theorem sep_assoc_eq {M : Type} [URA M] (A B R : sProp M) : iprop((A ∗ B) ∗ R) = iprop(A ∗ B ∗ R) :=
  Idealize.SL.BI.Entails.antisymm Idealize.SL.BI.sep_assoc Idealize.SL.BI.sep_assoc'

variable {cfg : Cfg sig Λ₀} {c : Dev nD} (dat : Dat τ Val Ix Name U Lvl cfg c)

/-- The buffers behind the windows' arrays ARE the pipeline's arrays, when windows `w₀` and `w₁` read one array
    (`hsame`) held at the two halves of the full share (`hs₀`, `hs₁`), the windows other than `w₀` have pairwise
    distinct arrays (`hinj`) held at the full share (`hs`), every array is a whole buffer (`harr`), and the contents
    `F` are read off the buffers' contents `V` (`hF`). -/
theorem arrBufs_eq_arrays (w₀ w₁ : Fin cfg.W) (hne : w₀ ≠ w₁)
    (hsame : arrRef cfg.spec w₀ = arrRef cfg.spec w₁)
    (hinj : ∀ w w', w ≠ w₀ → w' ≠ w₀ → arrRef cfg.spec w = arrRef cfg.spec w' → w = w')
    (harr : ∀ w, (cfg.spec w).arr.IsWhole)
    (hs₀ : dat.share w₀ = fullShare.left) (hs₁ : dat.share w₁ = fullShare.right)
    (hs : ∀ w, w ≠ w₀ → w ≠ w₁ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (arrBufs cfg.spec c V : sProp 𝕄) = dat.arrays F := by
  classical
  -- a buffer at a share, as a function of the reference alone: equal references give equal assertions
  let Ψ : Ref sig .tc → PosShare TreeShare → sProp 𝕄 := fun b q => ((c.tc : Thread nD τ).loc b) ↦{q} V b
  -- each window's array, in that form
  have hΘ : ∀ w, ((cfg.win w).arr.view.loc (c.tc : Thread nD τ) ↦[(cfg.win w).arr.view.set]{dat.share w} F w : sProp 𝕄)
      = Ψ (arrRef cfg.spec w) (dat.share w) := fun w => by
    rw [(harr w).set_eq_univ, hF]
  -- the arrays are already all met among the windows other than `w₀`, on which the array map is injective
  have himg : Finset.univ.image (arrRef cfg.spec) = (Finset.univ.erase w₀).image (arrRef cfg.spec) := by
    apply Finset.Subset.antisymm
    · intro b hb
      obtain ⟨w, -, rfl⟩ := Finset.mem_image.mp hb
      by_cases h : w = w₀
      · exact Finset.mem_image.mpr ⟨w₁, Finset.mem_erase.mpr ⟨hne.symm, Finset.mem_univ _⟩, by rw [h]; exact hsame.symm⟩
      · exact Finset.mem_image.mpr ⟨w, Finset.mem_erase.mpr ⟨h, Finset.mem_univ _⟩, rfl⟩
    · exact Finset.image_subset_image (Finset.erase_subset _ _)
  have hinjOn : Set.InjOn (arrRef cfg.spec) (↑(Finset.univ.erase w₀) : Set (Fin cfg.W)) := fun w hw w' hw' h =>
    hinj w w' (Finset.ne_of_mem_erase (Finset.mem_coe.mp hw)) (Finset.ne_of_mem_erase (Finset.mem_coe.mp hw')) h
  have h₁ : w₁ ∈ Finset.univ.erase w₀ := Finset.mem_erase.mpr ⟨hne.symm, Finset.mem_univ _⟩
  -- the windows other than the two keep the full share: there the two sides agree window by window
  have hrest : bigSep ((Finset.univ.erase w₀).erase w₁) (fun w => Ψ (arrRef cfg.spec w) fullShare)
      = bigSep ((Finset.univ.erase w₀).erase w₁)
          (fun w => ((cfg.win w).arr.view.loc (c.tc : Thread nD τ) ↦[(cfg.win w).arr.view.set]{dat.share w} F w : sProp 𝕄)) :=
    bigSep_congr fun w hw => by
      have hw₁ : w ≠ w₁ := Finset.ne_of_mem_erase hw
      have hw₀ : w ≠ w₀ := Finset.ne_of_mem_erase (Finset.mem_of_mem_erase hw)
      rw [hΘ w, hs w hw₀ hw₁]
  unfold arrBufs Dat.arrays
  rw [himg, bigSep_image_of_injOn hinjOn, bigSep_erase h₁,
    bigSep_erase (Finset.mem_univ w₀) (Φ := fun w => ((cfg.win w).arr.view.loc (c.tc : Thread nD τ) ↦[(cfg.win w).arr.view.set]{dat.share w} F w : sProp 𝕄)),
    bigSep_erase h₁ (Φ := fun w => ((cfg.win w).arr.view.loc (c.tc : Thread nD τ) ↦[(cfg.win w).arr.view.set]{dat.share w} F w : sProp 𝕄)),
    ← hrest, hΘ w₀, hΘ w₁, hs₀, hs₁, hsame]
  -- the common buffer: full share on the left, its two halves on the right
  show iprop(Ψ (arrRef cfg.spec w₁) fullShare ∗ bigSep ((Finset.univ.erase w₀).erase w₁) fun w => Ψ (arrRef cfg.spec w) fullShare)
    = iprop(Ψ (arrRef cfg.spec w₁) fullShare.left ∗ Ψ (arrRef cfg.spec w₁) fullShare.right
        ∗ bigSep ((Finset.univ.erase w₀).erase w₁) fun w => Ψ (arrRef cfg.spec w) fullShare)
  rw [show Ψ (arrRef cfg.spec w₁) fullShare = iprop(Ψ (arrRef cfg.spec w₁) fullShare.left ∗ Ψ (arrRef cfg.spec w₁) fullShare.right) from
    pointsTo_full_halves _ _]
  exact sep_assoc_eq _ _ _

/-- A core's unscoped buffers at contents `V` are the pipeline's arrays at the contents read off `V`, and the
    unscoped rest — under `arrBufs_eq_arrays`'s hypotheses, no array being scoped (`hunscoped`). -/
theorem unscopedBufs_eq_arrays (w₀ w₁ : Fin cfg.W) (hne : w₀ ≠ w₁)
    (hsame : arrRef cfg.spec w₀ = arrRef cfg.spec w₁)
    (hinj : ∀ w w', w ≠ w₀ → w' ≠ w₀ → arrRef cfg.spec w = arrRef cfg.spec w' → w = w')
    (hunscoped : ∀ w, (arrRef cfg.spec w).isScoped = false)
    (harr : ∀ w, (cfg.spec w).arr.IsWhole)
    (hs₀ : dat.share w₀ = fullShare.left) (hs₁ : dat.share w₁ = fullShare.right)
    (hs : ∀ w, w ≠ w₀ → w ≠ w₁ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (unscopedBufs c V : sProp 𝕄) = iprop(dat.arrays F ∗ unscopedRest cfg.spec c V) := by
  rw [Pipeline.unscopedBufs_split₀ (fun _ : Unit => cfg) () hunscoped c V,
    arrBufs_eq_arrays dat w₀ w₁ hne hsame hinj harr hs₀ hs₁ hs V F hF]

/-- The unscoped rest does not see the arrays: two valuations that agree off them give the same rest. -/
theorem unscopedRest_congr {gr W : Nat} (win : Fin W → Pipeline.WinSpec sig gr) (c : Dev nD)
    (V V' : (b : Ref sig .tc) → Buf Val ((c.tc : Thread nD τ).loc b))
    (hrest : ∀ b, b ∉ Finset.univ.image (arrRef win) → V' b = V b) :
    (unscopedRest win c V' : sProp 𝕄) = unscopedRest win c V := by
  unfold unscopedRest
  exact bigSep_congr fun b hb => by rw [hrest b (Finset.mem_sdiff.mp hb).2]

/-- An input window's array is held at the window's own share, -/
theorem share_in (w : Fin cfg.W) (h : (cfg.win w).isOut = false) : dat.share w = dat.q w := by
  unfold Dat.share; rw [h]; exact if_neg Bool.false_ne_true

/-- and an output window's at the full share. -/
theorem share_out (w : Fin cfg.W) (h : (cfg.win w).isOut = true) : dat.share w = fullShare := by
  unfold Dat.share; rw [h]; exact if_pos rfl

end Cert.Lib.SharedArrays
-- ==== Proof.K.Run.lean ====
/- The layer's program as a run of seven segments — host operations, the first product, host operations, the attention
   call, host operations, the last product, host operations — with the contents of every unscoped buffer named at each
   boundary: after a stretch of host operations what those operations compute from the contents before; after a
   kernel call its output array at what the pipeline's write-backs leave and every other buffer as before. Every weakly
   fair execution terminates with every unscoped buffer at the last boundary's contents; in particular the arguments
   end as launched. -/
import proofs.«412668_j88940182765732_3_alg».proof.Proof.K.Region0
import proofs.«412668_j88940182765732_3_alg».proof.Proof.K.Region1
import proofs.«412668_j88940182765732_3_alg».proof.Proof.K.Region2
import proofs.«412668_j88940182765732_3_alg».proof.Proof.LibSharedArrays
import proofs.«412668_j88940182765732_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m ((c : Dev nD), b)
/-- After the first stretch of host operations (the first product's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first product's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch (the attention call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention call's exit: its output array at what the pipeline leaves, every other buffer as entered (its
    input arrays among them: two of its windows read one array, and no input window writes back). -/
def W4 (c : Dev nD) : Valuation τ sig (Elt F) :=
  Function.update (W3 m c) (Proc.devRef .tc main_v10) ((dat1 (V3 m) c).arrAt 4 cfg1.N)
abbrev V4 : (c : Dev nD) → (b : Ref sig .tc) → Buf (Elt F) ((c : Thread nD τ).loc b) := fun c b => W4 m c b
/-- After the third stretch (the last product's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the last product's exit. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last stretch: the program's end. -/
abbrev W7 : Dev nD → Valuation τ sig (Elt F) := fun c => StableHlo.after hostOps3 (W6 m c)

/-! ## What a kernel call changes and what it keeps -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_out (c : Dev nD) : W4 m c (Proc.devRef .tc main_v10) = (dat1 (V3 m) c).arrAt 4 cfg1.N := by
  unfold W4; exact Function.update_self ..
theorem W4_of_ne (c : Dev nD) (b : Ref sig .tc) (hb : b ≠ main_v10) :
    W4 m c (Proc.devRef .tc b) = W3 m c (Proc.devRef .tc b) := by
  unfold W4; exact Function.update_of_ne (StableHlo.devRef_ne_of_ne hb) ..
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The proof data of the three calls and what rides beside the buffers -/

/-- Every pipeline's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
/-- No core owes another anything: no level is assigned. -/
abbrev lvs : GSem nD τ sig → Finset Unit := fun _ => ∅
abbrev lvOf : GSem nD τ sig → Unit → ℕ := fun _ _ => 0
/-- Beside the buffers, through every segment: the core's generator register at some state, and the core owing
    nothing. -/
abbrev R (c : Dev nD) : sProp 𝕄 := iprop((∃ r, prngReg c r) ∗ ∃ W, owes (c : Thread nD τ) (0 : CellTallies nD τ sig Unit) W)
/-- A stretch of host operations over the unscoped buffers from the contents W: it ends with them at what the
    operations compute from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvs lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last state without what is owed: every unscoped buffer at the last boundary's contents, the generator register
    at some state. -/
abbrev Tend (c : Dev nD) : sProp 𝕄 := iprop(StableHlo.held (c : Thread nD τ) (Pipeline.ucRefs τ sig) (W7 m c) ∗ ∃ r, prngReg c r)

/-! ## The attention call's shares: the common array's two halves, every other array whole -/

theorem share1_0 (c : Dev nD) : (dat1 (V3 m) c).share 0 = fullShare.left :=
  (Cert.Lib.SharedArrays.share_in _ 0 rfl).trans (q1_0 _ c)
theorem share1_1 (c : Dev nD) : (dat1 (V3 m) c).share 1 = fullShare.right :=
  (Cert.Lib.SharedArrays.share_in _ 1 rfl).trans (q1_1 _ c)
theorem share1_rest (c : Dev nD) : ∀ w : Fin cfg1.W, w ≠ 0 → w ≠ 1 → (dat1 (V3 m) c).share w = fullShare
  | ⟨0, _⟩, h, _ => absurd rfl h
  | ⟨1, _⟩, _, h => absurd rfl h
  | ⟨2, _⟩, _, _ => (Cert.Lib.SharedArrays.share_in _ 2 rfl).trans (q1_2 _ c)
  | ⟨3, _⟩, _, _ => (Cert.Lib.SharedArrays.share_in _ 3 rfl).trans (q1_3 _ c)
  | ⟨4, _⟩, _, _ => Cert.Lib.SharedArrays.share_out _ 4 rfl
  | ⟨_ + 5, h⟩, _, _ => absurd h (Nat.not_lt.2 (Nat.le_add_left _ _))

/-- The query window and the key and value window are two windows on one array; the other arrays are distinct from it
    and from one another. -/
theorem arr1_ne : (0 : Fin cfg1.W) ≠ 1 := by decide
theorem arr1_same : Pipeline.arrRef spec1 0 = Pipeline.arrRef spec1 1 := by decide
theorem arr1_inj : ∀ w w' : Fin cfg1.W, w ≠ 0 → w' ≠ 0 → Pipeline.arrRef spec1 w = Pipeline.arrRef spec1 w' → w = w' := by decide

/-- At the attention call's entry each window's array holds what the entry contents have at its buffer. -/
theorem hF1_in (c : Dev nD) (w : Fin cfg1.W) : (dat1 (V3 m) c).arrAt w 0 = V3 m c (Pipeline.arrRef spec1 w) :=
  A_eq1 (V3 m) c w
/-- At its exit too: an input array is never written and is not the output's buffer; the output array is what the
    write-backs leave. -/
theorem hF1_out (c : Dev nD) : ∀ w : Fin cfg1.W, (dat1 (V3 m) c).arrAt w cfg1.N = V4 m c (Pipeline.arrRef spec1 w)
  | ⟨0, _⟩ => (((dat1 (V3 m) c).arrAt_in 0 rfl _).trans (A_eq1 (V3 m) c 0)).trans (W4_of_ne m c _ (by decide)).symm
  | ⟨1, _⟩ => (((dat1 (V3 m) c).arrAt_in 1 rfl _).trans (A_eq1 (V3 m) c 1)).trans (W4_of_ne m c _ (by decide)).symm
  | ⟨2, _⟩ => (((dat1 (V3 m) c).arrAt_in 2 rfl _).trans (A_eq1 (V3 m) c 2)).trans (W4_of_ne m c _ (by decide)).symm
  | ⟨3, _⟩ => (((dat1 (V3 m) c).arrAt_in 3 rfl _).trans (A_eq1 (V3 m) c 3)).trans (W4_of_ne m c _ (by decide)).symm
  | ⟨4, _⟩ => (W4_out m c).symm
  | ⟨_ + 5, h⟩ => absurd h (Nat.not_lt.2 (Nat.le_add_left _ _))
/-- Off the call's arrays the exit contents are the entry contents. -/
theorem hrest1 (c : Dev nD) : ∀ b, b ∉ Finset.univ.image (Pipeline.arrRef spec1) → V4 m c b = V3 m c b :=
  fun b hb => W4_of_ne m c b fun e => hb (Finset.mem_image.mpr ⟨4, Finset.mem_univ _, e.symm⟩)

/-! ## The three calls as segments -/

set_option backward.isDefEq.respectTransparency.types false in
/-- The first product: entered from every unscoped buffer at the contents after the first stretch, left with its arrays at
    what the pipeline leaves and every other buffer as entered. The arrays are split out of the unscoped buffers at entry and
    put back at exit; the generator register goes into the pipeline's invariant and comes out; nothing is owed. -/
def reg0 : Pipeline.RegionSeg (pcfgs (F := F)) adm (pdats m) () defs₀ Variants.none lvs lvOf 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ lvs lvOf 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at the contents after the second stretch, left with the output
    array at what the write-backs leave and every other buffer as entered. The query window and the key and value window
    read one array: its buffer, held whole, is dealt to them as the two halves of the full share at entry, and the halves
    rejoin at exit, both windows having left the array as they found it. -/
def reg1 : Pipeline.RegionSeg (pcfgs (F := F)) adm (pdats m) () defs₀ Variants.none lvs lvOf 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ lvs lvOf 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Cert.Lib.SharedArrays.unscopedBufs_eq_arrays (Ix := Unit) (Name := ℕ) (U := UR sig nD τ) (Lvl := ℕ)
      (pdats m 1 c) 0 1 arr1_ne arr1_same arr1_inj winFacts₀1.arr_unscoped arr_whole1
      (share1_0 m c) (share1_1 m c) (share1_rest m c) (V3 m c) ((pdats m 1 c).arrAt · 0) (hF1_in m c)
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Cert.Lib.SharedArrays.unscopedBufs_eq_arrays (Ix := Unit) (Name := ℕ) (U := UR sig nD τ) (Lvl := ℕ)
      (pdats m 1 c) 0 1 arr1_ne arr1_same arr1_inj winFacts₀1.arr_unscoped arr_whole1
      (share1_0 m c) (share1_1 m c) (share1_rest m c) (V4 m c) ((pdats m 1 c).arrAt · cfg1.N) (hF1_out m c)
    rw [Pipeline.unscopedBufs_held,
      Cert.Lib.SharedArrays.unscopedRest_congr (Ix := Unit) (Name := ℕ) (U := UR sig nD τ) (Lvl := ℕ) (Pipeline.pin (pcfgs (F := F)) adm 1).spec c (V3 m c) (V4 m c) (hrest1 m c)] at hjoin
    iintro ⟨Ha, HO, HY, Hrest⟩
    imodintro
    isplitl [Ha Hrest]
    · iapply (Entails.of_eq hjoin.symm); isplitl [Ha] <;> iassumption
    isplitl [HY]; · iexact HY
    unfold Pipeline.Dat.owesAt Pipeline.owesWithin
    icases HO with ⟨%W, -, HO⟩; iexists W; iexact HO

set_option backward.isDefEq.respectTransparency.types false in
/-- The last product, likewise: entered from the contents after the third stretch, left with its arrays at what the
    pipeline leaves. -/
def reg2 : Pipeline.RegionSeg (pcfgs (F := F)) adm (pdats m) () defs₀ Variants.none lvs lvOf 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ lvs lvOf 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m) () defs₀ Variants.none lvs lvOf) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program is the run of its segments. -/
theorem main_run (c : Dev nD) : main (F := F) c = Pipeline.Seg.run (segs m) :=
  main_segs adm (pdats m) () Variants.none lvs lvOf _ _ _ _ (reg0 m) (reg1 m) (reg2 m) rfl rfl rfl rfl c

/-! ## The run -/

set_option backward.isDefEq.respectTransparency.types false in
/-- Every weakly fair execution terminates, and every final memory holds each unscoped buffer at the last boundary's
    contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ Variants.none lvs lvOf m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl,
      fun _ => Idealize.SL.BI.sep_assoc'⟩)
    (hinit := by
      refine Pipeline.initEach lvs lvOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- An unscoped buffer of the core is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no stretch of host operations writes and that is no call's output reaches the end as launched. -/
theorem W7_of_kept (c : Dev nD) (r : Ref sig .tc) (h0 : r ∉ hostOps0_W) (h1 : ∀ w, Pipeline.arrRef spec0 w ≠ r)
    (h2 : r ∉ hostOps1_W) (h3 : r ≠ main_v10) (h4 : r ∉ hostOps2_W) (h5 : ∀ w, Pipeline.arrRef spec2 w ≠ r)
    (h6 : r ∉ hostOps3_W) : W7 m c (Proc.devRef .tc r) = m ((c : Thread nD τ).loc r) :=
  calc W7 m c (Proc.devRef .tc r)
    _ = W6 m c (Proc.devRef .tc r) := StableHlo.after_of_writes_sub hostOps3 _ hostOps3_writes h6
    _ = W5 m c (Proc.devRef .tc r) := W6_of_ne m c r h5
    _ = W4 m c (Proc.devRef .tc r) := StableHlo.after_of_writes_sub hostOps2 _ hostOps2_writes h4
    _ = W3 m c (Proc.devRef .tc r) := W4_of_ne m c r h3
    _ = W2 m c (Proc.devRef .tc r) := StableHlo.after_of_writes_sub hostOps1 _ hostOps1_writes h2
    _ = W1 m c (Proc.devRef .tc r) := W2_of_ne m c r h1
    _ = W0 m c (Proc.devRef .tc r) := StableHlo.after_of_writes_sub hostOps0 _ hostOps0_writes h0
    _ = m ((c : Thread nD τ).loc r) := rfl

/-- No host operation and no kernel call writes an argument. -/
theorem W7_main_arg0 (c : Dev nD) : W7 m c (Proc.devRef .tc main_arg0) = m ((c : Thread nD τ).loc main_arg0) :=
  W7_of_kept m c main_arg0 (by decide) (by decide) (by decide) (by decide) (by decide) (by decide) (by decide)
theorem W7_main_arg1 (c : Dev nD) : W7 m c (Proc.devRef .tc main_arg1) = m ((c : Thread nD τ).loc main_arg1) :=
  W7_of_kept m c main_arg1 (by decide) (by decide) (by decide) (by decide) (by decide) (by decide) (by decide)
theorem W7_main_arg2 (c : Dev nD) : W7 m c (Proc.devRef .tc main_arg2) = m ((c : Thread nD τ).loc main_arg2) :=
  W7_of_kept m c main_arg2 (by decide) (by decide) (by decide) (by decide) (by decide) (by decide) (by decide)
theorem W7_main_arg3 (c : Dev nD) : W7 m c (Proc.devRef .tc main_arg3) = m ((c : Thread nD τ).loc main_arg3) :=
  W7_of_kept m c main_arg3 (by decide) (by decide) (by decide) (by decide) (by decide) (by decide) (by decide)
theorem W7_main_arg4 (c : Dev nD) : W7 m c (Proc.devRef .tc main_arg4) = m ((c : Thread nD τ).loc main_arg4) :=
  W7_of_kept m c main_arg4 (by decide) (by decide) (by decide) (by decide) (by decide) (by decide) (by decide)

/-- The frame: the program runs to the end and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_main m ρ)

end Cert.Kernel.Hand

end
-- ==== Proof.KI.Region0.lean ====
/- The first matrix product of the layer, one grid point at a time: the body multiplies the point's block of rows of the
   left matrix by its block of columns of the right matrix and stores the product block. What each window's staging
   buffer holds after the body, the proof data of the pipeline, and the body's obligation at every point. -/
import proofs.«412668_j88940182765732_3_alg».proof.Proof.Gen.KernelIdeal.Launch
import proofs.«412668_j88940182765732_3_alg».proof.Proof.Gen.KernelIdeal.Skeleton
import proofs.«412668_j88940182765732_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each buffer whole -/

abbrev rA0 : Rect S512x2048 := Rect.unit (s := S512x2048) ![0, 0] S512x2048.size inb_S512x2048_S512x2048_0_0
abbrev rB0 : Rect S2048x1024 := Rect.unit (s := S2048x1024) ![0, 0] S2048x1024.size inb_S2048x1024_S2048x1024_0_0
abbrev rC0 : Rect S512x1024 := Rect.unit (s := S512x1024) ![0, 0] S512x1024.size inb_S512x1024_S512x1024_0_0

/-- The output window's staging buffer after the body, from the two input blocks: its one store, of the product. -/
def out0_2 (x0 : Vec F S512x2048 .f32) (x1 : Vec F S2048x1024 .bf16) : Vec F S512x1024 .f32 :=
  View.canon [⟨rC0, k0_pay1 (View.ld x0 rA0) (View.ld x1 rB0)⟩]

/-! ## The pipeline's proof data -/

/-- The arrays as the region finds them; after the body each input's buffer at its block and the output's at the
    product of the two input blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## The inputs' staging buffers hold their blocks -/

/-- The left matrix's staging buffer holds the point's block of rows at every point, also where the block index
    has not moved since the previous point and nothing was fetched: the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's staging buffer holds the point's block of columns at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The one store covers the output buffer -/

/-- The product block is stored over the whole output buffer: one piece, the buffer's own extent. -/
theorem cover0_2 (p0 : Vec F S512x1024 .f32) (y : S512x1024.Idx) :
    ∃ pc ∈ ([⟨rC0, p0⟩] : List (View.Piece (Elt F) S512x1024 .f32)), y ∈ pc.1.set :=
  View.cover_of_tiled [⟨rC0, p0⟩] S512x1024.size (by rfl) y

/-! ## The body's triple -/

set_option maxHeartbeats 1000000 in
/-- The body on whole staging buffers, the two inputs' at contents x0 and x1 and the output's at anything: it reads
    both inputs whole, reads the output buffer once without using what it read, and stores the product of the
    rounded left block by the right block over the whole output buffer. The inputs stay as they were. -/
theorem sound_kernel0 (c : Dev nD) (E : Set ℕ) (i : grid0.Coords)
    (arg2 : Memref sig .tc .vmem S512x2048 .f32) (harg2 : arg2.IsWhole)
    (arg3 : Memref sig .tc .vmem S2048x1024 .bf16) (harg3 : arg3.IsWhole)
    (arg4 : Memref sig .tc .vmem S512x1024 .f32) (harg4 : arg4.IsWhole)
    (x0 : Vec F S512x2048 .f32) (x1 : Vec F S2048x1024 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- The attention call, one grid point (batch b, group g, query tile qi) at a time: the body reads the point's 256 query
   rows and the group's 2048 key and value rows, both out of one array of width 3072, and the cosine and sine tables;
   it rotates queries and keys, and for each of the group's four heads takes scores, their softmax and the weighted sum
   of values, storing the head's 64 output lanes. What each window's staging buffer holds after the body, the proof
   data of the pipeline, and the body's obligation at every point. -/
import proofs.«412668_j88940182765732_3_alg».proof.Proof.Gen.KernelIdeal.Launch
import proofs.«412668_j88940182765732_3_alg».proof.Proof.Gen.KernelIdeal.Skeleton
import proofs.«412668_j88940182765732_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The query block, whole. -/
abbrev rQ1 : Rect S1x256x384 := Rect.unit (s := S1x256x384) ![0, 0, 0] S1x256x384.size inb_S1x256x384_S1x256x384_0_0_0
/-- The key and value block, whole. -/
abbrev rK1 : Rect S1x2048x384 := Rect.unit (s := S1x2048x384) ![0, 0, 0] S1x2048x384.size inb_S1x2048x384_S1x2048x384_0_0_0
/-- A table, whole: the keys' angles. -/
abbrev rT1 : Rect S2048x64 := Rect.unit (s := S2048x64) ![0, 0] S2048x64.size inb_S2048x64_S2048x64_0_0
/-- A table's 256 rows from the query tile's first position: the queries' angles. -/
abbrev rTq1 (i : grid1.Coords) : Rect S2048x64 := Rect.unit (s := S2048x64) (k1_off1 i) S256x64.size (k1_off1_inb i)
/-- The four heads' 64-lane column bands of the output block. -/
abbrev rO1_0 : Rect S1x256x256 := Rect.unit (s := S1x256x256) ![0, 0, 0] S1x256x64.size inb_S1x256x256_S1x256x64_0_0_0
abbrev rO1_64 : Rect S1x256x256 := Rect.unit (s := S1x256x256) ![0, 0, 64] S1x256x64.size inb_S1x256x256_S1x256x64_0_0_64
abbrev rO1_128 : Rect S1x256x256 := Rect.unit (s := S1x256x256) ![0, 0, 128] S1x256x64.size inb_S1x256x256_S1x256x64_0_0_128
abbrev rO1_192 : Rect S1x256x256 := Rect.unit (s := S1x256x256) ![0, 0, 192] S1x256x64.size inb_S1x256x256_S1x256x64_0_0_192

/-! ## What the body computes from its loads -/

section Loads
variable (i : grid1.Coords) (x0 : Vec F S1x256x384 .f32) (x1 : Vec F S1x2048x384 .f32) (x2 x3 : Vec F S2048x64 .f32)

/-- The queries' cosines and sines, the query rows, the rotated keys, the values. -/
abbrev cq1 : FVec F S256x64 .f32 := k1_pay1 (View.ld x2 (rTq1 i))
abbrev sq1 : FVec F S256x64 .f32 := k1_pay2 (View.ld x3 (rTq1 i))
abbrev qrows1 : FVec F S256x384 .f32 := k1_pay3 (View.ld x0 rQ1)
abbrev krot1 : FVec F S2048x64 .bf16 := k1_pay5 (View.ld x2 rT1) (View.ld x3 rT1) (View.ld x1 rK1)
abbrev vals1 : FVec F S2048x64 .bf16 := k1_pay6 (View.ld x1 rK1)

/-- The four heads' output bands. -/
abbrev head0 : FVec F S1x256x64 .bf16 :=
  k1_pay8 (vals1 x1) (k1_pay7 (View.ld x2 (rTq1 i)) (View.ld x3 (rTq1 i)) (View.ld x2 rT1) (View.ld x3 rT1) (View.ld x0 rQ1) (View.ld x1 rK1))
abbrev head1 : FVec F S1x256x64 .bf16 := k1_pay9 (cq1 i x2) (sq1 i x3) (qrows1 x0) (krot1 x1 x2 x3) (vals1 x1)
abbrev head2 : FVec F S1x256x64 .bf16 :=
  k1_pay12 (vals1 x1) (k1_pay10 (cq1 i x2) (sq1 i x3) (qrows1 x0)) (k1_pay11 (krot1 x1 x2 x3)) (constant S256x2048 .f32 0x00000000#32)
abbrev head3 : FVec F S1x256x64 .bf16 := k1_pay13 (cq1 i x2) (sq1 i x3) (qrows1 x0) (krot1 x1 x2 x3) (vals1 x1)

/-- The output window's staging buffer after the body: its four stores as pieces, last first. -/
def out1_4 : Vec F S1x256x256 .bf16 :=
  View.canon [⟨rO1_192, head3 i x0 x1 x2 x3⟩, ⟨rO1_128, head2 i x0 x1 x2 x3⟩, ⟨rO1_64, head1 i x0 x1 x2 x3⟩, ⟨rO1_0, head0 i x0 x1 x2 x3⟩]

end Loads

/-! ## The pipeline's proof data -/

/-- The arrays as the region finds them; after the body each input's buffer at its block and the output's at the four
    heads' bands; the invariant the scoped rest and the generator register, untouched; nothing owed. The query window
    and the key and value window read ONE array: the first holds it at the left half of the full share, the second at
    the right half; every other window holds its array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by
  dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

/-! ## What the body finds in the input windows' buffers -/

/-- The query window's buffer holds the point's query block: the window is fetched at every point, and its block is
    the array's rows of the point's tile. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]; try rfl
  · unfold Dat.fetched Dat.blockOf iblk1; rw [A_eq1]; try rfl

/-- The key and value window's buffer holds the group's block at every point of the group: where it is not fetched
    the block's index has not moved since the point before. -/
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]; try rfl
  · unfold Dat.fetched Dat.blockOf iblk1; rw [A_eq1]; try rfl

/-- The cosine table's buffer holds the whole table at every point: fetched once, its one block never moves. -/
theorem before1_2 (c : Dev nD) (t : Fin cfg1.N) (d) : (dat1 V c).before 2 t d = iblk1 V c 2 t := by
  refine ((dat1 V c).before_in_eq_fetched 2 rfl (fun _ => rfl) (fun _ _ _ => rfl) (fun t => ?_) t d).trans ?_
  · rw [after1_2]; unfold Dat.blockOf iblk1; rw [A_eq1]; try rfl
  · unfold Dat.fetched Dat.blockOf iblk1; rw [A_eq1]; try rfl

/-- The sine table's buffer likewise. -/
theorem before1_3 (c : Dev nD) (t : Fin cfg1.N) (d) : (dat1 V c).before 3 t d = iblk1 V c 3 t := by
  refine ((dat1 V c).before_in_eq_fetched 3 rfl (fun _ => rfl) (fun _ _ _ => rfl) (fun t => ?_) t d).trans ?_
  · rw [after1_3]; unfold Dat.blockOf iblk1; rw [A_eq1]; try rfl
  · unfold Dat.fetched Dat.blockOf iblk1; rw [A_eq1]; try rfl

/-! ## The four bands cover the output block -/

/-- Four bands of 64 lanes at lanes 0, 64, 128 and 192 tile the 256 lanes of the output block, so every index of
    the block lies in one of them. -/
theorem cover1_4 (p3 p2 p1 p0 : Vec F S1x256x64 .bf16) (y : S1x256x256.Idx) :
    ∃ pc ∈ ([⟨rO1_192, p3⟩, ⟨rO1_128, p2⟩, ⟨rO1_64, p1⟩, ⟨rO1_0, p0⟩] : List (View.Piece (Elt F) S1x256x256 .bf16)), y ∈ pc.1.set :=
  View.cover_of_tiled [⟨rO1_192, p3⟩, ⟨rO1_128, p2⟩, ⟨rO1_64, p1⟩, ⟨rO1_0, p0⟩] S1x256x64.size (by rfl) y

/-! ## The body's run -/

set_option maxHeartbeats 4000000 in
/-- The body on whole buffers, the four inputs' at contents reading x0 .. x3 and the output's at anything, runs to
    its return with the inputs' buffers as they were and the output's reading the four heads' bands laid side by
    side. The loads of the output's bands just before each store read values the body never uses. -/
theorem sound_kernel1 (c : Dev nD) (E : Set ℕ) (i : grid1.Coords)
    (arg3 : Memref sig .tc .vmem S1x256x384 .f32) (harg3 : arg3.IsWhole)
    (arg4 : Memref sig .tc .vmem S1x2048x384 .f32) (harg4 : arg4.IsWhole)
    (arg5 : Memref sig .tc .vmem S2048x64 .f32) (harg5 : arg5.IsWhole)
    (arg6 : Memref sig .tc .vmem S2048x64 .f32) (harg6 : arg6.IsWhole)
    (arg7 : Memref sig .tc .vmem S1x256x256 .bf16) (harg7 : arg7.IsWhole)
    (x0 : Vec F S1x256x384 .f32) (x1 : Vec F S1x2048x384 .f32) (x2 x3 : Vec F S2048x64 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out1_4 i x0 x1 x2 x3)) -∗ K ⟨⟩))
      ⊢ wp frame (wpE (defs₀ (F := F)) Variants.none c none) E
          (cc1__attn_kernel i arg3 harg3 arg4 harg4 arg5 harg5 arg6 harg6 arg7 harg7) K := by
  simp only [cc1__attn_kernel_eq_skeleton]; unfold cc1__attn_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _ _ _)

/-! ## The body obligation -/

/-- What the body is handed at point t: the invariant, what the core owes, and every window's current buffer at what
    it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debts, and every current buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so the body's run applies at the blocks; the
    invariant and the debts pass through untouched, and the output's buffer, whatever it held, ends at the four
    bands computed from the blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/- The last matrix product of the layer, one grid point at a time: the body multiplies the point's block of rows of the
   left matrix by its block of columns of the right matrix and stores the product block. What each window's staging
   buffer holds after the body, the proof data of the pipeline, and the body's obligation at every point. -/
import proofs.«412668_j88940182765732_3_alg».proof.Proof.Gen.KernelIdeal.Launch
import proofs.«412668_j88940182765732_3_alg».proof.Proof.Gen.KernelIdeal.Skeleton
import proofs.«412668_j88940182765732_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer whole -/

abbrev rA2 : Rect S512x2048 := Rect.unit (s := S512x2048) ![0, 0] S512x2048.size inb_S512x2048_S512x2048_0_0
abbrev rB2 : Rect S2048x512 := Rect.unit (s := S2048x512) ![0, 0] S2048x512.size inb_S2048x512_S2048x512_0_0
abbrev rC2 : Rect S512x512 := Rect.unit (s := S512x512) ![0, 0] S512x512.size inb_S512x512_S512x512_0_0

/-- The output window's staging buffer after the body, from the two input blocks: its one store, of the product. -/
def out2_2 (x0 : Vec F S512x2048 .bf16) (x1 : Vec F S2048x512 .bf16) : Vec F S512x512 .f32 :=
  View.canon [⟨rC2, k2_pay1 (View.ld x0 rA2) (View.ld x1 rB2)⟩]

/-! ## The pipeline's proof data -/

/-- The arrays as the region finds them; after the body each input's buffer at its block and the output's at the
    product of the two input blocks; the invariant the scoped rest and the generator register, untouched; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-! ## The inputs' staging buffers hold their blocks -/

/-- The left matrix's staging buffer holds the point's block of rows at every point, also where the block index
    has not moved since the previous point and nothing was fetched: the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right matrix's staging buffer holds the point's block of columns at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The one store covers the output buffer -/

/-- The product block is stored over the whole output buffer: one piece, the buffer's own extent. -/
theorem cover2_2 (p0 : Vec F S512x512 .f32) (y : S512x512.Idx) :
    ∃ pc ∈ ([⟨rC2, p0⟩] : List (View.Piece (Elt F) S512x512 .f32)), y ∈ pc.1.set :=
  View.cover_of_tiled [⟨rC2, p0⟩] S512x512.size (by rfl) y

/-! ## The body's triple -/

set_option maxHeartbeats 1000000 in
/-- The body on whole staging buffers, the two inputs' at contents x0 and x1 and the output's at anything: it reads
    both inputs whole, reads the output buffer once without using what it read, and stores the product of the
    left block by the right block over the whole output buffer. The inputs stay as they were. -/
theorem sound_kernel2 (c : Dev nD) (E : Set ℕ) (i : grid2.Coords)
    (arg2 : Memref sig .tc .vmem S512x2048 .bf16) (harg2 : arg2.IsWhole)
    (arg3 : Memref sig .tc .vmem S2048x512 .bf16) (harg3 : arg3.IsWhole)
    (arg4 : Memref sig .tc .vmem S512x512 .f32) (harg4 : arg4.IsWhole)
    (x0 : Vec F S512x2048 .bf16) (x1 : Vec F S2048x512 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- The layer's program as a run of seven segments — host operations, the first product, host operations, the attention
   call, host operations, the last product, host operations — with the contents of every unscoped buffer named at each
   boundary: after a stretch of host operations what those operations compute from the contents before; after a
   kernel call its output array at what the pipeline's write-backs leave and every other buffer as before. Every weakly
   fair execution terminates with every unscoped buffer at the last boundary's contents; in particular the arguments
   end as launched. -/
import proofs.«412668_j88940182765732_3_alg».proof.Proof.KI.Region0
import proofs.«412668_j88940182765732_3_alg».proof.Proof.KI.Region1
import proofs.«412668_j88940182765732_3_alg».proof.Proof.KI.Region2
import proofs.«412668_j88940182765732_3_alg».proof.Proof.LibSharedArrays
import proofs.«412668_j88940182765732_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m ((c : Dev nD), b)
/-- After the first stretch of host operations (the first product's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first product's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second stretch (the attention call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention call's exit: its output array at what the pipeline leaves, every other buffer as entered (its
    input arrays among them: two of its windows read one array, and no input window writes back). -/
def W4 (c : Dev nD) : Valuation τ sig (Elt F) :=
  Function.update (W3 m c) (Proc.devRef .tc main_v10) ((dat1 (V3 m) c).arrAt 4 cfg1.N)
abbrev V4 : (c : Dev nD) → (b : Ref sig .tc) → Buf (Elt F) ((c : Thread nD τ).loc b) := fun c b => W4 m c b
/-- After the third stretch (the last product's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the last product's exit. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last stretch: the program's end. -/
abbrev W7 : Dev nD → Valuation τ sig (Elt F) := fun c => StableHlo.after hostOps3 (W6 m c)

/-! ## What a kernel call changes and what it keeps -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_out (c : Dev nD) : W4 m c (Proc.devRef .tc main_v10) = (dat1 (V3 m) c).arrAt 4 cfg1.N := by
  unfold W4; exact Function.update_self ..
theorem W4_of_ne (c : Dev nD) (b : Ref sig .tc) (hb : b ≠ main_v10) :
    W4 m c (Proc.devRef .tc b) = W3 m c (Proc.devRef .tc b) := by
  unfold W4; exact Function.update_of_ne (StableHlo.devRef_ne_of_ne hb) ..
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-! ## The proof data of the three calls and what rides beside the buffers -/

/-- Every pipeline's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
/-- No core owes another anything: no level is assigned. -/
abbrev lvs : GSem nD τ sig → Finset Unit := fun _ => ∅
abbrev lvOf : GSem nD τ sig → Unit → ℕ := fun _ _ => 0
/-- Beside the buffers, through every segment: the core's generator register at some state, and the core owing
    nothing. -/
abbrev R (c : Dev nD) : sProp 𝕄 := iprop((∃ r, prngReg c r) ∗ ∃ W, owes (c : Thread nD τ) (0 : CellTallies nD τ sig Unit) W)
/-- A stretch of host operations over the unscoped buffers from the contents W: it ends with them at what the
    operations compute from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lvs lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last state without what is owed: every unscoped buffer at the last boundary's contents, the generator register
    at some state. -/
abbrev Tend (c : Dev nD) : sProp 𝕄 := iprop(StableHlo.held (c : Thread nD τ) (Pipeline.ucRefs τ sig) (W7 m c) ∗ ∃ r, prngReg c r)

/-! ## The attention call's shares: the common array's two halves, every other array whole -/

theorem share1_0 (c : Dev nD) : (dat1 (V3 m) c).share 0 = fullShare.left :=
  (Cert.Lib.SharedArrays.share_in _ 0 rfl).trans (q1_0 _ c)
theorem share1_1 (c : Dev nD) : (dat1 (V3 m) c).share 1 = fullShare.right :=
  (Cert.Lib.SharedArrays.share_in _ 1 rfl).trans (q1_1 _ c)
theorem share1_rest (c : Dev nD) : ∀ w : Fin cfg1.W, w ≠ 0 → w ≠ 1 → (dat1 (V3 m) c).share w = fullShare
  | ⟨0, _⟩, h, _ => absurd rfl h
  | ⟨1, _⟩, _, h => absurd rfl h
  | ⟨2, _⟩, _, _ => (Cert.Lib.SharedArrays.share_in _ 2 rfl).trans (q1_2 _ c)
  | ⟨3, _⟩, _, _ => (Cert.Lib.SharedArrays.share_in _ 3 rfl).trans (q1_3 _ c)
  | ⟨4, _⟩, _, _ => Cert.Lib.SharedArrays.share_out _ 4 rfl
  | ⟨_ + 5, h⟩, _, _ => absurd h (Nat.not_lt.2 (Nat.le_add_left _ _))

/-- The query window and the key and value window are two windows on one array; the other arrays are distinct from it
    and from one another. -/
theorem arr1_ne : (0 : Fin cfg1.W) ≠ 1 := by decide
theorem arr1_same : Pipeline.arrRef spec1 0 = Pipeline.arrRef spec1 1 := by decide
theorem arr1_inj : ∀ w w' : Fin cfg1.W, w ≠ 0 → w' ≠ 0 → Pipeline.arrRef spec1 w = Pipeline.arrRef spec1 w' → w = w' := by decide

/-- At the attention call's entry each window's array holds what the entry contents have at its buffer. -/
theorem hF1_in (c : Dev nD) (w : Fin cfg1.W) : (dat1 (V3 m) c).arrAt w 0 = V3 m c (Pipeline.arrRef spec1 w) :=
  A_eq1 (V3 m) c w
/-- At its exit too: an input array is never written and is not the output's buffer; the output array is what the
    write-backs leave. -/
theorem hF1_out (c : Dev nD) : ∀ w : Fin cfg1.W, (dat1 (V3 m) c).arrAt w cfg1.N = V4 m c (Pipeline.arrRef spec1 w)
  | ⟨0, _⟩ => (((dat1 (V3 m) c).arrAt_in 0 rfl _).trans (A_eq1 (V3 m) c 0)).trans (W4_of_ne m c _ (by decide)).symm
  | ⟨1, _⟩ => (((dat1 (V3 m) c).arrAt_in 1 rfl _).trans (A_eq1 (V3 m) c 1)).trans (W4_of_ne m c _ (by decide)).symm
  | ⟨2, _⟩ => (((dat1 (V3 m) c).arrAt_in 2 rfl _).trans (A_eq1 (V3 m) c 2)).trans (W4_of_ne m c _ (by decide)).symm
  | ⟨3, _⟩ => (((dat1 (V3 m) c).arrAt_in 3 rfl _).trans (A_eq1 (V3 m) c 3)).trans (W4_of_ne m c _ (by decide)).symm
  | ⟨4, _⟩ => (W4_out m c).symm
  | ⟨_ + 5, h⟩ => absurd h (Nat.not_lt.2 (Nat.le_add_left _ _))
/-- Off the call's arrays the exit contents are the entry contents. -/
theorem hrest1 (c : Dev nD) : ∀ b, b ∉ Finset.univ.image (Pipeline.arrRef spec1) → V4 m c b = V3 m c b :=
  fun b hb => W4_of_ne m c b fun e => hb (Finset.mem_image.mpr ⟨4, Finset.mem_univ _, e.symm⟩)

/-! ## The three calls as segments -/

set_option backward.isDefEq.respectTransparency.types false in
/-- The first product: entered from every unscoped buffer at the contents after the first stretch, left with its arrays at
    what the pipeline leaves and every other buffer as entered. The arrays are split out of the unscoped buffers at entry and
    put back at exit; the generator register goes into the pipeline's invariant and comes out; nothing is owed. -/
def reg0 : Pipeline.RegionSeg (pcfgs (F := F)) adm (pdats m) () defs₀ Variants.none lvs lvOf 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ lvs lvOf 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at the contents after the second stretch, left with the output
    array at what the write-backs leave and every other buffer as entered. The query window and the key and value window
    read one array: its buffer, held whole, is dealt to them as the two halves of the full share at entry, and the halves
    rejoin at exit, both windows having left the array as they found it. -/
def reg1 : Pipeline.RegionSeg (pcfgs (F := F)) adm (pdats m) () defs₀ Variants.none lvs lvOf 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ lvs lvOf 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Cert.Lib.SharedArrays.unscopedBufs_eq_arrays (Ix := Unit) (Name := ℕ) (U := UR sig nD τ) (Lvl := ℕ)
      (pdats m 1 c) 0 1 arr1_ne arr1_same arr1_inj winFacts₀1.arr_unscoped arr_whole1
      (share1_0 m c) (share1_1 m c) (share1_rest m c) (V3 m c) ((pdats m 1 c).arrAt · 0) (hF1_in m c)
    rw [Pipeline.unscopedBufs_held] at hsplit
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Cert.Lib.SharedArrays.unscopedBufs_eq_arrays (Ix := Unit) (Name := ℕ) (U := UR sig nD τ) (Lvl := ℕ)
      (pdats m 1 c) 0 1 arr1_ne arr1_same arr1_inj winFacts₀1.arr_unscoped arr_whole1
      (share1_0 m c) (share1_1 m c) (share1_rest m c) (V4 m c) ((pdats m 1 c).arrAt · cfg1.N) (hF1_out m c)
    rw [Pipeline.unscopedBufs_held,
      Cert.Lib.SharedArrays.unscopedRest_congr (Ix := Unit) (Name := ℕ) (U := UR sig nD τ) (Lvl := ℕ) (Pipeline.pin (pcfgs (F := F)) adm 1).spec c (V3 m c) (V4 m c) (hrest1 m c)] at hjoin
    iintro ⟨Ha, HO, HY, Hrest⟩
    imodintro
    isplitl [Ha Hrest]
    · iapply (Entails.of_eq hjoin.symm); isplitl [Ha] <;> iassumption
    isplitl [HY]; · iexact HY
    unfold Pipeline.Dat.owesAt Pipeline.owesWithin
    icases HO with ⟨%W, -, HO⟩; iexists W; iexact HO

set_option backward.isDefEq.respectTransparency.types false in
/-- The last product, likewise: entered from the contents after the third stretch, left with its arrays at what the
    pipeline leaves. -/
def reg2 : Pipeline.RegionSeg (pcfgs (F := F)) adm (pdats m) () defs₀ Variants.none lvs lvOf 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ lvs lvOf 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (fun w => (W6_arr m c w).symm)
      (fun b hb => W6_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m) () defs₀ Variants.none lvs lvOf) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program is the run of its segments. -/
theorem main_run (c : Dev nD) : main (F := F) c = Pipeline.Seg.run (segs m) :=
  main_segs adm (pdats m) () Variants.none lvs lvOf _ _ _ _ (reg0 m) (reg1 m) (reg2 m) rfl rfl rfl rfl c

/-! ## The run -/

set_option backward.isDefEq.respectTransparency.types false in
/-- Every weakly fair execution terminates, and every final memory holds each unscoped buffer at the last boundary's
    contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ Variants.none lvs lvOf m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl,
      fun _ => Idealize.SL.BI.sep_assoc'⟩)
    (hinit := by
      refine Pipeline.initEach lvs lvOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- An unscoped buffer of the core is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no stretch of host operations writes and that is no call's output reaches the end as launched. -/
theorem W7_of_kept (c : Dev nD) (r : Ref sig .tc) (h0 : r ∉ hostOps0_W) (h1 : ∀ w, Pipeline.arrRef spec0 w ≠ r)
    (h2 : r ∉ hostOps1_W) (h3 : r ≠ main_v10) (h4 : r ∉ hostOps2_W) (h5 : ∀ w, Pipeline.arrRef spec2 w ≠ r)
    (h6 : r ∉ hostOps3_W) : W7 m c (Proc.devRef .tc r) = m ((c : Thread nD τ).loc r) :=
  calc W7 m c (Proc.devRef .tc r)
    _ = W6 m c (Proc.devRef .tc r) := StableHlo.after_of_writes_sub hostOps3 _ hostOps3_writes h6
    _ = W5 m c (Proc.devRef .tc r) := W6_of_ne m c r h5
    _ = W4 m c (Proc.devRef .tc r) := StableHlo.after_of_writes_sub hostOps2 _ hostOps2_writes h4
    _ = W3 m c (Proc.devRef .tc r) := W4_of_ne m c r h3
    _ = W2 m c (Proc.devRef .tc r) := StableHlo.after_of_writes_sub hostOps1 _ hostOps1_writes h2
    _ = W1 m c (Proc.devRef .tc r) := W2_of_ne m c r h1
    _ = W0 m c (Proc.devRef .tc r) := StableHlo.after_of_writes_sub hostOps0 _ hostOps0_writes h0
    _ = m ((c : Thread nD τ).loc r) := rfl

/-- No host operation and no kernel call writes an argument. -/
theorem W7_main_arg0 (c : Dev nD) : W7 m c (Proc.devRef .tc main_arg0) = m ((c : Thread nD τ).loc main_arg0) :=
  W7_of_kept m c main_arg0 (by decide) (by decide) (by decide) (by decide) (by decide) (by decide) (by decide)
theorem W7_main_arg1 (c : Dev nD) : W7 m c (Proc.devRef .tc main_arg1) = m ((c : Thread nD τ).loc main_arg1) :=
  W7_of_kept m c main_arg1 (by decide) (by decide) (by decide) (by decide) (by decide) (by decide) (by decide)
theorem W7_main_arg2 (c : Dev nD) : W7 m c (Proc.devRef .tc main_arg2) = m ((c : Thread nD τ).loc main_arg2) :=
  W7_of_kept m c main_arg2 (by decide) (by decide) (by decide) (by decide) (by decide) (by decide) (by decide)
theorem W7_main_arg3 (c : Dev nD) : W7 m c (Proc.devRef .tc main_arg3) = m ((c : Thread nD τ).loc main_arg3) :=
  W7_of_kept m c main_arg3 (by decide) (by decide) (by decide) (by decide) (by decide) (by decide) (by decide)
theorem W7_main_arg4 (c : Dev nD) : W7 m c (Proc.devRef .tc main_arg4) = m ((c : Thread nD τ).loc main_arg4) :=
  W7_of_kept m c main_arg4 (by decide) (by decide) (by decide) (by decide) (by decide) (by decide) (by decide)

/-- The frame: the program runs to the end and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_main m ρ)

end Cert.KernelIdeal.Hand

end
-- ==== Proof.Spec.lean ====
/- What the attention layer computes, as functions of whole arrays on the extended reals.

Three stages. (1) A projection: row (b, t) of the input against every row f of a weight matrix,
out[b, t, f] = Σ_e x[b, t, e] · w[f, e]. (2) Grouped-query attention with rotary position embedding on a row of
width 3072 = 8 groups × (4 query heads + 1 key + 1 value) × 64 lanes: head h = 4g + i reads its query at columns
384g + 64i + d, and the key and value of its group g at columns 384g + 256 + d and 384g + 320 + d. A 64-lane vector v
at position t is rotated to v[d]·cos[t, d] − v[d + 32]·sin[t, d] on the first 32 lanes and
v[d]·cos[t, d − 32] + v[d − 32]·sin[t, d − 32] on the last 32. The score of query position t against key
position k is (Σ_d q̃[d]·k̃[d]) / 8; the weights are the softmax of the scores over k, taken as
exp(s − max s) / Σ exp(s − max s); the head's output lane d is Σ_k weight[k] · value[k, d], stored at column
64h + d. (3) The same projection again. Nothing here mentions a program. -/
import Idealize.ShloMosaic.PureOps.Ideal
import Idealize.ShloMosaic.Lib.ValueIdx

noncomputable section

namespace Cert.Spec

open Idealize.ShloMosaic Idealize.ShloMosaic.ValueIdx

/-- A rank-3 array of extended reals. -/
abbrev Arr3 (a b c : Nat) : Type := (⟨3, ![a, b, c]⟩ : Shape).Idx → EReal
/-- A rank-2 array of extended reals. -/
abbrev Arr2 (a b : Nat) : Type := (⟨2, ![a, b]⟩ : Shape).Idx → EReal

/-! ## The projection -/

/-- Row (b, t) of x against row f of w. -/
def projAt {E Fo : Nat} (x : Arr3 2 2048 E) (w : Arr2 Fo E) (b : Fin 2) (t : Fin 2048) (f : Fin Fo) : EReal :=
  ∑ e : Fin E, x (ix3 b t e) * w (ix2 f e)

/-- The projection as a whole array. -/
def proj {E Fo : Nat} (x : Arr3 2 2048 E) (w : Arr2 Fo E) : Arr3 2 2048 Fo :=
  fun j => projAt x w (j 0) (j 1) (j 2)

/-! ## A plain matrix product -/

/-- Rows of A against columns of B. -/
def mm {M K N : Nat} (A : Arr2 M K) (B : Arr2 K N) : Arr2 M N :=
  fun j => ∑ k : Fin K, A (ix2 (j 0) k) * B (ix2 k (j 1))

/-! ## Where a head finds its lanes in a row of width 3072 -/

/-- The group of head h. -/
def grp (h : Fin 32) : Fin 8 := ⟨h.val / 4, by omega⟩
/-- Lane d of head h's query. -/
def qcol (h : Fin 32) (d : Fin 64) : Fin 3072 := ⟨(h.val / 4) * 384 + (h.val % 4) * 64 + d.val, by omega⟩
/-- Lane d of group g's key. -/
def kcol (g : Fin 8) (d : Fin 64) : Fin 3072 := ⟨g.val * 384 + 256 + d.val, by omega⟩
/-- Lane d of group g's value. -/
def vcol (g : Fin 8) (d : Fin 64) : Fin 3072 := ⟨g.val * 384 + 320 + d.val, by omega⟩

/-! ## The rotary embedding -/

/-- A 64-lane vector rotated by the angles whose cosines and sines are c and s. -/
def rope (v : Fin 64 → EReal) (c s : Fin 32 → EReal) (d : Fin 64) : EReal :=
  if h : d.val < 32 then v d * c ⟨d.val, h⟩ - v ⟨d.val + 32, by omega⟩ * s ⟨d.val, h⟩
  else v d * c ⟨d.val - 32, by omega⟩ + v ⟨d.val - 32, by omega⟩ * s ⟨d.val - 32, by omega⟩

/-- Head h's rotated query at position t. -/
def qr (qkv : Arr3 2 2048 3072) (cos sin : Arr2 2048 32) (b : Fin 2) (t : Fin 2048) (h : Fin 32) (d : Fin 64) : EReal :=
  rope (fun d' => qkv (ix3 b t (qcol h d'))) (fun j => cos (ix2 t j)) (fun j => sin (ix2 t j)) d

/-- Group g's rotated key at position k. -/
def kr (qkv : Arr3 2 2048 3072) (cos sin : Arr2 2048 32) (b : Fin 2) (k : Fin 2048) (g : Fin 8) (d : Fin 64) : EReal :=
  rope (fun d' => qkv (ix3 b k (kcol g d'))) (fun j => cos (ix2 k j)) (fun j => sin (ix2 k j)) d

/-! ## Scores, softmax, output: over any rotated queries, rotated keys and values -/

/-- One eighth, as the 32-bit float pattern both programs carry. -/
abbrev eighth : EReal := Ideal.ofBits .f32 0x3E000000#32
/-- Minus infinity, as the 32-bit float pattern the row maximum starts from. -/
abbrev negInf : EReal := Ideal.ofBits .f32 0xFF800000#32

/-- A row's maximum, folded from minus infinity. -/
def rowMax (s : Fin 2048 → EReal) : EReal := (Finset.univ : Finset (Fin 2048)).fold max negInf s

/-- A row's shifted exponentials. -/
def rowExp (s : Fin 2048 → EReal) (k : Fin 2048) : EReal := Ideal.exp (s k - rowMax s)

/-- A row's softmax. -/
def softmax (s : Fin 2048 → EReal) (k : Fin 2048) : EReal := Ideal.div (rowExp s k) (∑ k' : Fin 2048, rowExp s k')

/-- One head's output for a tile of 256 query rows: from the rows' rotated queries Qh, the rotated keys Kr and the values Vl
    of all 2048 positions, row r's scores against every key position, their softmax, and the weighted sum of lane d
    of the values. -/
def tileHead (Qh : Fin 256 → Fin 64 → EReal) (Kr Vl : Fin 2048 → Fin 64 → EReal) (r : Fin 256) (d : Fin 64) : EReal :=
  ∑ k : Fin 2048, softmax (fun k' => (∑ d' : Fin 64, Qh r d' * Kr k' d') * eighth) k * Vl k d

section Heads
-- rotated queries by (batch, position, head, lane); rotated keys and values by (batch, position, group, lane)
variable (Q : Fin 2 → Fin 2048 → Fin 32 → Fin 64 → EReal) (K Vl : Fin 2 → Fin 2048 → Fin 8 → Fin 64 → EReal)

/-- The score of query position t against key position k, for head h. -/
def scoreOf (b : Fin 2) (h : Fin 32) (t k : Fin 2048) : EReal :=
  (∑ d : Fin 64, Q b t h d * K b k (grp h) d) * eighth

/-- Lane d of head h's output at position t. -/
def headOf (b : Fin 2) (t : Fin 2048) (h : Fin 32) (d : Fin 64) : EReal :=
  ∑ k : Fin 2048, softmax (fun k' => scoreOf Q K b h t k') k * Vl b k (grp h) d

/-- The attention stage as a whole array: column 64h + d of row (b, t) is lane d of head h. -/
def attOf : Arr3 2 2048 2048 :=
  fun j => headOf Q K Vl (j 0) (j 1) ⟨(j 2).val / 64, by have h : (j 2).val < 2048 := (j 2).isLt; omega⟩ ⟨(j 2).val % 64, by omega⟩

end Heads

/-- Group g's value at position k, lane d. -/
def vl (qkv : Arr3 2 2048 3072) (b : Fin 2) (k : Fin 2048) (g : Fin 8) (d : Fin 64) : EReal := qkv (ix3 b k (vcol g d))

/-- The attention stage with the rotary embedding from half-width cosine and sine tables. -/
def att (qkv : Arr3 2 2048 3072) (cos sin : Arr2 2048 32) : Arr3 2 2048 2048 :=
  attOf (qr qkv cos sin) (kr qkv cos sin) (vl qkv)

/-! ## The same with full-width tables and a half turn of the lanes -/

/-- A 64-lane vector times a full-width table c, plus the vector turned by 32 lanes times a full-width table s. -/
def ropeK (v : Fin 64 → EReal) (c s : Fin 64 → EReal) (d : Fin 64) : EReal :=
  v d * c d + v ⟨(d.val + 32) % 64, by omega⟩ * s d

/-- Head h's rotated query at position t, from full-width tables. -/
def qrK (qkv : Arr3 2 2048 3072) (c64 s64 : Arr2 2048 64) (b : Fin 2) (t : Fin 2048) (h : Fin 32) (d : Fin 64) : EReal :=
  ropeK (fun d' => qkv (ix3 b t (qcol h d'))) (fun j => c64 (ix2 t j)) (fun j => s64 (ix2 t j)) d

/-- Group g's rotated key at position k, from full-width tables. -/
def krK (qkv : Arr3 2 2048 3072) (c64 s64 : Arr2 2048 64) (b : Fin 2) (k : Fin 2048) (g : Fin 8) (d : Fin 64) : EReal :=
  ropeK (fun d' => qkv (ix3 b k (kcol g d'))) (fun j => c64 (ix2 k j)) (fun j => s64 (ix2 k j)) d

/-- The attention stage from full-width tables. -/
def attK (qkv : Arr3 2 2048 3072) (c64 s64 : Arr2 2048 64) : Arr3 2 2048 2048 :=
  attOf (qrK qkv c64 s64) (krK qkv c64 s64) (vl qkv)

/-- Two half-width tables side by side. -/
def cat (a b : Arr2 2048 32) : Arr2 2048 64 :=
  fun j => if h : (j 1).val < 32 then a (ix2 (j 0) ⟨(j 1).val, h⟩)
    else b (ix2 (j 0) ⟨(j 1).val - 32, by have h1 : (j 1).val < 64 := (j 1).isLt; omega⟩)

/-- With the cosines twice and the sines negated then plain, the half turn is the rotary embedding. -/
theorem ropeK_cat (v : Fin 64 → EReal) (c s : Fin 32 → EReal) (d : Fin 64) :
    ropeK v (fun j => if h : j.val < 32 then c ⟨j.val, h⟩ else c ⟨j.val - 32, by omega⟩)
      (fun j => if h : j.val < 32 then -(s ⟨j.val, h⟩) else s ⟨j.val - 32, by omega⟩) d = rope v c s d := by
  unfold ropeK rope
  by_cases h : d.val < 32
  · simp only [h, dite_true]
    have e : (⟨(d.val + 32) % 64, by omega⟩ : Fin 64) = ⟨d.val + 32, by omega⟩ := Fin.ext (by show (d.val + 32) % 64 = d.val + 32; omega)
    rw [e, mul_neg, sub_eq_add_neg]
  · simp only [h, dite_false]
    have e : (⟨(d.val + 32) % 64, by omega⟩ : Fin 64) = ⟨d.val - 32, by omega⟩ := Fin.ext (by show (d.val + 32) % 64 = d.val - 32; omega)
    rw [e]

/-- Two tables side by side, read at row t and lane j: the first table's lane j, or the second's lane j - 32. -/
theorem cat_apply (a b : Arr2 2048 32) (t : Fin 2048) (j : Fin 64) :
    cat a b (ix2 t j) = if h : j.val < 32 then a (ix2 t ⟨j.val, h⟩) else b (ix2 t ⟨j.val - 32, by omega⟩) := rfl

/-- The attention stage from the full-width tables the kernel's program builds is the attention stage. -/
theorem attK_cat (qkv : Arr3 2 2048 3072) (cos sin : Arr2 2048 32) :
    attK qkv (cat cos cos) (cat (fun j => -(sin j)) sin) = att qkv cos sin := by
  have hq : qrK qkv (cat cos cos) (cat (fun j => -(sin j)) sin) = qr qkv cos sin := by
    funext b t h d
    exact ropeK_cat (fun d' => qkv (ix3 b t (qcol h d'))) (fun j => cos (ix2 t j)) (fun j => sin (ix2 t j)) d
  have hk : krK qkv (cat cos cos) (cat (fun j => -(sin j)) sin) = kr qkv cos sin := by
    funext b k g d
    exact ropeK_cat (fun d' => qkv (ix3 b k (kcol g d'))) (fun j => cos (ix2 k j)) (fun j => sin (ix2 k j)) d
  unfold attK att
  rw [hq, hk]

/-! ## The whole layer -/

/-- Projection to queries, keys and values; attention; projection back. -/
def layer (x : Arr3 2 2048 2048) (cos sin : Arr2 2048 32) (wqkv : Arr2 3072 2048) (wout : Arr2 2048 2048) : Arr3 2 2048 2048 :=
  proj (att (proj x wqkv) cos sin) wout

end Cert.Spec

end
-- ==== Proof.KI.Value0.lean ====
/- What the first product leaves in its output array, on the extended reals: entry (r, c) is the sum over k of the left
   matrix at (r, k) times the right matrix at (k, c) — the grid's 24 points write the 24 blocks of that one product. -/
import proofs.«412668_j88940182765732_3_alg».proof.Proof.KI.Region0
import proofs.«412668_j88940182765732_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index -/

/-- The block offsets of a whole-buffer access are all zero. -/
theorem mm0_zeros : (![0, 0] : Fin 2 → Nat) = fun _ => 0 := funext fun a => by fin_cases a <;> rfl

/-- The left factor's row is the output's row. -/
theorem mm0_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- The left factor's column is the summation index. -/
theorem mm0_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- The right factor's row is the summation index. -/
theorem mm0_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- The right factor's column is the output's column. -/
theorem mm0_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Entry (p, q) of the product of a block of 512 rows by a block of 1024 columns: the sum over the 2048 inner
    indices of the products, the narrowing of the left block being the identity on extended reals and the sum
    starting from zero. -/
theorem mm0_pay_apply (x0 : Vec Ideal S512x2048 .f32) (x1 : Vec Ideal S2048x1024 .bf16) (p : Fin 512) (q : Fin 1024) :
    (k0_pay1 x0 x1 : S512x1024.Idx → EReal) (ix2 p q) = ∑ k : Fin 2048, (x0 (ix2 p k) : EReal) * (x1 (ix2 k q) : EReal) := by
  unfold k0_pay1
  simp only [shapeCast_self, matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact mm0_lhs_0 _ _
    | ⟨1, _⟩ => exact (mm0_lhs_1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨0, _⟩ => exact (mm0_rhs_0 _ _).trans hk
    | ⟨1, _⟩ => exact mm0_rhs_1 _ _)
  rw [el, er]
  rfl

/-- A block product at an index of the block is the whole product at the index's place in the array: the block sits at
    row offset R and column offset C, the left block holds the left array's rows from R on, the right block the right
    array's columns from C on. -/
theorem mm0_block (A : S4096x2048.Idx → EReal) (B : S2048x3072.Idx → EReal)
    (x0 : Vec Ideal S512x2048 .f32) (x1 : Vec Ideal S2048x1024 .bf16) (j : S512x1024.Idx) (i : S4096x3072.Idx) (R C : Nat)
    (hi0 : (i 0).val = R + (j 0).val) (hi1 : (i 1).val = C + (j 1).val)
    (h0 : ∀ (y : S512x2048.Idx) (z : S4096x2048.Idx), (z 0).val = R + (y 0).val → (z 1).val = (y 1).val → x0 y = A z)
    (h1 : ∀ (y : S2048x1024.Idx) (z : S2048x3072.Idx), (z 0).val = (y 0).val → (z 1).val = C + (y 1).val → x1 y = B z) :
    (k0_pay1 x0 x1 : S512x1024.Idx → EReal) j = Cert.Spec.mm A B i := by
  obtain ⟨p, q, rfl⟩ : ∃ (p : Fin 512) (q : Fin 1024), j = ix2 p q := ⟨j 0, j 1, eq_ix2 j⟩
  obtain ⟨r, s, rfl⟩ : ∃ (r : Fin 4096) (s : Fin 3072), i = ix2 r s := ⟨i 0, i 1, eq_ix2 i⟩
  rw [mm0_pay_apply]
  show _ = ∑ k : Fin 2048, A (ix2 r k) * B (ix2 k s)
  exact Finset.sum_congr rfl fun k _ => by rw [h0 (ix2 p k) (ix2 r k) hi0 rfl, h1 (ix2 k q) (ix2 k s) rfl hi1]

/-! ## From the blocks to the array -/

/-- The block indices over the grid: the left block moves with the output's block row and spans every inner index,
    the right block moves with the output's block column, and the output's block indices stay in their ranges. -/
theorem mm0_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 2 :=
  (by decide +kernel : ∀ t : Fin grid0.N, _)

/-- Every one of the 8 × 3 output blocks is some point's. -/
theorem mm0_idx_onto : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

-- the core's buffer contents when the region is entered
variable (V : (c : Dev nD) → (b : Ref sig .tc) → Buf (Elt Ideal) ((c : Thread nD τ).loc b))

/-- What point t writes back is its block of the whole product. -/
theorem mm0_flushed_eq (c : Dev nD) (t : Fin cfg0.N) :
    (dat0 V c).flushed 2 t = ((cfg0.win 2).blk t).view.read (Elt Ideal)
      (Cert.Spec.mm (V c main_v4 : S4096x2048.Idx → EReal) (V c main_v1 : S2048x3072.Idx → EReal)) := by
  show (cfg0.win 2).cut (grid0.coords t) ((dat0 V c).after 2 t) = _
  rw [after0_2]
  unfold out0_2
  rw [View.canon_unit_zero mm0_zeros]
  simp only [View.ld_unit_zero (S := S512x2048) mm0_zeros, View.ld_unit_zero (S := S2048x1024) mm0_zeros]
  obtain ⟨e0, e1, e2, e3, e4, e5⟩ := mm0_idx_facts t
  funext j
  refine mm0_block _ _ (iblk0 V c 0 t) (iblk0 V c 1 t) j (((cfg0.win 2).blk t).view.emb j)
    (win0_2.index t (0 : Fin 2) * 512) (win0_2.index t (1 : Fin 2) * 1024) ?_ ?_ ?_ ?_
  · show win0_2.index t (0 : Fin 2) * 512 + 1 * (j 0).val = _; omega
  · show win0_2.index t (1 : Fin 2) * 1024 + 1 * (j 1).val = _; omega
  · intro y z hz0 hz1
    show V c main_v4 (((cfg0.win 0).blk t).view.emb y) = V c main_v4 z
    refine congrArg _ (funext fun a => Fin.ext ?_)
    match a with
    | ⟨0, _⟩ => show win0_0.index t (0 : Fin 2) * 512 + 1 * (y 0).val = (z 0).val; omega
    | ⟨1, _⟩ => show win0_0.index t (1 : Fin 2) * 2048 + 1 * (y 1).val = (z 1).val; omega
  · intro y z hz0 hz1
    show V c main_v1 (((cfg0.win 1).blk t).view.emb y) = V c main_v1 z
    refine congrArg _ (funext fun a => Fin.ext ?_)
    match a with
    | ⟨0, _⟩ => show win0_1.index t (0 : Fin 2) * 2048 + 1 * (y 0).val = (z 0).val; omega
    | ⟨1, _⟩ => show win0_1.index t (1 : Fin 2) * 1024 + 1 * (y 1).val = (z 1).val; omega

/-- An index of the output array is in point t's block when each coordinate is in the block's range on its axis. -/
theorem mm0_mem_blk (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v5).slice (win0_2.rect t)).set ↔ _
  rw [View.set_slice_whole, Rect.mem_set_unit]
  exact Iff.rfl

/-- Every index of the output array is in some point's block: row r lies in block row r / 512, column s in block
    column s / 1024. -/
theorem mm0_cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := mm0_idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mm0_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The first product's output array after the run is the whole product of its two input arrays. -/
theorem final0 (c : Dev nD) :
    ((dat0 V c).arrAt 2 cfg0.N : S4096x3072.Idx → EReal)
      = Cert.Spec.mm (V c main_v4 : S4096x2048.Idx → EReal) (V c main_v1 : S2048x3072.Idx → EReal) :=
  (dat0 V c).arrAt_eq_of_cover 2 (Cert.Spec.mm (V c main_v4 : S4096x2048.Idx → EReal) (V c main_v1 : S2048x3072.Idx → EReal))
    (fun t _ => mm0_flushed_eq V c t) mm0_cover

end Cert.KernelIdeal.Hand

end
-- ==== Proof.KI.Value1Pay.lean ====
/- What the attention body stores, read at an entry, on the extended reals: entry (row r, column 64·head + d) of the output
   block is one head's output for the tile — the head's 64 query lanes of the row rotated by the row's angles, the
   group's keys rotated by every position's angles, scores, softmax, and the weighted sum of lane d of the group's
   values — as a function of the four blocks the body loads. -/
import proofs.«412668_j88940182765732_3_alg».proof.Proof.KI.Region1
import proofs.«412668_j88940182765732_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One head's arithmetic, the first column of its query lanes a parameter -/

section HeadTerms
variable {F : FTy → Type} [FloatOps F]

/-- The 64 query lanes from column `off` of the rows, each row turned by its angles: lane d times the cosine plus
    lane d + 32 (around the end) times the signed sine. -/
def qRot (off : Nat) (hs : S256x384.Slices ![0, off] S256x64) (v4 v7 : FVec F S256x64 .f32) (v13 : FVec F S256x384 .f32) :
    FVec F S256x64 .bf16 :=
  truncf .bf16 (addf (mulf (extractStridedSlice S256x64 ![0, off] v13 hs) v4)
    (mulf (dynamicRotate 1 32#32 none (extractStridedSlice S256x64 ![0, off] v13 hs) rotates_S256x64_d1) v7)) bitsLt_bf16_f32

/-- Queries against transposed keys, times one eighth. -/
def scaled (q : FVec F S256x64 .bf16) (kT : FVec F S64x2048 .bf16) : FVec F S256x2048 .f32 :=
  mulf (matmul dot_S256x64_S64x2048_S256x2048_1_0_0_1_n_n none q kT (constant S256x2048 .f32 0x00000000#32))
    (broadcast S256x2048 (Scalar.ofBits .f32 0x3E000000#32))

/-- Each row's entries less the row's maximum, exponentiated. -/
def shiftExp (s : FVec F S256x2048 .f32) : FVec F S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- One head's output band from the rows' angles, the query rows, the rotated keys and the values. -/
def headPay (off : Nat) (hs : S256x384.Slices ![0, off] S256x64) (v4 v7 : FVec F S256x64 .f32) (v13 : FVec F S256x384 .f32)
    (v22 v23 : FVec F S2048x64 .bf16) : FVec F S1x256x64 .bf16 :=
  k1_pay8 v23 (shiftExp (scaled (qRot off hs v4 v7 v13) (k1_pay11 v22)))

variable (i : grid1.Coords) (x0 : Vec F S1x256x384 .f32) (x1 : Vec F S1x2048x384 .f32) (x2 x3 : Vec F S2048x64 .f32)

/-- The four bands are the one head term at the four lane offsets. -/
theorem head0_eq : head0 i x0 x1 x2 x3
    = headPay 0 slices_S256x384_o0_0_S256x64 (cq1 i x2) (sq1 i x3) (qrows1 x0) (krot1 x1 x2 x3) (vals1 x1) := rfl
theorem head1_eq : head1 i x0 x1 x2 x3
    = headPay 64 slices_S256x384_o0_64_S256x64 (cq1 i x2) (sq1 i x3) (qrows1 x0) (krot1 x1 x2 x3) (vals1 x1) := rfl
theorem head2_eq : head2 i x0 x1 x2 x3
    = headPay 128 slices_S256x384_o0_128_S256x64 (cq1 i x2) (sq1 i x3) (qrows1 x0) (krot1 x1 x2 x3) (vals1 x1) := rfl
theorem head3_eq : head3 i x0 x1 x2 x3
    = headPay 192 slices_S256x384_o0_192_S256x64 (cq1 i x2) (sq1 i x3) (qrows1 x0) (krot1 x1 x2 x3) (vals1 x1) := rfl

end HeadTerms

/-! ## The operations that move entries, read at an entry of the extended-real arrays -/

section Reads

/-- A half turn of the 64 lanes: lane d of the turned rows is lane d + 32, around the end. -/
theorem halfTurn_apply {α : Type} (x : S256x64.Idx → α) (r : Fin 256) (d : Fin 64) :
    dynamicRotate 1 32#32 none x rotates_S256x64_d1 (ix2 r d) = x (ix2 r (⟨(d.val + 32) % 64, Nat.mod_lt _ (by decide)⟩ : Fin 64)) := by
  unfold dynamicRotate
  refine congrArg x (funext fun b => ?_)
  match b with
  | ⟨0, _⟩ => rfl
  | ⟨1, _⟩ => exact Fin.ext (by show (d.val + 64 - (32 + 0) % 64) % 64 = (d.val + 32) % 64; omega)

/-- The same on the 2048 key rows. -/
theorem halfTurnK_apply {α : Type} (x : S2048x64.Idx → α) (k : Fin 2048) (d : Fin 64) :
    dynamicRotate 1 32#32 none x rotates_S2048x64_d1 (ix2 k d) = x (ix2 k (⟨(d.val + 32) % 64, Nat.mod_lt _ (by decide)⟩ : Fin 64)) := by
  unfold dynamicRotate
  refine congrArg x (funext fun b => ?_)
  match b with
  | ⟨0, _⟩ => rfl
  | ⟨1, _⟩ => exact Fin.ext (by show (d.val + 64 - (32 + 0) % 64) % 64 = (d.val + 32) % 64; omega)

/-- A column of 256 row values spread over 2048 columns reads the row's value everywhere. -/
theorem column_apply {α : Type} (c : S256.Idx → α) (r : Fin 256) (k : Fin 2048) :
    broadcastTo S256x2048 (shapeCast S256x1 c shapeCasts_S256_S256x1) broadcasts_S256x1_S256x2048 (ix2 r k) = c (ix1 r) := by
  refine (broadcastTo_apply _ broadcasts_S256x1_S256x2048 (ix2 r k) (ix2 r (0 : Fin 1)) (fun a => ?_)).trans ?_
  · match a with
    | ⟨0, _⟩ => rfl
    | ⟨1, _⟩ => rfl
  · exact shapeCast_apply c shapeCasts_S256_S256x1 (ix2 r (0 : Fin 1)) (ix1 r) (by
      rw [Shape.rowMajor_val_one, Shape.rowMajor_val_two]
      show r.val = r.val * 1 + 0
      omega)

/-- A row's maximum: the fold of max from minus infinity over the row's 2048 entries. -/
theorem rowMaximum_apply (s : FVec Ideal S256x2048 .f32) (r : Fin 256) :
    multiReduction (F := Ideal) .maximumf [1] S256 s 0xFF800000#32 reduces_S256x2048_S256 (.inl rfl) rfl (ix1 r)
      = (Finset.univ : Finset (Fin 2048)).fold max (Ideal.ofBits .f32 0xFF800000#32) (fun k => s (ix2 r k)) := by
  refine (Ideal.multiReduction_maximumf_single s 0xFF800000#32 reduces_S256x2048_S256 (.inl rfl) rfl (ix1 r)).trans ?_
  refine congrArg (Finset.fold max (Ideal.ofBits .f32 0xFF800000#32) · (Finset.univ : Finset (Fin 2048))) (funext fun k => ?_)
  refine congrArg s (funext fun a => Fin.ext ?_)
  match a with
  | ⟨0, _⟩ => rfl
  | ⟨1, _⟩ => rfl

/-- A row's sum over its 2048 entries. -/
theorem rowSum_apply (p : FVec Ideal S256x2048 .f32) (r : Fin 256) :
    multiReduction (F := Ideal) .add [1] S256 p 0x00000000#32 reduces_S256x2048_S256 (.inl rfl) rfl (ix1 r)
      = ∑ k : Fin 2048, p (ix2 r k) := by
  refine (Ideal.multiReduction_add_single p 0x00000000#32 reduces_S256x2048_S256 (.inl rfl) rfl (ix1 r)).trans ?_
  refine Finset.sum_congr rfl fun k _ => ?_
  refine congrArg p (funext fun a => Fin.ext ?_)
  match a with
  | ⟨0, _⟩ => rfl
  | ⟨1, _⟩ => rfl

end Reads

/-! ## The two products, read at an entry -/

section Products

theorem lhs_scores_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_scores_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhs_scores_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhs_scores_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- Query rows against key columns: entry (r, c) is the sum over the 64 lanes. -/
theorem scores_apply (A : FVec Ideal S256x64 .bf16) (B : FVec Ideal S64x2048 .bf16) (r : Fin 256) (c : Fin 2048) :
    matmul dot_S256x64_S64x2048_S256x2048_1_0_0_1_n_n none A B (constant (F := Ideal) S256x2048 .f32 0x00000000#32) (ix2 r c)
      = ∑ k : Fin 64, A (ix2 r k) * B (ix2 k c) := by
  refine (Ideal.matmul_constant_zero_apply dot_S256x64_S64x2048_S256x2048_1_0_0_1_n_n none A B (ix2 r c)).trans ?_
  rw [← Equiv.sum_comp (ValueIdx.contrEquiv1 dot_S256x64_S64x2048_S256x2048_1_0_0_1_n_n 64 rfl rfl).symm]
  refine Finset.sum_congr rfl fun k _ => ?_
  have hk := ValueIdx.contrEquiv1_symm_val dot_S256x64_S64x2048_S256x2048_1_0_0_1_n_n 64 rfl rfl k
  have el : dot_S256x64_S64x2048_S256x2048_1_0_0_1_n_n.lhsIdx (ix2 r c) ((ValueIdx.contrEquiv1 dot_S256x64_S64x2048_S256x2048_1_0_0_1_n_n 64 rfl rfl).symm k) = ix2 r k := funext fun a => Fin.ext (by
    match a with
    | ⟨0, _⟩ => exact lhs_scores_0 _ _
    | ⟨1, _⟩ => exact (lhs_scores_1 _ _).trans hk)
  have er : dot_S256x64_S64x2048_S256x2048_1_0_0_1_n_n.rhsIdx (ix2 r c) ((ValueIdx.contrEquiv1 dot_S256x64_S64x2048_S256x2048_1_0_0_1_n_n 64 rfl rfl).symm k) = ix2 k c := funext fun a => Fin.ext (by
    match a with
    | ⟨0, _⟩ => exact (rhs_scores_0 _ _).trans hk
    | ⟨1, _⟩ => exact rhs_scores_1 _ _)
  rw [el, er]

theorem lhs_weighted_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_weighted_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_weighted_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_weighted_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights against values: entry (r, c) is the sum over the 2048 positions. -/
theorem weighted_apply (A : FVec Ideal S256x2048 .bf16) (B : FVec Ideal S2048x64 .bf16) (r : Fin 256) (c : Fin 64) :
    matmul dot_S256x2048_S2048x64_S256x64_1_0_0_1_n_n none A B (constant (F := Ideal) S256x64 .f32 0x00000000#32) (ix2 r c)
      = ∑ k : Fin 2048, A (ix2 r k) * B (ix2 k c) := by
  refine (Ideal.matmul_constant_zero_apply dot_S256x2048_S2048x64_S256x64_1_0_0_1_n_n none A B (ix2 r c)).trans ?_
  rw [← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r c) ((ValueIdx.contrEquiv1 dot_S256x2048_S2048x64_S256x64_1_0_0_1_n_n 2048 rfl rfl).symm k) = ix2 r k := funext fun a => Fin.ext (by
    match a with
    | ⟨0, _⟩ => exact lhs_weighted_0 _ _
    | ⟨1, _⟩ => exact (lhs_weighted_1 _ _).trans hk)
  have er : dot_S256x2048_S2048x64_S256x64_1_0_0_1_n_n.rhsIdx (ix2 r c) ((ValueIdx.contrEquiv1 dot_S256x2048_S2048x64_S256x64_1_0_0_1_n_n 2048 rfl rfl).symm k) = ix2 k c := funext fun a => Fin.ext (by
    match a with
    | ⟨0, _⟩ => exact (rhs_weighted_0 _ _).trans hk
    | ⟨1, _⟩ => exact rhs_weighted_1 _ _)
  rw [el, er]

end Products

/-! ## One head read at an entry -/

section HeadRead

/-- The turned query lanes at (r, d): the spec's half-turn form of the row's 64 lanes from column `off`. -/
theorem qRot_apply (off : Nat) (hs : S256x384.Slices ![0, off] S256x64) (hoff : off + 64 ≤ 384)
    (v4 v7 : FVec Ideal S256x64 .f32) (v13 : FVec Ideal S256x384 .f32) (r : Fin 256) (d : Fin 64) :
    qRot off hs v4 v7 v13 (ix2 r d)
      = Cert.Spec.ropeK (fun d'' => v13 (ix2 r (⟨off + d''.val, by omega⟩ : Fin 384))) (fun j => v4 (ix2 r j)) (fun j => v7 (ix2 r j)) d := by
  have e1 := slice2_axis1_apply off v13 hs r d (⟨off + d.val, by omega⟩ : Fin 384) rfl
  have e2 := slice2_axis1_apply off v13 hs r (⟨(d.val + 32) % 64, Nat.mod_lt _ (by decide)⟩ : Fin 64)
    (⟨off + (d.val + 32) % 64, by omega⟩ : Fin 384) rfl
  have e3 := halfTurn_apply (extractStridedSlice S256x64 ![0, off] v13 hs) r d
  show extractStridedSlice S256x64 ![0, off] v13 hs (ix2 r d) * v4 (ix2 r d)
      + dynamicRotate 1 32#32 none (extractStridedSlice S256x64 ![0, off] v13 hs) rotates_S256x64_d1 (ix2 r d) * v7 (ix2 r d) = _
  rw [e3, e1, e2]
  rfl

/-- The scaled scores at (r, k). -/
theorem scaled_apply (q : FVec Ideal S256x64 .bf16) (kT : FVec Ideal S64x2048 .bf16) (r : Fin 256) (k : Fin 2048) :
    scaled q kT (ix2 r k) = (∑ d : Fin 64, q (ix2 r d) * kT (ix2 d k)) * Cert.Spec.eighth := by
  show matmul dot_S256x64_S64x2048_S256x2048_1_0_0_1_n_n none q kT (constant (F := Ideal) S256x2048 .f32 0x00000000#32) (ix2 r k) * Cert.Spec.eighth = _
  rw [scores_apply]

/-- The shifted exponentials at (r, k): the spec's, of the row. -/
theorem shiftExp_apply (s : FVec Ideal S256x2048 .f32) (r : Fin 256) (k : Fin 2048) :
    shiftExp s (ix2 r k) = Cert.Spec.rowExp (fun k' => s (ix2 r k')) k := by
  show Ideal.exp (s (ix2 r k) - broadcastTo S256x2048 (shapeCast S256x1
      (multiReduction (F := Ideal) .maximumf [1] S256 s 0xFF800000#32 reduces_S256x2048_S256 (.inl rfl) rfl) shapeCasts_S256_S256x1)
      broadcasts_S256x1_S256x2048 (ix2 r k)) = _
  rw [column_apply, rowMaximum_apply]
  rfl

/-- The stored band at (0, r, d), from the exponentials p and the values: each exponential over its row's sum, against
    lane d of the values, summed over the positions. -/
theorem pay8_apply (v23 : FVec Ideal S2048x64 .bf16) (p : FVec Ideal S256x2048 .f32) (r : Fin 256) (d : Fin 64) :
    k1_pay8 v23 p (ix3 (0 : Fin 1) r d)
      = ∑ k : Fin 2048, Ideal.div (p (ix2 r k)) (∑ k' : Fin 2048, p (ix2 r k')) * v23 (ix2 k d) := by
  unfold k1_pay8
  refine (shapeCast_ab_1ab_apply _ shapeCasts_S256x64_S1x256x64 (0 : Fin 1) r d).trans ?_
  refine (weighted_apply _ v23 r d).trans ?_
  refine Finset.sum_congr rfl fun k _ => ?_
  show Ideal.div (p (ix2 r k)) (broadcastTo S256x2048 (shapeCast S256x1
      (multiReduction (F := Ideal) .add [1] S256 p 0x00000000#32 reduces_S256x2048_S256 (.inl rfl) rfl) shapeCasts_S256_S256x1)
      broadcasts_S256x1_S256x2048 (ix2 r k)) * v23 (ix2 k d) = _
  rw [column_apply, rowSum_apply]

/-- One head's band at (0, r, d) is the spec's head of the tile. -/
theorem headPay_apply (off : Nat) (hs : S256x384.Slices ![0, off] S256x64) (hoff : off + 64 ≤ 384)
    (v4 v7 : FVec Ideal S256x64 .f32) (v13 : FVec Ideal S256x384 .f32) (v22 v23 : FVec Ideal S2048x64 .bf16)
    (r : Fin 256) (d : Fin 64) :
    headPay off hs v4 v7 v13 v22 v23 (ix3 (0 : Fin 1) r d)
      = Cert.Spec.tileHead
          (fun r' d' => Cert.Spec.ropeK (fun d'' => v13 (ix2 r' (⟨off + d''.val, by omega⟩ : Fin 384)))
            (fun j => v4 (ix2 r' j)) (fun j => v7 (ix2 r' j)) d')
          (fun k d' => v22 (ix2 k d')) (fun k d' => v23 (ix2 k d')) r d := by
  have hp : ∀ k : Fin 2048, shiftExp (scaled (qRot off hs v4 v7 v13) (k1_pay11 v22)) (ix2 r k)
      = Cert.Spec.rowExp (fun k' => (∑ d' : Fin 64,
          Cert.Spec.ropeK (fun d'' => v13 (ix2 r (⟨off + d''.val, by omega⟩ : Fin 384))) (fun j => v4 (ix2 r j)) (fun j => v7 (ix2 r j)) d'
            * v22 (ix2 k' d')) * Cert.Spec.eighth) k := by
    intro k
    rw [shiftExp_apply]
    refine congrArg (fun s => Cert.Spec.rowExp s k) (funext fun k' => ?_)
    rw [scaled_apply]
    refine congrArg (· * Cert.Spec.eighth) (Finset.sum_congr rfl fun d' _ => ?_)
    rw [qRot_apply off hs hoff]
    exact congrArg (_ * ·) (transpose_ix2_apply v22 transposes_S2048x64_p1_0_S64x2048 d' k')
  unfold headPay
  rw [pay8_apply]
  simp only [hp]
  rfl

end HeadRead

/-! ## What the body loads, read at an entry -/

section Loads

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

variable (i : grid1.Coords) (x0 : Vec Ideal S1x256x384 .f32) (x1 : Vec Ideal S1x2048x384 .f32) (x2 x3 : Vec Ideal S2048x64 .f32)

/-- Row r of the query tile's 256 table rows is table row tq r. -/
theorem tileRows_apply (x : Vec Ideal S2048x64 .f32) (tq : Fin 256 → Fin 2048) (htq : ∀ r : Fin 256, (tq r).val = k1_off1 i 0 + r.val)
    (r : Fin 256) (j : Fin 64) : View.ld x (rTq1 i) (ix2 r j) = x (ix2 (tq r) j) := by
  refine congrArg x (funext fun a => Fin.ext ?_)
  match a with
  | ⟨0, _⟩ =>
    show k1_off1 i 0 + 1 * r.val = (tq r).val
    rw [htq r, Nat.one_mul]
  | ⟨1, _⟩ =>
    show 0 + 1 * j.val = j.val
    rw [Nat.one_mul, Nat.zero_add]

theorem cq1_apply (tq : Fin 256 → Fin 2048) (htq : ∀ r : Fin 256, (tq r).val = k1_off1 i 0 + r.val) (r : Fin 256) (j : Fin 64) :
    cq1 i x2 (ix2 r j) = x2 (ix2 (tq r) j) := by
  exact (congrFun (shapeCast_self (s := S256x64) (View.ld x2 (rTq1 i)) shapeCasts_S256x64_S256x64) (ix2 r j)).trans
    (tileRows_apply i x2 tq htq r j)

theorem sq1_apply (tq : Fin 256 → Fin 2048) (htq : ∀ r : Fin 256, (tq r).val = k1_off1 i 0 + r.val) (r : Fin 256) (j : Fin 64) :
    sq1 i x3 (ix2 r j) = x3 (ix2 (tq r) j) := by
  exact (congrFun (shapeCast_self (s := S256x64) (View.ld x3 (rTq1 i)) shapeCasts_S256x64_S256x64) (ix2 r j)).trans
    (tileRows_apply i x3 tq htq r j)

/-- The query rows: the block without its unit axis. -/
theorem qrows1_apply (r : Fin 256) (c : Fin 384) : qrows1 x0 (ix2 r c) = x0 (ix3 (0 : Fin 1) r c) := by
  show shapeCast S256x384 (View.ld x0 rQ1) shapeCasts_S1x256x384_S256x384 (ix2 r c) = _
  rw [View.ld_unit_zero (S := S1x256x384) zeros3]
  exact shapeCast_1ab_ab_apply x0 shapeCasts_S1x256x384_S256x384 r c

/-- The key and value rows: the block without its unit axis. -/
theorem kvrows_apply (k : Fin 2048) (c : Fin 384) : k1_pay4 (View.ld x1 rK1) (ix2 k c) = x1 (ix3 (0 : Fin 1) k c) := by
  show shapeCast S2048x384 (View.ld x1 rK1) shapeCasts_S1x2048x384_S2048x384 (ix2 k c) = _
  rw [View.ld_unit_zero (S := S1x2048x384) zeros3]
  exact shapeCast_1ab_ab_apply x1 shapeCasts_S1x2048x384_S2048x384 k c

/-- The values: lanes 320 to 383 of the key and value rows. -/
theorem vals1_apply (k : Fin 2048) (d : Fin 64) : vals1 x1 (ix2 k d) = x1 (ix3 (0 : Fin 1) k (⟨320 + d.val, by omega⟩ : Fin 384)) := by
  show extractStridedSlice S2048x64 ![0, 320] (k1_pay4 (View.ld x1 rK1)) slices_S2048x384_o0_320_S2048x64 (ix2 k d) = _
  rw [slice2_axis1_apply 320 (k1_pay4 (View.ld x1 rK1)) slices_S2048x384_o0_320_S2048x64 k d (⟨320 + d.val, by omega⟩ : Fin 384) rfl]
  exact kvrows_apply x1 k _

/-- The turned keys: lanes 256 to 319 of the key and value rows, each row turned by its position's angles. -/
theorem krot1_apply (k : Fin 2048) (d : Fin 64) :
    krot1 x1 x2 x3 (ix2 k d)
      = Cert.Spec.ropeK (fun d'' => x1 (ix3 (0 : Fin 1) k (⟨256 + d''.val, by omega⟩ : Fin 384)))
          (fun j => x2 (ix2 k j)) (fun j => x3 (ix2 k j)) d := by
  have e1 := slice2_axis1_apply 256 (k1_pay4 (View.ld x1 rK1)) slices_S2048x384_o0_256_S2048x64 k d (⟨256 + d.val, by omega⟩ : Fin 384) rfl
  have e2 := slice2_axis1_apply 256 (k1_pay4 (View.ld x1 rK1)) slices_S2048x384_o0_256_S2048x64 k
    (⟨(d.val + 32) % 64, Nat.mod_lt _ (by decide)⟩ : Fin 64) (⟨256 + (d.val + 32) % 64, by omega⟩ : Fin 384) rfl
  have e3 := halfTurnK_apply (extractStridedSlice S2048x64 ![0, 256] (k1_pay4 (View.ld x1 rK1)) slices_S2048x384_o0_256_S2048x64) k d
  have e4 : shapeCast S2048x64 (View.ld x2 rT1) shapeCasts_S2048x64_S2048x64 = x2 :=
    (shapeCast_self (s := S2048x64) (View.ld x2 rT1) shapeCasts_S2048x64_S2048x64).trans (View.ld_unit_zero (S := S2048x64) zeros2 _ x2)
  have e5 : shapeCast S2048x64 (View.ld x3 rT1) shapeCasts_S2048x64_S2048x64 = x3 :=
    (shapeCast_self (s := S2048x64) (View.ld x3 rT1) shapeCasts_S2048x64_S2048x64).trans (View.ld_unit_zero (S := S2048x64) zeros2 _ x3)
  show extractStridedSlice S2048x64 ![0, 256] (k1_pay4 (View.ld x1 rK1)) slices_S2048x384_o0_256_S2048x64 (ix2 k d)
        * shapeCast S2048x64 (View.ld x2 rT1) shapeCasts_S2048x64_S2048x64 (ix2 k d)
      + dynamicRotate 1 32#32 none (extractStridedSlice S2048x64 ![0, 256] (k1_pay4 (View.ld x1 rK1)) slices_S2048x384_o0_256_S2048x64)
          rotates_S2048x64_d1 (ix2 k d)
        * shapeCast S2048x64 (View.ld x3 rT1) shapeCasts_S2048x64_S2048x64 (ix2 k d) = _
  rw [e3, e1, e2, e4, e5, kvrows_apply, kvrows_apply]
  rfl

end Loads

/-! ## The four bands of the output block -/

section Bands

/-- Band c's entry (0, r, d) sits at column c + d of the block. -/
theorem band_emb (c : Nat) (inb : ∀ a, (![0, 0, c] : Fin 3 → Nat) a + S1x256x64.size a ≤ S1x256x256.size a) (hc : c + 64 ≤ 256)
    (r : Fin 256) (d : Fin 64) :
    (Rect.unit (s := S1x256x256) ![0, 0, c] S1x256x64.size inb).emb (ix3 (0 : Fin 1) r d)
      = ix3 (0 : Fin 1) r (⟨c + d.val, by omega⟩ : Fin 256) := by
  funext a
  apply Fin.ext
  match a with
  | ⟨0, _⟩ => rfl
  | ⟨1, _⟩ =>
    show 0 + 1 * r.val = r.val
    rw [Nat.one_mul, Nat.zero_add]
  | ⟨2, _⟩ =>
    show c + 1 * d.val = c + d.val
    rw [Nat.one_mul]

/-- A column of another band is outside band c. -/
theorem band_not_mem (c c' : Nat) (inb : ∀ a, (![0, 0, c] : Fin 3 → Nat) a + S1x256x64.size a ≤ S1x256x256.size a)
    (hcc : c' + 64 ≤ c ∨ c + 64 ≤ c') (hc' : c' + 64 ≤ 256) (r : Fin 256) (d : Fin 64) :
    ix3 (0 : Fin 1) r (⟨c' + d.val, by omega⟩ : Fin 256) ∉ (Rect.unit (s := S1x256x256) ![0, 0, c] S1x256x64.size inb).set := by
  intro hm
  have h2 := (Rect.mem_set_unit.mp hm) (2 : Fin 3)
  change c ≤ c' + d.val ∧ c' + d.val < c + 64 at h2
  omega

/-- The last store's rectangle holds the entry: its payload there. -/
theorem canon_hit {S : Shape} {e : EltTy} (q : Rect S) (w : q.shape.Idx → Elt Ideal e) (L : List (View.Piece (Elt Ideal) S e))
    (x : q.shape.Idx) (y : S.Idx) (hy : q.emb x = y) : View.canon (⟨q, w⟩ :: L) y = w x := by
  subst hy; exact View.canon_cons_emb q w L x
/-- The last store's rectangle misses the entry: what the earlier stores left. -/
theorem canon_miss {S : Shape} {e : EltTy} (q : Rect S) (w : q.shape.Idx → Elt Ideal e) (L : List (View.Piece (Elt Ideal) S e))
    (y : S.Idx) (hy : y ∉ q.set) : View.canon (⟨q, w⟩ :: L) y = View.canon L y :=
  View.canon_cons_of_not_mem ⟨q, w⟩ L hy

variable (h0 h1 h2 h3 : Vec Ideal S1x256x64 .bf16) (r : Fin 256) (d : Fin 64)

/-- The block the four stores leave, read in each band: the band's payload. -/
theorem bands_0 :
    View.canon (Val := Elt Ideal) [⟨rO1_192, h3⟩, ⟨rO1_128, h2⟩, ⟨rO1_64, h1⟩, ⟨rO1_0, h0⟩] (ix3 (0 : Fin 1) r (⟨0 + d.val, by omega⟩ : Fin 256))
      = h0 (ix3 (0 : Fin 1) r d) := by
  refine (canon_miss rO1_192 h3 _ _ (band_not_mem 192 0 inb_S1x256x256_S1x256x64_0_0_192 (by omega) (by omega) r d)).trans ?_
  refine (canon_miss rO1_128 h2 _ _ (band_not_mem 128 0 inb_S1x256x256_S1x256x64_0_0_128 (by omega) (by omega) r d)).trans ?_
  refine (canon_miss rO1_64 h1 _ _ (band_not_mem 64 0 inb_S1x256x256_S1x256x64_0_0_64 (by omega) (by omega) r d)).trans ?_
  exact canon_hit rO1_0 h0 _ (ix3 (0 : Fin 1) r d) _ (band_emb 0 inb_S1x256x256_S1x256x64_0_0_0 (by omega) r d)
theorem bands_64 :
    View.canon (Val := Elt Ideal) [⟨rO1_192, h3⟩, ⟨rO1_128, h2⟩, ⟨rO1_64, h1⟩, ⟨rO1_0, h0⟩] (ix3 (0 : Fin 1) r (⟨64 + d.val, by omega⟩ : Fin 256))
      = h1 (ix3 (0 : Fin 1) r d) := by
  refine (canon_miss rO1_192 h3 _ _ (band_not_mem 192 64 inb_S1x256x256_S1x256x64_0_0_192 (by omega) (by omega) r d)).trans ?_
  refine (canon_miss rO1_128 h2 _ _ (band_not_mem 128 64 inb_S1x256x256_S1x256x64_0_0_128 (by omega) (by omega) r d)).trans ?_
  exact canon_hit rO1_64 h1 _ (ix3 (0 : Fin 1) r d) _ (band_emb 64 inb_S1x256x256_S1x256x64_0_0_64 (by omega) r d)
theorem bands_128 :
    View.canon (Val := Elt Ideal) [⟨rO1_192, h3⟩, ⟨rO1_128, h2⟩, ⟨rO1_64, h1⟩, ⟨rO1_0, h0⟩] (ix3 (0 : Fin 1) r (⟨128 + d.val, by omega⟩ : Fin 256))
      = h2 (ix3 (0 : Fin 1) r d) := by
  refine (canon_miss rO1_192 h3 _ _ (band_not_mem 192 128 inb_S1x256x256_S1x256x64_0_0_192 (by omega) (by omega) r d)).trans ?_
  exact canon_hit rO1_128 h2 _ (ix3 (0 : Fin 1) r d) _ (band_emb 128 inb_S1x256x256_S1x256x64_0_0_128 (by omega) r d)
theorem bands_192 :
    View.canon (Val := Elt Ideal) [⟨rO1_192, h3⟩, ⟨rO1_128, h2⟩, ⟨rO1_64, h1⟩, ⟨rO1_0, h0⟩] (ix3 (0 : Fin 1) r (⟨192 + d.val, by omega⟩ : Fin 256))
      = h3 (ix3 (0 : Fin 1) r d) := by
  exact canon_hit rO1_192 h3 _ (ix3 (0 : Fin 1) r d) _ (band_emb 192 inb_S1x256x256_S1x256x64_0_0_192 (by omega) r d)

end Bands

/-! ## The output block at an entry -/

section Assembly

variable (i : grid1.Coords) (x0 : Vec Ideal S1x256x384 .f32) (x1 : Vec Ideal S1x2048x384 .f32) (x2 x3 : Vec Ideal S2048x64 .f32)

/-- The head whose query lanes start at column 64·hh, over the blocks the body loads. -/
theorem headPay_loads_apply (off : Nat) (hs : S256x384.Slices ![0, off] S256x64) (hh : Fin 4) (hoff : off = 64 * hh.val)
    (tq : Fin 256 → Fin 2048) (htq : ∀ r : Fin 256, (tq r).val = k1_off1 i 0 + r.val) (r : Fin 256) (d : Fin 64) :
    headPay off hs (cq1 i x2) (sq1 i x3) (qrows1 x0) (krot1 x1 x2 x3) (vals1 x1) (ix3 (0 : Fin 1) r d)
      = Cert.Spec.tileHead
          (fun r' d' => Cert.Spec.ropeK (fun d'' => (x0 : S1x256x384.Idx → EReal) (ix3 (0 : Fin 1) r' (⟨64 * hh.val + d''.val, by omega⟩ : Fin 384)))
            (fun j => (x2 : S2048x64.Idx → EReal) (ix2 (tq r') j)) (fun j => (x3 : S2048x64.Idx → EReal) (ix2 (tq r') j)) d')
          (fun k d' => Cert.Spec.ropeK (fun d'' => (x1 : S1x2048x384.Idx → EReal) (ix3 (0 : Fin 1) k (⟨256 + d''.val, by omega⟩ : Fin 384)))
            (fun j => (x2 : S2048x64.Idx → EReal) (ix2 k j)) (fun j => (x3 : S2048x64.Idx → EReal) (ix2 k j)) d')
          (fun k d' => (x1 : S1x2048x384.Idx → EReal) (ix3 (0 : Fin 1) k (⟨320 + d'.val, by omega⟩ : Fin 384))) r d := by
  subst hoff
  rw [headPay_apply (64 * hh.val) hs (by omega)]
  simp only [qrows1_apply, cq1_apply i x2 tq htq, sq1_apply i x3 tq htq, krot1_apply, vals1_apply]

/-- Entry (r, 64·hh + d) of the output block, from the query block x0, the key and value block x1 and the two angle
    tables x2 (cosines) and x3 (signed sines), the query rows' angles read at table rows tq r (the tile's first position
    plus r). -/
theorem out1_4_apply (i : grid1.Coords) (x0 : Vec Ideal S1x256x384 .f32) (x1 : Vec Ideal S1x2048x384 .f32) (x2 x3 : Vec Ideal S2048x64 .f32)
    (tq : Fin 256 → Fin 2048) (htq : ∀ r : Fin 256, (tq r).val = k1_off1 i 0 + r.val)
    (r : Fin 256) (hh : Fin 4) (d : Fin 64) :
    (out1_4 (F := Ideal) i x0 x1 x2 x3 : S1x256x256.Idx → EReal) (ix3 (0 : Fin 1) r (⟨64 * hh.val + d.val, by omega⟩ : Fin 256))
      = Cert.Spec.tileHead
          (fun r' d' => Cert.Spec.ropeK (fun d'' => (x0 : S1x256x384.Idx → EReal) (ix3 (0 : Fin 1) r' (⟨64 * hh.val + d''.val, by omega⟩ : Fin 384)))
            (fun j => (x2 : S2048x64.Idx → EReal) (ix2 (tq r') j)) (fun j => (x3 : S2048x64.Idx → EReal) (ix2 (tq r') j)) d')
          (fun k d' => Cert.Spec.ropeK (fun d'' => (x1 : S1x2048x384.Idx → EReal) (ix3 (0 : Fin 1) k (⟨256 + d''.val, by omega⟩ : Fin 384)))
            (fun j => (x2 : S2048x64.Idx → EReal) (ix2 k j)) (fun j => (x3 : S2048x64.Idx → EReal) (ix2 k j)) d')
          (fun k d' => (x1 : S1x2048x384.Idx → EReal) (ix3 (0 : Fin 1) k (⟨320 + d'.val, by omega⟩ : Fin 384))) r d := by
  have hQ := headPay_loads_apply i x0 x1 x2 x3
  unfold out1_4
  match hh with
  | ⟨0, _⟩ =>
    refine (bands_0 (head0 i x0 x1 x2 x3) (head1 i x0 x1 x2 x3) (head2 i x0 x1 x2 x3) (head3 i x0 x1 x2 x3) r d).trans ?_
    rw [head0_eq]
    exact hQ 0 slices_S256x384_o0_0_S256x64 ⟨0, by omega⟩ rfl tq htq r d
  | ⟨1, _⟩ =>
    refine (bands_64 (head0 i x0 x1 x2 x3) (head1 i x0 x1 x2 x3) (head2 i x0 x1 x2 x3) (head3 i x0 x1 x2 x3) r d).trans ?_
    rw [head1_eq]
    exact hQ 64 slices_S256x384_o0_64_S256x64 ⟨1, by omega⟩ rfl tq htq r d
  | ⟨2, _⟩ =>
    refine (bands_128 (head0 i x0 x1 x2 x3) (head1 i x0 x1 x2 x3) (head2 i x0 x1 x2 x3) (head3 i x0 x1 x2 x3) r d).trans ?_
    rw [head2_eq]
    exact hQ 128 slices_S256x384_o0_128_S256x64 ⟨2, by omega⟩ rfl tq htq r d
  | ⟨3, _⟩ =>
    refine (bands_192 (head0 i x0 x1 x2 x3) (head1 i x0 x1 x2 x3) (head2 i x0 x1 x2 x3) (head3 i x0 x1 x2 x3) r d).trans ?_
    rw [head3_eq]
    exact hQ 192 slices_S256x384_o0_192_S256x64 ⟨3, by omega⟩ rfl tq htq r d

end Assembly

end Cert.KernelIdeal.Hand

end
-- ==== Proof.KI.Value1.lean ====
/- What the attention call leaves in its output array, on the extended reals: the attention stage of the specification
   with full-width tables — the grid's 128 points (batch, group, query tile) write the 128 blocks of 256 rows by 256
   columns, each block the four heads of one group for one tile of query positions. -/
import proofs.«412668_j88940182765732_3_alg».proof.Proof.KI.Region1
import proofs.«412668_j88940182765732_3_alg».proof.Proof.KI.Value1Pay
import proofs.«412668_j88940182765732_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the core's buffer contents when the region is entered
variable (V : (c : Dev nD) → (b : Ref sig .tc) → Buf (Elt Ideal) ((c : Thread nD τ).loc b))

/-- The block indices of the five windows and the bounds of the coordinates, at every grid point: at the point with
    coordinates (b, g, qi) the query window is at block (b, qi, g), the key and value window at (b, 0, g), the two
    tables whole, the output window at (b, qi, g). -/
theorem idx_facts1 : ∀ t : Fin cfg1.N,
    win1_0.index t (0 : Fin 3) = (grid1.coords t 0).val ∧ win1_0.index t (1 : Fin 3) = (grid1.coords t 2).val ∧ win1_0.index t (2 : Fin 3) = (grid1.coords t 1).val
    ∧ win1_1.index t (0 : Fin 3) = (grid1.coords t 0).val ∧ win1_1.index t (1 : Fin 3) = 0 ∧ win1_1.index t (2 : Fin 3) = (grid1.coords t 1).val
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = (grid1.coords t 0).val ∧ win1_4.index t (1 : Fin 3) = (grid1.coords t 2).val ∧ win1_4.index t (2 : Fin 3) = (grid1.coords t 1).val
    ∧ (grid1.coords t 0).val < 2 ∧ (grid1.coords t 1).val < 8 ∧ (grid1.coords t 2).val < 8 :=
  (by decide +kernel : ∀ t : Fin grid1.N, _)

/-- Every block (b, q, g) of the output array is some point's. -/
theorem idx_onto1 : ∀ (b : Fin 2) (q : Fin 8) (g : Fin 8), ∃ t : Fin cfg1.N, win1_4.index t = ![b.val, q.val, g.val] :=
  (by decide +kernel : ∀ (b : Fin 2) (q : Fin 8) (g : Fin 8), ∃ t : Fin grid1.N, win1_4.index t = ![b.val, q.val, g.val])

/-! ## The input blocks, read at an entry -/

/-- The query block at the point with coordinates (b, g, qi): entry (0, r, col) is entry (b, 256·qi + r, 384·g + col) of
    the array. -/
theorem iblk1_0_apply (c : Dev nD) (t : Fin cfg1.N) (y : S1x256x384.Idx) (k : S2x2048x3072.Idx)
    (h0 : (k 0).val = (grid1.coords t 0).val) (h1 : (k 1).val = 256 * (grid1.coords t 2).val + (y 1).val)
    (h2 : (k 2).val = 384 * (grid1.coords t 1).val + (y 2).val) :
    (iblk1 V c 0 t : S1x256x384.Idx → EReal) y = (V c main_v6 : S2x2048x3072.Idx → EReal) k := by
  obtain ⟨e0, e1, e2, -⟩ := idx_facts1 t
  have hy0 : (y 0).val < 1 := (y 0).isLt
  unfold iblk1
  rw [View.read_apply]
  show V c main_v6 _ = V c main_v6 _
  congr 1
  funext a
  apply Fin.ext
  match a with
  | ⟨0, _⟩ => show win1_0.index t (0 : Fin 3) * 1 + 1 * (y 0).val = (k 0).val; rw [e0, h0]; omega
  | ⟨1, _⟩ => show win1_0.index t (1 : Fin 3) * 256 + 1 * (y 1).val = (k 1).val; rw [e1, h1]; omega
  | ⟨2, _⟩ => show win1_0.index t (2 : Fin 3) * 384 + 1 * (y 2).val = (k 2).val; rw [e2, h2]; omega

/-- The key and value block at the point with coordinates (b, g, qi): entry (0, k, col) is entry (b, k, 384·g + col) of
    the array. -/
theorem iblk1_1_apply (c : Dev nD) (t : Fin cfg1.N) (y : S1x2048x384.Idx) (k : S2x2048x3072.Idx)
    (h0 : (k 0).val = (grid1.coords t 0).val) (h1 : (k 1).val = (y 1).val)
    (h2 : (k 2).val = 384 * (grid1.coords t 1).val + (y 2).val) :
    (iblk1 V c 1 t : S1x2048x384.Idx → EReal) y = (V c main_v6 : S2x2048x3072.Idx → EReal) k := by
  obtain ⟨-, -, -, e0, e1, e2, -⟩ := idx_facts1 t
  have hy0 : (y 0).val < 1 := (y 0).isLt
  unfold iblk1
  rw [View.read_apply]
  show V c main_v6 _ = V c main_v6 _
  congr 1
  funext a
  apply Fin.ext
  match a with
  | ⟨0, _⟩ => show win1_1.index t (0 : Fin 3) * 1 + 1 * (y 0).val = (k 0).val; rw [e0, h0]; omega
  | ⟨1, _⟩ => show win1_1.index t (1 : Fin 3) * 2048 + 1 * (y 1).val = (k 1).val; rw [e1, h1]; omega
  | ⟨2, _⟩ => show win1_1.index t (2 : Fin 3) * 384 + 1 * (y 2).val = (k 2).val; rw [e2, h2]; omega

/-- The cosine table's block is the whole table at every point. -/
theorem iblk1_2_eq (c : Dev nD) (t : Fin cfg1.N) :
    (iblk1 V c 2 t : S2048x64.Idx → EReal) = (V c main_v7 : S2048x64.Idx → EReal) := by
  obtain ⟨-, -, -, -, -, -, e0, e1, -⟩ := idx_facts1 t
  funext y
  unfold iblk1
  rw [View.read_apply]
  show V c main_v7 _ = V c main_v7 _
  congr 1
  funext a
  apply Fin.ext
  match a with
  | ⟨0, _⟩ => show win1_2.index t (0 : Fin 2) * 2048 + 1 * (y 0).val = (y 0).val; rw [e0]; omega
  | ⟨1, _⟩ => show win1_2.index t (1 : Fin 2) * 64 + 1 * (y 1).val = (y 1).val; rw [e1]; omega

/-- The signed sine table's block is the whole table at every point. -/
theorem iblk1_3_eq (c : Dev nD) (t : Fin cfg1.N) :
    (iblk1 V c 3 t : S2048x64.Idx → EReal) = (V c main_v9 : S2048x64.Idx → EReal) := by
  obtain ⟨-, -, -, -, -, -, -, -, e0, e1, -⟩ := idx_facts1 t
  funext y
  unfold iblk1
  rw [View.read_apply]
  show V c main_v9 _ = V c main_v9 _
  congr 1
  funext a
  apply Fin.ext
  match a with
  | ⟨0, _⟩ => show win1_3.index t (0 : Fin 2) * 2048 + 1 * (y 0).val = (y 0).val; rw [e0]; omega
  | ⟨1, _⟩ => show win1_3.index t (1 : Fin 2) * 64 + 1 * (y 1).val = (y 1).val; rw [e1]; omega

/-! ## Where a group's heads find their lanes -/

/-- Head 4·g + hh is in group g. -/
theorem att1_grp (g : Fin 8) (hh : Fin 4) : Cert.Spec.grp ⟨4 * g.val + hh.val, by omega⟩ = g :=
  Fin.ext (by show (4 * g.val + hh.val) / 4 = g.val; omega)

/-- Head 4·g + hh has its query lanes at columns 384·g + 64·hh + d. -/
theorem att1_qcol (g : Fin 8) (hh : Fin 4) (d : Fin 64) :
    Cert.Spec.qcol ⟨4 * g.val + hh.val, by omega⟩ d = ⟨384 * g.val + (64 * hh.val + d.val), by omega⟩ :=
  Fin.ext (by show (4 * g.val + hh.val) / 4 * 384 + (4 * g.val + hh.val) % 4 * 64 + d.val = 384 * g.val + (64 * hh.val + d.val); omega)

/-- Group g has its key lanes at columns 384·g + 256 + d. -/
theorem att1_kcol (g : Fin 8) (d : Fin 64) : Cert.Spec.kcol g d = ⟨384 * g.val + (256 + d.val), by omega⟩ :=
  Fin.ext (by show g.val * 384 + 256 + d.val = 384 * g.val + (256 + d.val); omega)

/-- Group g has its value lanes at columns 384·g + 320 + d. -/
theorem att1_vcol (g : Fin 8) (d : Fin 64) : Cert.Spec.vcol g d = ⟨384 * g.val + (320 + d.val), by omega⟩ :=
  Fin.ext (by show g.val * 384 + 320 + d.val = 384 * g.val + (320 + d.val); omega)

/-- One head's output for a tile, computed from the tile's query block and the group's key and value block, is the
    head's output of the whole arrays at the tile's rows: the blocks are the arrays at batch b, rows 256·qi + r (queries)
    or all rows (keys and values), columns 384·g + col. -/
theorem att1_tileHead_blocks (A : Cert.Spec.Arr3 2 2048 3072) (C S : Cert.Spec.Arr2 2048 64) (b : Fin 2) (g qi : Fin 8)
    (x0 : S1x256x384.Idx → EReal) (x1 : S1x2048x384.Idx → EReal)
    (hx0 : ∀ (r : Fin 256) (col : Fin 384), x0 (ix3 (0 : Fin 1) r col) = A (ix3 b (⟨256 * qi.val + r.val, by omega⟩ : Fin 2048) (⟨384 * g.val + col.val, by omega⟩ : Fin 3072)))
    (hx1 : ∀ (k : Fin 2048) (col : Fin 384), x1 (ix3 (0 : Fin 1) k col) = A (ix3 b k (⟨384 * g.val + col.val, by omega⟩ : Fin 3072)))
    (tq : Fin 256 → Fin 2048) (htq : ∀ r : Fin 256, (tq r).val = 256 * qi.val + r.val)
    (r : Fin 256) (hh : Fin 4) (d : Fin 64) :
    Cert.Spec.tileHead
        (fun r' d' => Cert.Spec.ropeK (fun d'' => x0 (ix3 (0 : Fin 1) r' (⟨64 * hh.val + d''.val, by omega⟩ : Fin 384)))
          (fun j => C (ix2 (tq r') j)) (fun j => S (ix2 (tq r') j)) d')
        (fun k d' => Cert.Spec.ropeK (fun d'' => x1 (ix3 (0 : Fin 1) k (⟨256 + d''.val, by omega⟩ : Fin 384)))
          (fun j => C (ix2 k j)) (fun j => S (ix2 k j)) d')
        (fun k d' => x1 (ix3 (0 : Fin 1) k (⟨320 + d'.val, by omega⟩ : Fin 384))) r d
      = Cert.Spec.headOf (Cert.Spec.qrK A C S) (Cert.Spec.krK A C S) (Cert.Spec.vl A) b (⟨256 * qi.val + r.val, by omega⟩ : Fin 2048)
          (⟨4 * g.val + hh.val, by omega⟩ : Fin 32) d := by
  have hQ : (fun (r' : Fin 256) (d' : Fin 64) => Cert.Spec.ropeK (fun d'' => x0 (ix3 (0 : Fin 1) r' (⟨64 * hh.val + d''.val, by omega⟩ : Fin 384)))
          (fun j => C (ix2 (tq r') j)) (fun j => S (ix2 (tq r') j)) d')
      = fun r' d' => Cert.Spec.qrK A C S b (⟨256 * qi.val + r'.val, by omega⟩ : Fin 2048) (⟨4 * g.val + hh.val, by omega⟩ : Fin 32) d' := by
    funext r' d'
    have e : tq r' = (⟨256 * qi.val + r'.val, by omega⟩ : Fin 2048) := Fin.ext (htq r')
    unfold Cert.Spec.qrK
    rw [e]
    congr 1
    funext d''
    rw [hx0, att1_qcol]
  have hK : (fun (k : Fin 2048) (d' : Fin 64) => Cert.Spec.ropeK (fun d'' => x1 (ix3 (0 : Fin 1) k (⟨256 + d''.val, by omega⟩ : Fin 384)))
          (fun j => C (ix2 k j)) (fun j => S (ix2 k j)) d')
      = fun k d' => Cert.Spec.krK A C S b k g d' := by
    funext k d'
    unfold Cert.Spec.krK
    congr 1
    funext d''
    rw [hx1, att1_kcol]
  have hV : (fun (k : Fin 2048) (d' : Fin 64) => x1 (ix3 (0 : Fin 1) k (⟨320 + d'.val, by omega⟩ : Fin 384)))
      = fun k d' => Cert.Spec.vl A b k g d' := by
    funext k d'
    unfold Cert.Spec.vl
    rw [hx1, att1_vcol]
  rw [hQ, hK, hV]
  unfold Cert.Spec.tileHead Cert.Spec.headOf Cert.Spec.scoreOf
  rw [att1_grp]

/-! ## The output block, read at an entry -/

/-- Every entry (0, r, col) of the output block is the output of head col / 64 of the group at lane col % 64. -/
theorem out1_4_entry (i : grid1.Coords) (x0 : Vec Ideal S1x256x384 .f32) (x1 : Vec Ideal S1x2048x384 .f32) (x2 x3 : Vec Ideal S2048x64 .f32)
    (tq : Fin 256 → Fin 2048) (htq : ∀ r : Fin 256, (tq r).val = k1_off1 i 0 + r.val)
    (j : S1x256x256.Idx) (r : Fin 256) (hh : Fin 4) (d : Fin 64) (hr : (j 1).val = r.val) (hc : (j 2).val = 64 * hh.val + d.val) :
    (out1_4 (F := Ideal) i x0 x1 x2 x3 : S1x256x256.Idx → EReal) j
      = Cert.Spec.tileHead
          (fun r' d' => Cert.Spec.ropeK (fun d'' => (x0 : S1x256x384.Idx → EReal) (ix3 (0 : Fin 1) r' (⟨64 * hh.val + d''.val, by omega⟩ : Fin 384)))
            (fun j => (x2 : S2048x64.Idx → EReal) (ix2 (tq r') j)) (fun j => (x3 : S2048x64.Idx → EReal) (ix2 (tq r') j)) d')
          (fun k d' => Cert.Spec.ropeK (fun d'' => (x1 : S1x2048x384.Idx → EReal) (ix3 (0 : Fin 1) k (⟨256 + d''.val, by omega⟩ : Fin 384)))
            (fun j => (x2 : S2048x64.Idx → EReal) (ix2 k j)) (fun j => (x3 : S2048x64.Idx → EReal) (ix2 k j)) d')
          (fun k d' => (x1 : S1x2048x384.Idx → EReal) (ix3 (0 : Fin 1) k (⟨320 + d'.val, by omega⟩ : Fin 384))) r d := by
  have hj0 : (j 0).val < 1 := (j 0).isLt
  have e : j = ix3 (0 : Fin 1) r (⟨64 * hh.val + d.val, by omega⟩ : Fin 256) := by
    funext a
    apply Fin.ext
    match a with
    | ⟨0, _⟩ => show (j 0).val = 0; omega
    | ⟨1, _⟩ => exact hr
    | ⟨2, _⟩ => exact hc
  exact (congrArg (out1_4 (F := Ideal) i x0 x1 x2 x3 : S1x256x256.Idx → EReal) e).trans (out1_4_apply i x0 x1 x2 x3 tq htq r hh d)

/-- What a point leaves in the output block, entry by entry, is the attention stage of the arrays its input blocks are
    cut from: with the point's coordinates (b, g, qi), entry (0, r, col) of the block is entry (b, 256·qi + r, 256·g + col)
    of the attention stage. -/
theorem out1_4_att (A : S2x2048x3072.Idx → EReal) (i : grid1.Coords) (b : Fin 2) (g qi : Fin 8)
    (hb : (i 0).val = b.val) (hg : (i 1).val = g.val) (hq : (i 2).val = qi.val)
    (x0 : Vec Ideal S1x256x384 .f32) (x1 : Vec Ideal S1x2048x384 .f32) (x2 x3 : Vec Ideal S2048x64 .f32)
    (hx0 : ∀ (r : Fin 256) (col : Fin 384), (x0 : S1x256x384.Idx → EReal) (ix3 (0 : Fin 1) r col)
      = A (ix3 b (⟨256 * qi.val + r.val, by omega⟩ : Fin 2048) (⟨384 * g.val + col.val, by omega⟩ : Fin 3072)))
    (hx1 : ∀ (k : Fin 2048) (col : Fin 384), (x1 : S1x2048x384.Idx → EReal) (ix3 (0 : Fin 1) k col)
      = A (ix3 b k (⟨384 * g.val + col.val, by omega⟩ : Fin 3072)))
    (j : S1x256x256.Idx) (k : S2x2048x2048.Idx)
    (hk0 : (k 0).val = b.val) (hk1 : (k 1).val = 256 * qi.val + (j 1).val) (hk2 : (k 2).val = 256 * g.val + (j 2).val) :
    (out1_4 (F := Ideal) i x0 x1 x2 x3 : S1x256x256.Idx → EReal) j
      = Cert.Spec.attK A (x2 : S2048x64.Idx → EReal) (x3 : S2048x64.Idx → EReal) k := by
  have hj1 : (j 1).val < 256 := (j 1).isLt
  have hj2 : (j 2).val < 256 := (j 2).isLt
  have hk2' : (k 2).val < 2048 := (k 2).isLt
  have hoff : k1_off1 i 0 = 256 * qi.val := by rw [k1_off1_eq i]; show 256 * (i 2).val = _; rw [hq]
  let tq : Fin 256 → Fin 2048 := fun r => ⟨256 * qi.val + r.val, by omega⟩
  have htq : ∀ r : Fin 256, (tq r).val = k1_off1 i 0 + r.val := fun r => by rw [hoff]
  have htq' : ∀ r : Fin 256, (tq r).val = 256 * qi.val + r.val := fun r => rfl
  refine (out1_4_entry i x0 x1 x2 x3 tq htq j ⟨(j 1).val, hj1⟩ ⟨(j 2).val / 64, by omega⟩ ⟨(j 2).val % 64, by omega⟩ rfl
    (by show (j 2).val = 64 * ((j 2).val / 64) + (j 2).val % 64; omega)).trans ?_
  refine (att1_tileHead_blocks A (x2 : S2048x64.Idx → EReal) (x3 : S2048x64.Idx → EReal) b g qi x0 x1 hx0 hx1 tq htq'
    ⟨(j 1).val, hj1⟩ ⟨(j 2).val / 64, by omega⟩ ⟨(j 2).val % 64, by omega⟩).trans ?_
  have e0 : k 0 = b := Fin.ext hk0
  have e1 : k 1 = (⟨256 * qi.val + (j 1).val, by omega⟩ : Fin 2048) := Fin.ext hk1
  have e2 : (⟨(k 2).val / 64, by omega⟩ : Fin 32) = ⟨4 * g.val + (j 2).val / 64, by omega⟩ :=
    Fin.ext (by show (k 2).val / 64 = 4 * g.val + (j 2).val / 64; omega)
  have e3 : (⟨(k 2).val % 64, by omega⟩ : Fin 64) = ⟨(j 2).val % 64, by omega⟩ :=
    Fin.ext (by show (k 2).val % 64 = (j 2).val % 64; omega)
  show _ = Cert.Spec.headOf _ _ _ (k 0) (k 1) (⟨(k 2).val / 64, _⟩ : Fin 32) (⟨(k 2).val % 64, _⟩ : Fin 64)
  rw [e0, e1, e2, e3]

/-! ## From the blocks to the array -/

/-- The attention stage of the arrays the region finds. -/
abbrev att1 (c : Dev nD) : S2x2048x2048.Idx → EReal :=
  Cert.Spec.attK (V c main_v6 : S2x2048x3072.Idx → EReal) (V c main_v7 : S2048x64.Idx → EReal) (V c main_v9 : S2048x64.Idx → EReal)

/-- What a point writes back is its block of the attention stage. -/
theorem flushed1_eq (c : Dev nD) (t : Fin cfg1.N) :
    (dat1 V c).flushed 4 t = ((cfg1.win 4).blk t).view.read (Elt Ideal) (att1 V c) := by
  show (cfg1.win 4).cut (grid1.coords t) ((dat1 V c).after 4 t) = _
  rw [after1_4]
  obtain ⟨-, -, -, -, -, -, -, -, -, -, e0, e1, e2, hb, hg, hq⟩ := idx_facts1 t
  refine funext fun (j : S1x256x256.Idx) => ?_
  rw [View.read_apply]
  show (out1_4 (F := Ideal) (grid1.coords t) (iblk1 V c 0 t) (iblk1 V c 1 t) (iblk1 V c 2 t) (iblk1 V c 3 t) : S1x256x256.Idx → EReal) j
    = att1 V c (((cfg1.win 4).blk t).view.emb j)
  have hj0 : (j 0).val < 1 := (j 0).isLt
  have hx0 : ∀ (r : Fin 256) (col : Fin 384), (iblk1 V c 0 t : S1x256x384.Idx → EReal) (ix3 (0 : Fin 1) r col)
      = (V c main_v6 : S2x2048x3072.Idx → EReal) (ix3 (⟨(grid1.coords t 0).val, hb⟩ : Fin 2)
          (⟨256 * (⟨(grid1.coords t 2).val, hq⟩ : Fin 8).val + r.val, by omega⟩ : Fin 2048)
          (⟨384 * (⟨(grid1.coords t 1).val, hg⟩ : Fin 8).val + col.val, by omega⟩ : Fin 3072)) :=
    fun r col => iblk1_0_apply V c t _ _ rfl rfl rfl
  have hx1 : ∀ (k : Fin 2048) (col : Fin 384), (iblk1 V c 1 t : S1x2048x384.Idx → EReal) (ix3 (0 : Fin 1) k col)
      = (V c main_v6 : S2x2048x3072.Idx → EReal) (ix3 (⟨(grid1.coords t 0).val, hb⟩ : Fin 2) k
          (⟨384 * (⟨(grid1.coords t 1).val, hg⟩ : Fin 8).val + col.val, by omega⟩ : Fin 3072)) :=
    fun k col => iblk1_1_apply V c t _ _ rfl rfl rfl
  refine (out1_4_att (V c main_v6 : S2x2048x3072.Idx → EReal) (grid1.coords t) ⟨(grid1.coords t 0).val, hb⟩ ⟨(grid1.coords t 1).val, hg⟩
    ⟨(grid1.coords t 2).val, hq⟩ rfl rfl rfl (iblk1 V c 0 t) (iblk1 V c 1 t) (iblk1 V c 2 t) (iblk1 V c 3 t) hx0 hx1 j
    (((cfg1.win 4).blk t).view.emb j) ?_ ?_ ?_).trans ?_
  · show win1_4.index t (0 : Fin 3) * 1 + 1 * (j 0).val = (grid1.coords t 0).val
    rw [e0]; omega
  · show win1_4.index t (1 : Fin 3) * 256 + 1 * (j 1).val = 256 * (grid1.coords t 2).val + (j 1).val
    rw [e1]; omega
  · show win1_4.index t (2 : Fin 3) * 256 + 1 * (j 2).val = 256 * (grid1.coords t 1).val + (j 2).val
    rw [e2]; omega
  · have hT : Cert.Spec.attK (V c main_v6 : S2x2048x3072.Idx → EReal) (iblk1 V c 2 t : S2048x64.Idx → EReal) (iblk1 V c 3 t : S2048x64.Idx → EReal)
        = att1 V c := by
      rw [iblk1_2_eq V c t, iblk1_3_eq V c t]
    exact congrFun hT _

/-- An index of the array is in a point's block iff each coordinate is in the block's range on its axis. -/
theorem mem_blk1 (t : Fin cfg1.N) (i : S2x2048x2048.Idx) :
    i ∈ ((cfg1.win 4).blk t).view.set ↔ ∀ a : Fin 3, win1_4.index t a * S1x256x256.size a ≤ (i a).val ∧ (i a).val < win1_4.index t a * S1x256x256.size a + S1x256x256.size a := by
  show i ∈ ((View.whole main_v10).slice (win1_4.rect t)).set ↔ _
  rw [View.set_slice_whole, Rect.mem_set_unit]
  exact Iff.rfl

/-- Every entry (b, row, col) of the output array is in the block of the point with coordinates (b, col / 256, row / 256). -/
theorem covered1 (i : S2x2048x2048.Idx) : ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 2048 := (i 2).isLt
  obtain ⟨t, ht⟩ := idx_onto1 ⟨(i 0).val, hi0⟩ ⟨(i 1).val / 256, by omega⟩ ⟨(i 2).val / 256, by omega⟩
  have q0 : win1_4.index t (0 : Fin 3) = (i 0).val := congrFun ht 0
  have q1 : win1_4.index t (1 : Fin 3) = (i 1).val / 256 := congrFun ht 1
  have q2 : win1_4.index t (2 : Fin 3) = (i 2).val / 256 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 256 ≤ (i 2).val ∧ (i 2).val < win1_4.index t (2 : Fin 3) * 256 + 256; omega

/-- The attention call's output array after the run is the attention stage of its input array and its two tables. -/
theorem final1 (c : Dev nD) :
    ((dat1 V c).arrAt 4 cfg1.N : S2x2048x2048.Idx → EReal)
      = Cert.Spec.attK (V c main_v6 : S2x2048x3072.Idx → EReal) (V c main_v7 : S2048x64.Idx → EReal) (V c main_v9 : S2048x64.Idx → EReal) :=
  (dat1 V c).arrAt_eq_of_cover 4 (att1 V c) (fun t _ => flushed1_eq V c t) covered1

end Cert.KernelIdeal.Hand

end
-- ==== Proof.KI.Value2.lean ====
/- What the last product leaves in its output array, on the extended reals: entry (r, c) is the sum over k of the left
   matrix at (r, k) times the right matrix at (k, c) — the grid's 32 points write the 32 blocks of that one product. -/
import proofs.«412668_j88940182765732_3_alg».proof.Proof.KI.Region2
import proofs.«412668_j88940182765732_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index -/

/-- The offsets of an access to a whole buffer are all zero. -/
theorem mm2_zeros : (![0, 0] : Fin 2 → Nat) = fun _ => 0 := funext fun a => by fin_cases a <;> rfl

/-- In the 512 × 2048 by 2048 × 512 product the left factor is read at the output's row … -/
theorem mm2_lhs_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- … and at the summation index as its column; -/
theorem mm2_lhs_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- the right factor is read at the summation index as its row … -/
theorem mm2_rhs_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- … and at the output's column. -/
theorem mm2_rhs_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Entry (p, q) of the product of a block of 512 rows by a block of 512 columns: the sum over the 2048 inner indices of
    the products, starting from zero. -/
theorem mm2_pay_apply (x0 : Vec Ideal S512x2048 .bf16) (x1 : Vec Ideal S2048x512 .bf16) (p : Fin 512) (q : Fin 512) :
    (k2_pay1 x0 x1 : S512x512.Idx → EReal) (ix2 p q) = ∑ k : Fin 2048, (x0 (ix2 p k) : EReal) * (x1 (ix2 k q) : EReal) := by
  unfold k2_pay1
  simp only [shapeCast_self, matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact mm2_lhs_0 _ _
    | ⟨1, _⟩ => exact (mm2_lhs_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (mm2_rhs_0 _ _).trans hk
    | ⟨1, _⟩ => exact mm2_rhs_1 _ _)
  rw [el, er]

/-- The block product at an index of the block is the whole product at the index's place in the array: with the block
    at row offset R and column offset C, the left block holding the left array's rows from R on and the right block
    the right array's columns from C on. -/
theorem mm2_block (A : S4096x2048.Idx → EReal) (B : S2048x2048.Idx → EReal)
    (x0 : Vec Ideal S512x2048 .bf16) (x1 : Vec Ideal S2048x512 .bf16) (j : S512x512.Idx) (i : S4096x2048.Idx) (R C : Nat)
    (hi0 : (i 0).val = R + (j 0).val) (hi1 : (i 1).val = C + (j 1).val)
    (h0 : ∀ (y : S512x2048.Idx) (z : S4096x2048.Idx), (z 0).val = R + (y 0).val → (z 1).val = (y 1).val → x0 y = A z)
    (h1 : ∀ (y : S2048x512.Idx) (z : S2048x2048.Idx), (z 0).val = (y 0).val → (z 1).val = C + (y 1).val → x1 y = B z) :
    (k2_pay1 x0 x1 : S512x512.Idx → EReal) j = Cert.Spec.mm A B i := by
  obtain ⟨p, q, rfl⟩ : ∃ (p : Fin 512) (q : Fin 512), j = ix2 p q := ⟨j 0, j 1, eq_ix2 j⟩
  obtain ⟨r, s, rfl⟩ : ∃ (r : Fin 4096) (s : Fin 2048), i = ix2 r s := ⟨i 0, i 1, eq_ix2 i⟩
  rw [mm2_pay_apply]
  show _ = ∑ k : Fin 2048, A (ix2 r k) * B (ix2 k s)
  exact Finset.sum_congr rfl fun k _ => by rw [h0 (ix2 p k) (ix2 r k) hi0 rfl, h1 (ix2 k q) (ix2 k s) rfl hi1]

/-! ## From the blocks to the array -/

/-- The block indices over the grid of 8 × 4 points: the left block follows the output's block row and spans every
    inner index, the right block follows the output's block column, and the output's block indices stay in their
    ranges. -/
theorem mm2_idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7 ∧ win2_2.index t (1 : Fin 2) ≤ 3 :=
  (by decide +kernel : ∀ t : Fin grid2.N, _)

/-- Every one of the 8 × 4 output blocks is some point's. -/
theorem mm2_idx_onto : ∀ (q0 : Fin 8) (q1 : Fin 4), ∃ t : Fin cfg2.N, win2_2.index t = ![q0.val, q1.val] :=
  (by decide +kernel : ∀ (q0 : Fin 8) (q1 : Fin 4), ∃ t : Fin grid2.N, win2_2.index t = ![q0.val, q1.val])

-- the core's buffer contents when the region is entered
variable (V : (c : Dev nD) → (b : Ref sig .tc) → Buf (Elt Ideal) ((c : Thread nD τ).loc b))

/-- What point t writes back is its block of the whole product. -/
theorem mm2_flushed_eq (c : Dev nD) (t : Fin cfg2.N) :
    (dat2 V c).flushed 2 t = ((cfg2.win 2).blk t).view.read (Elt Ideal)
      (Cert.Spec.mm (V c main_v11 : S4096x2048.Idx → EReal) (V c main_v3 : S2048x2048.Idx → EReal)) := by
  show (cfg2.win 2).cut (grid2.coords t) ((dat2 V c).after 2 t) = _
  rw [after2_2]
  unfold out2_2
  rw [View.canon_unit_zero mm2_zeros]
  simp only [View.ld_unit_zero (S := S512x2048) mm2_zeros, View.ld_unit_zero (S := S2048x512) mm2_zeros]
  obtain ⟨e0, e1, e2, e3, e4, e5⟩ := mm2_idx_facts t
  funext j
  refine mm2_block _ _ (iblk2 V c 0 t) (iblk2 V c 1 t) j (((cfg2.win 2).blk t).view.emb j)
    (win2_2.index t (0 : Fin 2) * 512) (win2_2.index t (1 : Fin 2) * 512) ?_ ?_ ?_ ?_
  · show win2_2.index t (0 : Fin 2) * 512 + 1 * (j 0).val = _; omega
  · show win2_2.index t (1 : Fin 2) * 512 + 1 * (j 1).val = _; omega
  · intro y z hz0 hz1
    show V c main_v11 (((cfg2.win 0).blk t).view.emb y) = V c main_v11 z
    refine congrArg _ (funext fun a => Fin.ext ?_)
    match a with
    | ⟨0, _⟩ => show win2_0.index t (0 : Fin 2) * 512 + 1 * (y 0).val = (z 0).val; omega
    | ⟨1, _⟩ => show win2_0.index t (1 : Fin 2) * 2048 + 1 * (y 1).val = (z 1).val; omega
  · intro y z hz0 hz1
    show V c main_v3 (((cfg2.win 1).blk t).view.emb y) = V c main_v3 z
    refine congrArg _ (funext fun a => Fin.ext ?_)
    match a with
    | ⟨0, _⟩ => show win2_1.index t (0 : Fin 2) * 2048 + 1 * (y 0).val = (z 0).val; omega
    | ⟨1, _⟩ => show win2_1.index t (1 : Fin 2) * 512 + 1 * (y 1).val = (z 1).val; omega

/-- An index of the output array is in point t's block when each coordinate is in the block's range on its axis. -/
theorem mm2_mem_blk (t : Fin cfg2.N) (i : S4096x2048.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v12).slice (win2_2.rect t)).set ↔ _
  rw [View.set_slice_whole, Rect.mem_set_unit]
  exact Iff.rfl

/-- Every index of the output array is in some point's block: row r lies in block row r / 512, column s in block
    column s / 512. -/
theorem mm2_cover (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ := mm2_idx_onto ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mm2_mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-- The last product's output array after the run is the whole product of its two input arrays. -/
theorem final2 (c : Dev nD) :
    ((dat2 V c).arrAt 2 cfg2.N : S4096x2048.Idx → EReal)
      = Cert.Spec.mm (V c main_v11 : S4096x2048.Idx → EReal) (V c main_v3 : S2048x2048.Idx → EReal) :=
  (dat2 V c).arrAt_eq_of_cover 2 (Cert.Spec.mm (V c main_v11 : S4096x2048.Idx → EReal) (V c main_v3 : S2048x2048.Idx → EReal))
    (fun t _ => mm2_flushed_eq V c t) mm2_cover

end Cert.KernelIdeal.Hand

end
-- ==== Proof.KI.Chain.lean ====
/- The kernel's program end to end, on the extended reals: the result buffer at the program's end is the layer of the
   specification applied to the five arguments — the three kernel calls' output arrays joined by the host operations
   between them (reshapes, the weights' transposes, the cosine and sine tables laid side by side). -/
import proofs.«412668_j88940182765732_3_alg».proof.Proof.KI.Run
import proofs.«412668_j88940182765732_3_alg».proof.Proof.KI.Value0
import proofs.«412668_j88940182765732_3_alg».proof.Proof.KI.Value1
import proofs.«412668_j88940182765732_3_alg».proof.Proof.KI.Value2
import proofs.«412668_j88940182765732_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The five arguments, as arrays of extended reals -/

/-- The input, by (batch, position, feature). -/
abbrev argX (c : Dev nD) : Cert.Spec.Arr3 2 2048 2048 := m ((c.tc : Thread nD τ).loc main_arg0)
/-- The cosine table, by (position, angle). -/
abbrev argCos (c : Dev nD) : Cert.Spec.Arr2 2048 32 := m ((c.tc : Thread nD τ).loc main_arg1)
/-- The sine table, by (position, angle). -/
abbrev argSin (c : Dev nD) : Cert.Spec.Arr2 2048 32 := m ((c.tc : Thread nD τ).loc main_arg2)
/-- The first projection's weights, by (output feature, input feature). -/
abbrev argWqkv (c : Dev nD) : Cert.Spec.Arr2 3072 2048 := m ((c.tc : Thread nD τ).loc main_arg3)
/-- The last projection's weights, by (output feature, input feature). -/
abbrev argWout (c : Dev nD) : Cert.Spec.Arr2 2048 2048 := m ((c.tc : Thread nD τ).loc main_arg4)

/-! ## Rows of a matrix of 4096 rows as (batch, position) pairs -/

/-- Row 2048 b + t. -/
def rowOf (b : Fin 2) (t : Fin 2048) : Fin 4096 := ⟨2048 * b.val + t.val, by omega⟩

/-- A [2, 2048, E] array flattened to [4096, E], read at row 2048 b + t. -/
theorem flatten_apply {E : Nat} (x : Cert.Spec.Arr3 2 2048 E)
    (h : (⟨3, ![2, 2048, E]⟩ : Shape).ShapeCasts ⟨2, ![4096, E]⟩) (b : Fin 2) (t : Fin 2048) (e : Fin E) :
    shapeCast ⟨2, ![4096, E]⟩ x h (ix2 (rowOf b t) e) = x (ix3 b t e) :=
  shapeCast_apply x h _ _ (by
    rw [Shape.rowMajor_val_three, Shape.rowMajor_val_two]
    show (b.val * 2048 + t.val) * E + e.val = (2048 * b.val + t.val) * E + e.val
    rw [Nat.mul_comm b.val 2048])

/-- A [4096, E] matrix split to [2, 2048, E], read at (b, t). -/
theorem split_apply {E : Nat} (y : Cert.Spec.Arr2 4096 E)
    (h : (⟨2, ![4096, E]⟩ : Shape).ShapeCasts ⟨3, ![2, 2048, E]⟩) (b : Fin 2) (t : Fin 2048) (e : Fin E) :
    shapeCast ⟨3, ![2, 2048, E]⟩ y h (ix3 b t e) = y (ix2 (rowOf b t) e) :=
  shapeCast_apply y h _ _ (by
    rw [Shape.rowMajor_val_three, Shape.rowMajor_val_two]
    show (2048 * b.val + t.val) * E + e.val = (b.val * 2048 + t.val) * E + e.val
    rw [Nat.mul_comm b.val 2048])

/-- A matrix product whose left factor is x flattened, whose right factor is w transposed, split back into (batch,
    position) rows, is the projection of x by w. -/
theorem proj_of_mm {E Fo : Nat} (x : Cert.Spec.Arr3 2 2048 E) (w : Cert.Spec.Arr2 Fo E)
    (A : Cert.Spec.Arr2 4096 E) (B : Cert.Spec.Arr2 E Fo) (R : Cert.Spec.Arr3 2 2048 Fo)
    (hA : ∀ b t e, A (ix2 (rowOf b t) e) = x (ix3 b t e))
    (hB : ∀ e f, B (ix2 e f) = w (ix2 f e))
    (hR : ∀ b t f, R (ix3 b t f) = Cert.Spec.mm A B (ix2 (rowOf b t) f)) :
    R = Cert.Spec.proj x w := by
  funext j
  obtain ⟨b, t, f, rfl⟩ : ∃ b t f, j = ix3 b t f := ⟨j 0, j 1, j 2, eq_ix3 j⟩
  rw [hR]
  show ∑ k : Fin E, A (ix2 (rowOf b t) k) * B (ix2 k f) = ∑ e : Fin E, x (ix3 b t e) * w (ix2 f e)
  exact Finset.sum_congr rfl fun e _ => by rw [hA, hB]

/-! ## Buffers no operation has written yet -/

theorem W2_arg1 (c : Dev nD) : W2 m c (Proc.devRef .tc main_arg1) = m ((c.tc : Thread nD τ).loc main_arg1) := by
  rw [W2_of_ne m c main_arg1 (by decide)]
  show StableHlo.after hostOps0 _ (Proc.devRef .tc main_arg1) = _
  after_results
theorem W2_arg2 (c : Dev nD) : W2 m c (Proc.devRef .tc main_arg2) = m ((c.tc : Thread nD τ).loc main_arg2) := by
  rw [W2_of_ne m c main_arg2 (by decide)]
  show StableHlo.after hostOps0 _ (Proc.devRef .tc main_arg2) = _
  after_results

/-! ## The first product's entry -/

/-- Its left matrix is the input flattened to 4096 rows. -/
theorem W1_v4 (c : Dev nD) :
    (W1 m c (Proc.devRef .tc main_v4) : S4096x2048.Idx → EReal)
      = shapeCast S4096x2048 (argX m c) shapeCasts_S2x2048x2048_S4096x2048 := by
  show StableHlo.after hostOps0 _ (Proc.devRef .tc main_v4) = _
  after_results; rfl

/-- Its right matrix is the first weight matrix transposed (narrowing the format changes no extended real). -/
theorem W1_v1 (c : Dev nD) :
    (W1 m c (Proc.devRef .tc main_v1) : S2048x3072.Idx → EReal)
      = transpose S2048x3072 [1, 0] (argWqkv m c) transposes_S3072x2048_S2048x3072_1_0 := by
  show StableHlo.after hostOps0 _ (Proc.devRef .tc main_v1) = _
  after_results; rfl

/-- The last weight matrix transposed, made in the same stretch. -/
theorem W1_v3 (c : Dev nD) :
    (W1 m c (Proc.devRef .tc main_v3) : S2048x2048.Idx → EReal)
      = transpose S2048x2048 [1, 0] (argWout m c) transposes_S2048x2048_S2048x2048_1_0 := by
  show StableHlo.after hostOps0 _ (Proc.devRef .tc main_v3) = _
  after_results; rfl

/-! ## The first product's exit and the attention call's entry -/

theorem W2_v5 (c : Dev nD) :
    (W2 m c (Proc.devRef .tc main_v5) : S4096x3072.Idx → EReal)
      = Cert.Spec.mm (W1 m c (Proc.devRef .tc main_v4) : S4096x2048.Idx → EReal) (W1 m c (Proc.devRef .tc main_v1) : S2048x3072.Idx → EReal) :=
  (W2_arr m c 2).trans (final0 (V1 m) c)

theorem W3_v6 (c : Dev nD) :
    (W3 m c (Proc.devRef .tc main_v6) : S2x2048x3072.Idx → EReal)
      = shapeCast S2x2048x3072 (W2 m c (Proc.devRef .tc main_v5) : S4096x3072.Idx → EReal) shapeCasts_S4096x3072_S2x2048x3072 := by
  show StableHlo.after hostOps1 _ (Proc.devRef .tc main_v6) = _
  after_results; rfl

/-- The attention call's input array is the projection of the input by the first weight matrix. -/
theorem W3_v6_proj (c : Dev nD) :
    (W3 m c (Proc.devRef .tc main_v6) : S2x2048x3072.Idx → EReal) = Cert.Spec.proj (argX m c) (argWqkv m c) :=
  proj_of_mm (argX m c) (argWqkv m c) (W1 m c (Proc.devRef .tc main_v4)) (W1 m c (Proc.devRef .tc main_v1)) _
    (fun b t e => by rw [W1_v4]; exact flatten_apply ..)
    (fun e f => by rw [W1_v1]; exact transpose_ix2_apply ..)
    (fun b t f => by rw [W3_v6, W2_v5]; exact split_apply ..)

/-- Two tables of 32 columns laid side by side along the columns are the specification's table of 64 columns. -/
theorem concat_eq_cat (a b : Cert.Spec.Arr2 2048 32) :
    concatenate S2048x64 1 [⟨S2048x32, a⟩, ⟨S2048x32, b⟩] concatenates_S2048x32_S2048x32_S2048x64_d1 = Cert.Spec.cat a b := by
  funext j
  unfold Cert.Spec.cat
  by_cases h : (j 1).val < 32
  · rw [dif_pos h]
    exact concatenate_pair_apply_left 1 a b _ j rfl (ix2 (j 0) ⟨(j 1).val, h⟩)
      (fun d => match d with | ⟨0, _⟩ => rfl | ⟨1, _⟩ => rfl)
  · rw [dif_neg h]
    have h1 : (j 1).val < 64 := (j 1).isLt
    exact concatenate_pair_apply_right 1 a b _ j rfl rfl (ix2 (j 0) ⟨(j 1).val - 32, by omega⟩)
      (fun d hd => match d, hd with | ⟨0, _⟩, _ => rfl | ⟨1, _⟩, hd => absurd rfl hd)
      (by show (j 1).val - 32 + 32 = (j 1).val; omega)

/-- The attention call's cosine table: the cosines twice. -/
theorem W3_v7 (c : Dev nD) :
    (W3 m c (Proc.devRef .tc main_v7) : S2048x64.Idx → EReal) = Cert.Spec.cat (argCos m c) (argCos m c) := by
  show StableHlo.after hostOps1 _ (Proc.devRef .tc main_v7) = _
  after_results
  rw [W2_arg1]
  exact concat_eq_cat _ _

/-- The attention call's sine table: the sines negated, then the sines. -/
theorem W3_v9 (c : Dev nD) :
    (W3 m c (Proc.devRef .tc main_v9) : S2048x64.Idx → EReal) = Cert.Spec.cat (fun j => -(argSin m c j)) (argSin m c) := by
  show StableHlo.after hostOps1 _ (Proc.devRef .tc main_v9) = _
  after_results
  rw [W2_arg2]
  exact concat_eq_cat _ _

/-! ## The attention call's exit and the last product's entry -/

/-- The attention call's output array is the attention stage of the projected input. -/
theorem W4_v10 (c : Dev nD) :
    (W4 m c (Proc.devRef .tc main_v10) : S2x2048x2048.Idx → EReal)
      = Cert.Spec.att (Cert.Spec.proj (argX m c) (argWqkv m c)) (argCos m c) (argSin m c) := by
  rw [W4_out, final1]
  show Cert.Spec.attK (W3 m c (Proc.devRef .tc main_v6)) (W3 m c (Proc.devRef .tc main_v7)) (W3 m c (Proc.devRef .tc main_v9)) = _
  rw [W3_v6_proj, W3_v7, W3_v9]
  exact Cert.Spec.attK_cat _ _ _

theorem W5_v11 (c : Dev nD) :
    (W5 m c (Proc.devRef .tc main_v11) : S4096x2048.Idx → EReal)
      = shapeCast S4096x2048 (W4 m c (Proc.devRef .tc main_v10) : S2x2048x2048.Idx → EReal) shapeCasts_S2x2048x2048_S4096x2048 := by
  show StableHlo.after hostOps2 _ (Proc.devRef .tc main_v11) = _
  after_results; rfl

/-- The last product's right matrix is still the last weight matrix transposed: nothing since has written it. -/
theorem W5_v3 (c : Dev nD) :
    (W5 m c (Proc.devRef .tc main_v3) : S2048x2048.Idx → EReal)
      = transpose S2048x2048 [1, 0] (argWout m c) transposes_S2048x2048_S2048x2048_1_0 := by
  show StableHlo.after hostOps2 _ (Proc.devRef .tc main_v3) = _
  after_results
  rw [W4_of_ne m c main_v3 (by decide)]
  show StableHlo.after hostOps1 _ (Proc.devRef .tc main_v3) = _
  after_results
  rw [W2_of_ne m c main_v3 (by decide)]
  exact W1_v3 m c

/-! ## The last product's exit and the program's end -/

theorem W6_v12 (c : Dev nD) :
    (W6 m c (Proc.devRef .tc main_v12) : S4096x2048.Idx → EReal)
      = Cert.Spec.mm (W5 m c (Proc.devRef .tc main_v11) : S4096x2048.Idx → EReal) (W5 m c (Proc.devRef .tc main_v3) : S2048x2048.Idx → EReal) :=
  (W6_arr m c 2).trans (final2 (V5 m) c)

theorem W7_v13 (c : Dev nD) :
    (W7 m c (Proc.devRef .tc main_v13) : S2x2048x2048.Idx → EReal)
      = shapeCast S2x2048x2048 (W6 m c (Proc.devRef .tc main_v12) : S4096x2048.Idx → EReal) shapeCasts_S4096x2048_S2x2048x2048 := by
  show StableHlo.after hostOps3 _ (Proc.devRef .tc main_v13) = _
  after_results; rfl

/-- The result buffer at the program's end is the specification's layer of the arguments. -/
theorem result (c : Dev nD) :
    (W7 m c (Proc.devRef .tc main_v13) : S2x2048x2048.Idx → EReal)
      = Cert.Spec.layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  proj_of_mm (Cert.Spec.att (Cert.Spec.proj (argX m c) (argWqkv m c)) (argCos m c) (argSin m c)) (argWout m c)
    (W5 m c (Proc.devRef .tc main_v11)) (W5 m c (Proc.devRef .tc main_v3)) _
    (fun b t e => by rw [W5_v11, W4_v10]; exact flatten_apply ..)
    (fun e f => by rw [W5_v3]; exact transpose_ix2_apply ..)
    (fun b t f => by rw [W7_v13, W6_v12]; exact split_apply ..)

end Cert.KernelIdeal.Hand

end
-- ==== Proof.RefGen.lean ====
/- The reference program's run and its operations read at an index, gathered for the modules that state what the reference computes. -/
import proofs.«412668_j88940182765732_3_alg».proof.Proof.Gen.ReferenceIdeal.Run
import proofs.«412668_j88940182765732_3_alg».proof.Proof.Gen.ReferenceIdeal.Read
-- ==== Proof.Ref.Heads.lean ====
/- The reference's queries, keys and values by head, on the extended reals: its first operation is the projection of the
   specification; from there the rotated queries (head by head), the rotated keys and the values (each group's repeated
   for its four heads) are the specification's, entry by entry. -/
import proofs.«412668_j88940182765732_3_alg».proof.Proof.RefGen
import proofs.«412668_j88940182765732_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx

/-! ## Where each layout step of the reference reads its operand

A row of width 3072 is cut into 8 groups of 6 slots of 64 lanes; slots 0 to 3 are the group's four query heads, slot 4
its key, slot 5 its value. Head h = 4g + i is slot i of group g. Each statement below says at which index of its
operand one step reads, for an index given by its coordinates. -/

/-- The row cut into (group, slot, lane): lane d of slot s of group g is column 384g + 64s + d. -/
private theorem row_split (b : Fin 2) (t : Fin 2048) (g : Fin 8) (s : Fin 6) (d : Fin 64) :
    idx_main_v1 (ix5 b t g s d) = ix3 b t ⟨g.val * 384 + s.val * 64 + d.val, by omega⟩ := by
  funext a; apply Fin.ext
  match a with
  | ⟨0, _⟩ => show ((((b.val * 2048 + t.val) * 8 + g.val) * 6 + s.val) * 64 + d.val) / 6291456 = b.val; omega
  | ⟨1, _⟩ => show ((((b.val * 2048 + t.val) * 8 + g.val) * 6 + s.val) * 64 + d.val) / 3072 % 2048 = t.val; omega
  | ⟨2, _⟩ => show ((((b.val * 2048 + t.val) * 8 + g.val) * 6 + s.val) * 64 + d.val) % 3072 = g.val * 384 + s.val * 64 + d.val; omega

/-- The four query slots of a group are its slots 0 to 3. -/
private theorem query_slots (b : Fin 2) (t : Fin 2048) (g : Fin 8) (i : Fin 4) (d : Fin 64) :
    idx_main_v2 (ix5 b t g i d) = ix5 b t g ⟨i.val, by omega⟩ d := by
  funext a; apply Fin.ext
  match a with
  | ⟨0, _⟩ => rfl
  | ⟨1, _⟩ => rfl
  | ⟨2, _⟩ => rfl
  | ⟨3, _⟩ => rfl
  | ⟨4, _⟩ => rfl

/-- Head h is slot h % 4 of group h / 4. -/
private theorem head_split (b : Fin 2) (t : Fin 2048) (h : Fin 32) (d : Fin 64) :
    idx_main_v3 (ix4 b t h d) = ix5 b t ⟨h.val / 4, by omega⟩ ⟨h.val % 4, by omega⟩ d := by
  funext a; apply Fin.ext
  match a with
  | ⟨0, _⟩ => show (((b.val * 2048 + t.val) * 32 + h.val) * 64 + d.val) / 4194304 = b.val; omega
  | ⟨1, _⟩ => show (((b.val * 2048 + t.val) * 32 + h.val) * 64 + d.val) / 2048 % 2048 = t.val; omega
  | ⟨2, _⟩ => show (((b.val * 2048 + t.val) * 32 + h.val) * 64 + d.val) / 256 % 8 = h.val / 4; omega
  | ⟨3, _⟩ => show (((b.val * 2048 + t.val) * 32 + h.val) * 64 + d.val) / 64 % 4 = h.val % 4; omega
  | ⟨4, _⟩ => show (((b.val * 2048 + t.val) * 32 + h.val) * 64 + d.val) % 64 = d.val; omega

/-- The key is slot 4. -/
private theorem key_slot (b : Fin 2) (t : Fin 2048) (g : Fin 8) (z : Fin 1) (d : Fin 64) :
    idx_main_v4 (ix5 b t g z d) = ix5 b t g ⟨4, by omega⟩ d := by
  funext a; apply Fin.ext
  match a with
  | ⟨0, _⟩ => rfl
  | ⟨1, _⟩ => rfl
  | ⟨2, _⟩ => rfl
  | ⟨3, _⟩ => show 4 + z.val = 4; omega
  | ⟨4, _⟩ => rfl

/-- Dropping the key's slot axis of size one. -/
private theorem key_unit (b : Fin 2) (t : Fin 2048) (g : Fin 8) (d : Fin 64) :
    idx_main_v5 (ix4 b t g d) = ix5 b t g ⟨0, Nat.one_pos⟩ d := by
  funext a; apply Fin.ext
  match a with
  | ⟨0, _⟩ => show (((b.val * 2048 + t.val) * 8 + g.val) * 64 + d.val) / 1048576 = b.val; omega
  | ⟨1, _⟩ => show (((b.val * 2048 + t.val) * 8 + g.val) * 64 + d.val) / 512 % 2048 = t.val; omega
  | ⟨2, _⟩ => show (((b.val * 2048 + t.val) * 8 + g.val) * 64 + d.val) / 64 % 8 = g.val; omega
  | ⟨3, _⟩ => rfl
  | ⟨4, _⟩ => show (((b.val * 2048 + t.val) * 8 + g.val) * 64 + d.val) % 64 = d.val; omega

/-- The value is slot 5. -/
private theorem value_slot (b : Fin 2) (t : Fin 2048) (g : Fin 8) (z : Fin 1) (d : Fin 64) :
    idx_main_v6 (ix5 b t g z d) = ix5 b t g ⟨5, by omega⟩ d := by
  funext a; apply Fin.ext
  match a with
  | ⟨0, _⟩ => rfl
  | ⟨1, _⟩ => rfl
  | ⟨2, _⟩ => rfl
  | ⟨3, _⟩ => show 5 + z.val = 5; omega
  | ⟨4, _⟩ => rfl

/-- Dropping the value's slot axis of size one. -/
private theorem value_unit (b : Fin 2) (t : Fin 2048) (g : Fin 8) (d : Fin 64) :
    idx_main_v7 (ix4 b t g d) = ix5 b t g ⟨0, Nat.one_pos⟩ d := by
  funext a; apply Fin.ext
  match a with
  | ⟨0, _⟩ => show (((b.val * 2048 + t.val) * 8 + g.val) * 64 + d.val) / 1048576 = b.val; omega
  | ⟨1, _⟩ => show (((b.val * 2048 + t.val) * 8 + g.val) * 64 + d.val) / 512 % 2048 = t.val; omega
  | ⟨2, _⟩ => show (((b.val * 2048 + t.val) * 8 + g.val) * 64 + d.val) / 64 % 8 = g.val; omega
  | ⟨3, _⟩ => rfl
  | ⟨4, _⟩ => show (((b.val * 2048 + t.val) * 8 + g.val) * 64 + d.val) % 64 = d.val; omega

/-- Queries by (batch, head, position, lane) from (batch, position, head, lane). -/
private theorem query_swap (b : Fin 2) (h : Fin 32) (t : Fin 2048) (d : Fin 64) :
    idx_main_v8 (ix4 b h t d) = ix4 b t h d := by
  funext a; apply Fin.ext
  match a with
  | ⟨0, _⟩ => rfl
  | ⟨1, _⟩ => rfl
  | ⟨2, _⟩ => rfl
  | ⟨3, _⟩ => rfl

/-- Keys by (batch, group, position, lane) from (batch, position, group, lane). -/
private theorem key_swap (b : Fin 2) (g : Fin 8) (t : Fin 2048) (d : Fin 64) :
    idx_main_v9 (ix4 b g t d) = ix4 b t g d := by
  funext a; apply Fin.ext
  match a with
  | ⟨0, _⟩ => rfl
  | ⟨1, _⟩ => rfl
  | ⟨2, _⟩ => rfl
  | ⟨3, _⟩ => rfl

/-- A group's key repeated for its four heads. -/
private theorem key_repeat (b : Fin 2) (g : Fin 8) (i : Fin 4) (t : Fin 2048) (d : Fin 64) :
    idx_main_v10 (ix5 b g i t d) = ix4 b g t d := by
  funext a; apply Fin.ext
  match a with
  | ⟨0, _⟩ => rfl
  | ⟨1, _⟩ => rfl
  | ⟨2, _⟩ => rfl
  | ⟨3, _⟩ => rfl

/-- Head h of the repeated keys is copy h % 4 of group h / 4. -/
private theorem key_heads (b : Fin 2) (h : Fin 32) (t : Fin 2048) (d : Fin 64) :
    idx_main_v11 (ix4 b h t d) = ix5 b ⟨h.val / 4, by omega⟩ ⟨h.val % 4, by omega⟩ t d := by
  funext a; apply Fin.ext
  match a with
  | ⟨0, _⟩ => show (((b.val * 32 + h.val) * 2048 + t.val) * 64 + d.val) / 4194304 = b.val; omega
  | ⟨1, _⟩ => show (((b.val * 32 + h.val) * 2048 + t.val) * 64 + d.val) / 524288 % 8 = h.val / 4; omega
  | ⟨2, _⟩ => show (((b.val * 32 + h.val) * 2048 + t.val) * 64 + d.val) / 131072 % 4 = h.val % 4; omega
  | ⟨3, _⟩ => show (((b.val * 32 + h.val) * 2048 + t.val) * 64 + d.val) / 64 % 2048 = t.val; omega
  | ⟨4, _⟩ => show (((b.val * 32 + h.val) * 2048 + t.val) * 64 + d.val) % 64 = d.val; omega

/-- Values by (batch, group, position, lane) from (batch, position, group, lane). -/
private theorem value_swap (b : Fin 2) (g : Fin 8) (t : Fin 2048) (d : Fin 64) :
    idx_main_v12 (ix4 b g t d) = ix4 b t g d := by
  funext a; apply Fin.ext
  match a with
  | ⟨0, _⟩ => rfl
  | ⟨1, _⟩ => rfl
  | ⟨2, _⟩ => rfl
  | ⟨3, _⟩ => rfl

/-- A group's value repeated for its four heads. -/
private theorem value_repeat (b : Fin 2) (g : Fin 8) (i : Fin 4) (t : Fin 2048) (d : Fin 64) :
    idx_main_v13 (ix5 b g i t d) = ix4 b g t d := by
  funext a; apply Fin.ext
  match a with
  | ⟨0, _⟩ => rfl
  | ⟨1, _⟩ => rfl
  | ⟨2, _⟩ => rfl
  | ⟨3, _⟩ => rfl

/-- Head h of the repeated values is copy h % 4 of group h / 4. -/
private theorem value_heads (b : Fin 2) (h : Fin 32) (t : Fin 2048) (d : Fin 64) :
    idx_main_v14 (ix4 b h t d) = ix5 b ⟨h.val / 4, by omega⟩ ⟨h.val % 4, by omega⟩ t d := by
  funext a; apply Fin.ext
  match a with
  | ⟨0, _⟩ => show (((b.val * 32 + h.val) * 2048 + t.val) * 64 + d.val) / 4194304 = b.val; omega
  | ⟨1, _⟩ => show (((b.val * 32 + h.val) * 2048 + t.val) * 64 + d.val) / 524288 % 8 = h.val / 4; omega
  | ⟨2, _⟩ => show (((b.val * 32 + h.val) * 2048 + t.val) * 64 + d.val) / 131072 % 4 = h.val % 4; omega
  | ⟨3, _⟩ => show (((b.val * 32 + h.val) * 2048 + t.val) * 64 + d.val) / 64 % 2048 = t.val; omega
  | ⟨4, _⟩ => show (((b.val * 32 + h.val) * 2048 + t.val) * 64 + d.val) % 64 = d.val; omega

/-! ## Lanes, tables and the joined halves -/

/-- The first 32 lanes of the queries. -/
private theorem q_lo_idx (b : Fin 2) (h : Fin 32) (t : Fin 2048) (j : Fin 32) :
    idx_main_v18 (ix4 b h t j) = ix4 b h t ⟨j.val, by omega⟩ := by
  funext a; apply Fin.ext
  match a with
  | ⟨0, _⟩ => rfl
  | ⟨1, _⟩ => rfl
  | ⟨2, _⟩ => rfl
  | ⟨3, _⟩ => rfl

/-- The last 32 lanes of the queries. -/
private theorem q_hi_idx (b : Fin 2) (h : Fin 32) (t : Fin 2048) (j : Fin 32) :
    idx_main_v19 (ix4 b h t j) = ix4 b h t ⟨j.val + 32, by omega⟩ := by
  funext a; apply Fin.ext
  match a with
  | ⟨0, _⟩ => rfl
  | ⟨1, _⟩ => rfl
  | ⟨2, _⟩ => rfl
  | ⟨3, _⟩ => show 32 + j.val = j.val + 32; omega

/-- The first 32 lanes of the keys. -/
private theorem k_lo_idx (b : Fin 2) (h : Fin 32) (t : Fin 2048) (j : Fin 32) :
    idx_main_v34 (ix4 b h t j) = ix4 b h t ⟨j.val, by omega⟩ := by
  funext a; apply Fin.ext
  match a with
  | ⟨0, _⟩ => rfl
  | ⟨1, _⟩ => rfl
  | ⟨2, _⟩ => rfl
  | ⟨3, _⟩ => rfl

/-- The last 32 lanes of the keys. -/
private theorem k_hi_idx (b : Fin 2) (h : Fin 32) (t : Fin 2048) (j : Fin 32) :
    idx_main_v35 (ix4 b h t j) = ix4 b h t ⟨j.val + 32, by omega⟩ := by
  funext a; apply Fin.ext
  match a with
  | ⟨0, _⟩ => rfl
  | ⟨1, _⟩ => rfl
  | ⟨2, _⟩ => rfl
  | ⟨3, _⟩ => show 32 + j.val = j.val + 32; omega

section Tables
variable (c : (⟨S2048x32, .f32⟩ : BufTy).Contents (Elt Ideal)) (b : Fin 2) (h : Fin 32) (t : Fin 2048) (j : Fin 32)

/-- A table spread over batches and heads is the table at (position, lane): the eight spread tables of the program. -/
private theorem table20 : val_main_v20 c (ix4 b h t j) = c (ix2 t j) := by
  rw [val_main_v20_apply, val_main_v16_apply]
  exact congrArg c (funext fun a => match a with | ⟨0, _⟩ => rfl | ⟨1, _⟩ => rfl)
private theorem table22 : val_main_v22 c (ix4 b h t j) = c (ix2 t j) := by
  rw [val_main_v22_apply, val_main_v17_apply]
  exact congrArg c (funext fun a => match a with | ⟨0, _⟩ => rfl | ⟨1, _⟩ => rfl)
private theorem table25 : val_main_v25 c (ix4 b h t j) = c (ix2 t j) := by
  rw [val_main_v25_apply, val_main_v16_apply]
  exact congrArg c (funext fun a => match a with | ⟨0, _⟩ => rfl | ⟨1, _⟩ => rfl)
private theorem table27 : val_main_v27 c (ix4 b h t j) = c (ix2 t j) := by
  rw [val_main_v27_apply, val_main_v17_apply]
  exact congrArg c (funext fun a => match a with | ⟨0, _⟩ => rfl | ⟨1, _⟩ => rfl)
private theorem table36 : val_main_v36 c (ix4 b h t j) = c (ix2 t j) := by
  rw [val_main_v36_apply, val_main_v32_apply]
  exact congrArg c (funext fun a => match a with | ⟨0, _⟩ => rfl | ⟨1, _⟩ => rfl)
private theorem table38 : val_main_v38 c (ix4 b h t j) = c (ix2 t j) := by
  rw [val_main_v38_apply, val_main_v33_apply]
  exact congrArg c (funext fun a => match a with | ⟨0, _⟩ => rfl | ⟨1, _⟩ => rfl)
private theorem table41 : val_main_v41 c (ix4 b h t j) = c (ix2 t j) := by
  rw [val_main_v41_apply, val_main_v32_apply]
  exact congrArg c (funext fun a => match a with | ⟨0, _⟩ => rfl | ⟨1, _⟩ => rfl)
private theorem table43 : val_main_v43 c (ix4 b h t j) = c (ix2 t j) := by
  rw [val_main_v43_apply, val_main_v33_apply]
  exact congrArg c (funext fun a => match a with | ⟨0, _⟩ => rfl | ⟨1, _⟩ => rfl)

end Tables

section Joined
variable (u v : (⟨S2x32x2048x32, .f32⟩ : BufTy).Contents (Elt Ideal)) (w : (⟨S2x32x2048x0, .f32⟩ : BufTy).Contents (Elt Ideal))
  (b : Fin 2) (h : Fin 32) (t : Fin 2048) (d : Fin 64)

/-- Two 32-lane halves and an empty piece joined along the lanes: a lane below 32 is the first half's. -/
private theorem joined_lo (hd : d.val < 32) :
    concatenate S2x32x2048x64 3 [⟨S2x32x2048x32, u⟩, ⟨S2x32x2048x32, v⟩, ⟨S2x32x2048x0, w⟩]
      concatenates_S2x32x2048x32_S2x32x2048x32_S2x32x2048x0_S2x32x2048x64_d3 (ix4 b h t d) = u (ix4 b h t ⟨d.val, hd⟩) := by
  refine concatenate_apply_piece (3 : Fin 4) [⟨S2x32x2048x32, u⟩, ⟨S2x32x2048x32, v⟩, ⟨S2x32x2048x0, w⟩] _ (ix4 b h t d) 0
    (Nat.zero_lt_succ _) S2x32x2048x32 u rfl rfl 0 rfl
    (ix4 b h t ⟨d.val, hd⟩) ?_ ?_
  · intro a ha
    match a with
    | ⟨0, _⟩ => rfl
    | ⟨1, _⟩ => rfl
    | ⟨2, _⟩ => rfl
    | ⟨3, _⟩ => exact absurd rfl ha
  · show 0 + d.val = d.val; omega

/-- A lane from 32 on is the second half's, 32 lanes earlier. -/
private theorem joined_hi (hd : ¬ d.val < 32) :
    concatenate S2x32x2048x64 3 [⟨S2x32x2048x32, u⟩, ⟨S2x32x2048x32, v⟩, ⟨S2x32x2048x0, w⟩]
      concatenates_S2x32x2048x32_S2x32x2048x32_S2x32x2048x0_S2x32x2048x64_d3 (ix4 b h t d) = v (ix4 b h t ⟨d.val - 32, by omega⟩) := by
  refine concatenate_apply_piece (3 : Fin 4) [⟨S2x32x2048x32, u⟩, ⟨S2x32x2048x32, v⟩, ⟨S2x32x2048x0, w⟩] _ (ix4 b h t d) 1
    (Nat.succ_lt_succ (Nat.zero_lt_succ _)) S2x32x2048x32 v rfl rfl 32 rfl
    (ix4 b h t ⟨d.val - 32, by omega⟩) ?_ ?_
  · intro a ha
    match a with
    | ⟨0, _⟩ => rfl
    | ⟨1, _⟩ => rfl
    | ⟨2, _⟩ => rfl
    | ⟨3, _⟩ => exact absurd rfl ha
  · show 32 + (d.val - 32) = d.val; omega

end Joined

variable (x0 : (⟨S2x2048x2048, .f32⟩ : BufTy).Contents (Elt Ideal)) (x1 x2 : (⟨S2048x32, .f32⟩ : BufTy).Contents (Elt Ideal))
  (x3 : (⟨S3072x2048, .f32⟩ : BufTy).Contents (Elt Ideal)) (x4 : (⟨S2048x2048, .f32⟩ : BufTy).Contents (Elt Ideal))

/-- The reference's first operation is the projection to queries, keys and values. -/
theorem qkv_eq : val_main_v0 x0 x3 = Cert.Spec.proj x0 x3 := by
  funext i
  rw [val_main_v0_apply]
  have hl : ∀ k : Fin 2048, lidx_main_v0 i k = ix3 (i 0) (i 1) k := fun k => funext fun a => Fin.ext (by
    match a with
    | ⟨0, _⟩ => rfl
    | ⟨1, _⟩ => rfl
    | ⟨2, _⟩ => rfl)
  have hr : ∀ k : Fin 2048, ridx_main_v0 i k = ix2 (i 2) k := fun k => funext fun a => Fin.ext (by
    match a with
    | ⟨0, _⟩ => rfl
    | ⟨1, _⟩ => rfl)
  simp only [hl, hr]
  rfl

/-- Lane d of head h's query at position t, before the rotation. -/
private theorem q_lane (b : Fin 2) (h : Fin 32) (t : Fin 2048) (d : Fin 64) :
    val_main_v8 x0 x3 (ix4 b h t d) = Cert.Spec.proj x0 x3 (ix3 b t (Cert.Spec.qcol h d)) := by
  rw [val_main_v8_apply, query_swap, val_main_v3_apply, head_split, val_main_v2_apply, query_slots,
    val_main_v1_apply, row_split, qkv_eq]
  rfl

/-- Lane d of the key of head h's group at position t, before the rotation. -/
private theorem k_lane (b : Fin 2) (h : Fin 32) (t : Fin 2048) (d : Fin 64) :
    val_main_v11 x0 x3 (ix4 b h t d) = Cert.Spec.proj x0 x3 (ix3 b t (Cert.Spec.kcol (Cert.Spec.grp h) d)) := by
  rw [val_main_v11_apply, key_heads, val_main_v10_apply, key_repeat, val_main_v9_apply, key_swap,
    val_main_v5_apply, key_unit, val_main_v4_apply, key_slot, val_main_v1_apply, row_split, qkv_eq]
  rfl

/-- The reference's rotated queries: entry (b, h, t, d) is head h's rotated query at position t, lane d. -/
theorem qrot_apply (b : Fin 2) (h : Fin 32) (t : Fin 2048) (d : Fin 64) :
    val_main_v30 x0 x1 x2 x3 (ix4 b h t d) = Cert.Spec.qr (Cert.Spec.proj x0 x3) x1 x2 b t h d := by
  unfold Cert.Spec.qr Cert.Spec.rope val_main_v30
  by_cases hd : d.val < 32
  · rw [dif_pos hd, joined_lo _ _ _ b h t d hd, val_main_v24_apply, val_main_v21_apply, val_main_v23_apply,
      val_main_v18_apply, val_main_v19_apply, q_lo_idx, q_hi_idx, q_lane, q_lane, table20, table22]
    rfl
  · rw [dif_neg hd, joined_hi _ _ _ b h t d hd, val_main_v29_apply, val_main_v26_apply, val_main_v28_apply,
      val_main_v18_apply, val_main_v19_apply, q_lo_idx, q_hi_idx, q_lane, q_lane, table25, table27]
    have e : (⟨d.val - 32 + 32, by omega⟩ : Fin 64) = d := Fin.ext (by show d.val - 32 + 32 = d.val; omega)
    rw [e]
    rfl

/-- The reference's rotated keys: entry (b, h, k, d) is the rotated key of head h's group at position k, lane d. -/
theorem krot_apply (b : Fin 2) (h : Fin 32) (k : Fin 2048) (d : Fin 64) :
    val_main_v46 x0 x1 x2 x3 (ix4 b h k d) = Cert.Spec.kr (Cert.Spec.proj x0 x3) x1 x2 b k (Cert.Spec.grp h) d := by
  unfold Cert.Spec.kr Cert.Spec.rope val_main_v46
  by_cases hd : d.val < 32
  · rw [dif_pos hd, joined_lo _ _ _ b h k d hd, val_main_v40_apply, val_main_v37_apply, val_main_v39_apply,
      val_main_v34_apply, val_main_v35_apply, k_lo_idx, k_hi_idx, k_lane, k_lane, table36, table38]
    rfl
  · rw [dif_neg hd, joined_hi _ _ _ b h k d hd, val_main_v45_apply, val_main_v42_apply, val_main_v44_apply,
      val_main_v34_apply, val_main_v35_apply, k_lo_idx, k_hi_idx, k_lane, k_lane, table41, table43]
    have e : (⟨d.val - 32 + 32, by omega⟩ : Fin 64) = d := Fin.ext (by show d.val - 32 + 32 = d.val; omega)
    rw [e]
    rfl

/-- The reference's values: entry (b, h, k, d) is the value of head h's group at position k, lane d. -/
theorem val_apply (b : Fin 2) (h : Fin 32) (k : Fin 2048) (d : Fin 64) :
    val_main_v14 x0 x3 (ix4 b h k d) = Cert.Spec.vl (Cert.Spec.proj x0 x3) b k (Cert.Spec.grp h) d := by
  rw [val_main_v14_apply, value_heads, val_main_v13_apply, value_repeat, val_main_v12_apply, value_swap,
    val_main_v7_apply, value_unit, val_main_v6_apply, value_slot, val_main_v1_apply, row_split, qkv_eq]
  rfl

end Cert.ReferenceIdeal.Hand

end
-- ==== Proof.Ref.Layer.lean ====
/- The reference end to end, on the extended reals: scores, softmax and weighted values over the heads' rotated queries,
   rotated keys and values give the attention stage of the specification, and the last operation is the projection
   back: the reference's result is the specification's layer of the five arguments. -/
import proofs.«412668_j88940182765732_3_alg».proof.Proof.RefGen
import proofs.«412668_j88940182765732_3_alg».proof.Proof.Spec
import proofs.«412668_j88940182765732_3_alg».proof.Proof.Ref.Heads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx

variable (x0 : (⟨S2x2048x2048, .f32⟩ : BufTy).Contents (Elt Ideal)) (x1 x2 : (⟨S2048x32, .f32⟩ : BufTy).Contents (Elt Ideal))
  (x3 : (⟨S3072x2048, .f32⟩ : BufTy).Contents (Elt Ideal)) (x4 : (⟨S2048x2048, .f32⟩ : BufTy).Contents (Elt Ideal))

/-- The reference's scaled scores: entry (b, h, t, k) is the score of query position t against key position k for head h. -/
theorem score_apply (b : Fin 2) (h : Fin 32) (t k : Fin 2048) :
    val_main_v49 x0 x1 x2 x3 (ix4 b h t k)
      = Cert.Spec.scoreOf (Cert.Spec.qr (Cert.Spec.proj x0 x3) x1 x2) (Cert.Spec.kr (Cert.Spec.proj x0 x3) x1 x2) b h t k := by
  have el : ∀ d : Fin 64, lidx_main_v47 (ix4 b h t k) d = ix4 b h t d := fun d => funext fun a => Fin.ext (by
    match a with | ⟨0, _⟩ => rfl | ⟨1, _⟩ => rfl | ⟨2, _⟩ => rfl | ⟨3, _⟩ => rfl)
  have er : ∀ d : Fin 64, ridx_main_v47 (ix4 b h t k) d = ix4 b h k d := fun d => funext fun a => Fin.ext (by
    match a with | ⟨0, _⟩ => rfl | ⟨1, _⟩ => rfl | ⟨2, _⟩ => rfl | ⟨3, _⟩ => rfl)
  rw [val_main_v49_apply, val_main_v47_apply, val_main_v48_apply, val_main_cst_apply]
  simp only [el, er, qrot_apply, krot_apply, Ideal.mulf_def]
  rfl

/-- Folding a maximum from a starting value gives at least that value, so taking the maximum with it again changes nothing. -/
private theorem max_fold_self {ι : Type} (s : Finset ι) (a : EReal) (f : ι → EReal) :
    max a (s.fold max a f) = s.fold max a f := by
  classical
  induction s using Finset.induction_on with
  | empty => simp
  | insert i s hi ih => rw [Finset.fold_insert hi, max_left_comm, ih]

/-- The reference's row maxima: entry (b, h, t) is the maximum, folded from minus infinity, of head h's scores of query
    position t against every key position. -/
theorem rowmax_apply (b : Fin 2) (h : Fin 32) (t : Fin 2048) :
    val_main_v52 x0 x1 x2 x3 (ix3 b h t) = Cert.Spec.rowMax (fun k' : Fin 2048 => Cert.Spec.scoreOf (Cert.Spec.qr (Cert.Spec.proj x0 x3) x1 x2) (Cert.Spec.kr (Cert.Spec.proj x0 x3) x1 x2) b h t k') := by
  have hR : S2x32x2048x2048.Reduces [3] S2x32x2048 := by decide
  have hk : ∀ k : Fin 2048, val_main_v49 x0 x1 x2 x3 (hR.lift (ix3 b h t) k)
      = Cert.Spec.scoreOf (Cert.Spec.qr (Cert.Spec.proj x0 x3) x1 x2) (Cert.Spec.kr (Cert.Spec.proj x0 x3) x1 x2) b h t k := fun k =>
    (congrArg (val_main_v49 x0 x1 x2 x3) (funext fun a => Fin.ext (by match a with | ⟨0, _⟩ => rfl | ⟨1, _⟩ => rfl | ⟨2, _⟩ => rfl | ⟨3, _⟩ => rfl))).trans (score_apply x0 x1 x2 x3 b h t k)
  have hf : (val_main_v49 x0 x1 x2 x3 ∘ hR.lift (ix3 b h t)) = (fun k' : Fin 2048 => Cert.Spec.scoreOf (Cert.Spec.qr (Cert.Spec.proj x0 x3) x1 x2) (Cert.Spec.kr (Cert.Spec.proj x0 x3) x1 x2) b h t k') := funext hk
  rw [val_main_v52_apply, val_main_v51_apply, val_main_cst_1_apply]
  unfold val_main_v50
  rw [Host.reduce_eq_fold_single FloatOps.maximumf _ _ reducesTo_S2x32x2048x2048_S2x32x2048_d3 hR h_S_, val_main_cst_0_apply, hf]
  exact max_fold_self _ _ _

/-- The reference's shifted exponentials: entry (b, h, t, k) is the exponential of the score less its row's maximum. -/
theorem exp_apply (b : Fin 2) (h : Fin 32) (t k : Fin 2048) :
    val_main_v56 x0 x1 x2 x3 (ix4 b h t k) = Cert.Spec.rowExp (fun k' : Fin 2048 => Cert.Spec.scoreOf (Cert.Spec.qr (Cert.Spec.proj x0 x3) x1 x2) (Cert.Spec.kr (Cert.Spec.proj x0 x3) x1 x2) b h t k') k := by
  have e1 : idx_main_v53 (idx_main_v54 (ix4 b h t k)) = ix3 b h t := funext fun a => Fin.ext (by match a with | ⟨0, _⟩ => rfl | ⟨1, _⟩ => rfl | ⟨2, _⟩ => rfl)
  rw [val_main_v56_apply, val_main_v55_apply, val_main_v54_apply, val_main_v53_apply, e1, rowmax_apply, score_apply]
  rfl

/-- The reference's row sums: entry (b, h, t) is the sum of the row's shifted exponentials. -/
theorem sum_apply (b : Fin 2) (h : Fin 32) (t : Fin 2048) :
    val_main_v57 x0 x1 x2 x3 (ix3 b h t) = ∑ k : Fin 2048, Cert.Spec.rowExp (fun k' : Fin 2048 => Cert.Spec.scoreOf (Cert.Spec.qr (Cert.Spec.proj x0 x3) x1 x2) (Cert.Spec.kr (Cert.Spec.proj x0 x3) x1 x2) b h t k') k := by
  have e1 : ∀ k : Fin 2048, idx_main_v57 (ix3 b h t) k = ix4 b h t k := fun k => funext fun a => Fin.ext (by match a with | ⟨0, _⟩ => rfl | ⟨1, _⟩ => rfl | ⟨2, _⟩ => rfl | ⟨3, _⟩ => rfl)
  rw [val_main_v57_apply, val_main_cst_2_apply]
  simp only [e1, exp_apply]
  exact (congrArg (· + _) Ideal.ofBits_zero_f32).trans (zero_add _)

/-- The reference's attention weights: entry (b, h, t, k) is the softmax of the row of scores at k. -/
theorem soft_apply (b : Fin 2) (h : Fin 32) (t k : Fin 2048) :
    val_main_v60 x0 x1 x2 x3 (ix4 b h t k) = Cert.Spec.softmax (fun k' : Fin 2048 => Cert.Spec.scoreOf (Cert.Spec.qr (Cert.Spec.proj x0 x3) x1 x2) (Cert.Spec.kr (Cert.Spec.proj x0 x3) x1 x2) b h t k') k := by
  have e1 : idx_main_v58 (idx_main_v59 (ix4 b h t k)) = ix3 b h t := funext fun a => Fin.ext (by match a with | ⟨0, _⟩ => rfl | ⟨1, _⟩ => rfl | ⟨2, _⟩ => rfl)
  rw [val_main_v60_apply, val_main_v59_apply, val_main_v58_apply, e1, sum_apply, exp_apply]
  rfl

/-- The reference's weighted values: entry (b, h, t, d) is lane d of head h's output at position t. -/
theorem head_apply (b : Fin 2) (h : Fin 32) (t : Fin 2048) (d : Fin 64) :
    val_main_v61 x0 x1 x2 x3 (ix4 b h t d) = Cert.Spec.headOf (Cert.Spec.qr (Cert.Spec.proj x0 x3) x1 x2) (Cert.Spec.kr (Cert.Spec.proj x0 x3) x1 x2) (Cert.Spec.vl (Cert.Spec.proj x0 x3)) b t h d := by
  have el : ∀ k : Fin 2048, lidx_main_v61 (ix4 b h t d) k = ix4 b h t k := fun k => funext fun a => Fin.ext (by match a with | ⟨0, _⟩ => rfl | ⟨1, _⟩ => rfl | ⟨2, _⟩ => rfl | ⟨3, _⟩ => rfl)
  have er : ∀ k : Fin 2048, ridx_main_v61 (ix4 b h t d) k = ix4 b h k d := fun k => funext fun a => Fin.ext (by match a with | ⟨0, _⟩ => rfl | ⟨1, _⟩ => rfl | ⟨2, _⟩ => rfl | ⟨3, _⟩ => rfl)
  rw [val_main_v61_apply]
  simp only [el, er, soft_apply, val_apply]
  rfl

/-- The reference's attention output, heads laid side by side, is the specification's attention stage: column e of
    row (b, t) is lane e mod 64 of head e / 64. -/
theorem att_eq : val_main_v63 x0 x1 x2 x3 = Cert.Spec.att (Cert.Spec.proj x0 x3) x1 x2 := by
  funext j
  obtain ⟨b, t, e, rfl⟩ : ∃ (b : Fin 2) (t : Fin 2048) (e : Fin 2048), j = ix3 b t e := ⟨j 0, j 1, j 2, eq_ix3 j⟩
  have hb : b.val < 2 := b.isLt
  have ht : t.val < 2048 := t.isLt
  have he : e.val < 2048 := e.isLt
  have e1 : idx_main_v62 (idx_main_v63 (ix3 b t e))
      = ix4 b (⟨e.val / 64, by omega⟩ : Fin 32) t (⟨e.val % 64, by omega⟩ : Fin 64) := funext fun a => Fin.ext (by
    match a with
    | ⟨0, _⟩ => show ((b.val * 2048 + t.val) * 2048 + e.val) / 4194304 = b.val; omega
    | ⟨1, _⟩ => show ((b.val * 2048 + t.val) * 2048 + e.val) / 64 % 32 = e.val / 64; omega
    | ⟨2, _⟩ => show ((b.val * 2048 + t.val) * 2048 + e.val) / 2048 % 2048 = t.val; omega
    | ⟨3, _⟩ => show ((b.val * 2048 + t.val) * 2048 + e.val) % 64 = e.val % 64; omega)
  rw [val_main_v63_apply, val_main_v62_apply, e1, head_apply]
  rfl

/-- The reference's result is the specification's layer of the arguments. -/
theorem result : val_main_v64 x0 x1 x2 x3 x4 = Cert.Spec.layer x0 x1 x2 x3 x4 := by
  funext j
  have el : ∀ k : Fin 2048, lidx_main_v64 j k = ix3 (j 0) (j 1) k := fun k => funext fun a => Fin.ext (by match a with | ⟨0, _⟩ => rfl | ⟨1, _⟩ => rfl | ⟨2, _⟩ => rfl)
  have er : ∀ k : Fin 2048, ridx_main_v64 j k = ix2 (j 2) k := fun k => funext fun a => Fin.ext (by
    match a with | ⟨0, _⟩ => rfl | ⟨1, _⟩ => rfl)
  rw [val_main_v64_apply, att_eq]
  simp only [el, er]
  rfl

end Cert.ReferenceIdeal.Hand

end
-- ==== Proof.lean ====
/- The attention layer's kernel program against its jnp reference: both compute the layer of the specification
   (Proof/Spec.lean) on the extended reals. The kernel's program is three pipelined calls joined by host operations:
   x · Wqkvᵀ block by block; per (batch, group, query tile) the rotary embedding of queries and keys, scores, softmax
   and weighted values of the group's four heads; and the attention output · Woutᵀ block by block. Its frames (it runs
   to the end, faults nowhere, leaves its arguments unchanged) come from one run of the three calls' pipelines at either
   float instance; its result is read off that run at the ideal instance (Proof/KI/Chain.lean). The reference is a
   straight line of host operations read one at a time (Proof/Ref/Layer.lean). The ideal pass rewrote nothing, so the
   idealized kernel is the kernel's own text read over the extended reals. -/
import proofs.«412668_j88940182765732_3_alg».proof.Defs
import proofs.«412668_j88940182765732_3_alg».proof.Proof.Gen.Kernel
import proofs.«412668_j88940182765732_3_alg».proof.Proof.Gen.KernelIdeal
import proofs.«412668_j88940182765732_3_alg».proof.Proof.Gen.ReferenceIdeal
import proofs.«412668_j88940182765732_3_alg».proof.Proof.Gen.Pre_finite_inputs
import proofs.«412668_j88940182765732_3_alg».proof.Proof.K.Run
import proofs.«412668_j88940182765732_3_alg».proof.Proof.KI.Run
import proofs.«412668_j88940182765732_3_alg».proof.Proof.KI.Chain
import proofs.«412668_j88940182765732_3_alg».proof.Proof.RefGen
import proofs.«412668_j88940182765732_3_alg».proof.Proof.Ref.Layer
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame (F := Bits) m ρ

/-- So does the same text read over the extended reals. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories agreeing on the five arguments both programs end with the specification's layer of the arguments in
    their result buffers. -/
theorem algebraic : Cert.algebraic_KernelIdeal_ReferenceIdeal := by
  intro m ρ m' ρ' _ hagree
  refine ⟨fun c => Cert.Spec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel's run: every unscoped buffer at the last boundary's contents
    refine (θ_run Cert.KernelIdeal.defs _ _).mono (fun r h c => ?_) (Cert.KernelIdeal.Hand.run_main (F := Ideal) m ρ)
    exact ⟨(h c _ (Cert.KernelIdeal.Hand.mem_uc Cert.KernelIdeal.main_v13 (by decide))).trans (Cert.KernelIdeal.Hand.result m c),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c)⟩
  · -- the reference's run: its result is the stage the operations compose to, which is the layer
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, Cert.ReferenceIdeal.Hand.result,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
